-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg2 : FVec F S65536x256 .f32) (main_arg3 : FVec F S65536x256 .f32) (main_v63 : IVec S_ 1) (main_v67 : IVec S_ 1) : IVec S_ 1 :=
  let main_v68 : IVec S_ 1 := andi main_v63 main_v67
  let main_v69 : FVec F S65536x256 .f32 := mulf main_arg2 main_arg2
  let main_cst_26 : FVec F S_ .f32 := constant S_ .f32 0x00000000#32
  let main_v70 : FVec F S_ .f32 := (fun x v => Host.reduceAdd x v reducesTo_S65536x256_S_d0_1 h_S_) main_v69 main_cst_26
  let main_cst_27 : FVec F S_ .f32 := constant S_ .f32 0x00000000#32
  let main_v71 : IVec S_ 1 := cmpf .ogt main_v70 main_cst_27
  let main_v72 : IVec S_ 1 := andi main_v68 main_v71
  let main_v73 : FVec F S65536x256 .f32 := mulf main_arg3 main_arg3
  let main_cst_28 : FVec F S_ .f32 := constant S_ .f32 0x00000000#32
  let main_v74 : FVec F S_ .f32 := (fun x v => Host.reduceAdd x v reducesTo_S65536x256_S_d0_1 h_S_) main_v73 main_cst_28
  let main_cst_29 : FVec F S_ .f32 := constant S_ .f32 0x00000000#32
  let main_v75 : IVec S_ 1 := cmpf .ogt main_v74 main_cst_29
  let main_v76 : IVec S_ 1 := andi main_v72 main_v75
  main_v76

def fn_part3 {F : FTy → Type} [FloatOps F] (main_arg2 : FVec F S65536x256 .f32) (main_arg3 : FVec F S65536x256 .f32) (main_arg11 : FVec F S128 .f32) (main_arg12 : FVec F S256x256 .f32) (main_arg13 : FVec F S256 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg2 main_arg3 main_v63 main_v67

def fn_part2 {F : FTy → Type} [FloatOps F] (main_arg2 : FVec F S65536x256 .f32) (main_arg3 : FVec F S65536x256 .f32) (main_arg7 : FVec F S256 .f32) (main_arg8 : FVec F S256x256 .f32) (main_arg9 : FVec F S256 .f32) (main_arg10 : FVec F S128x256 .f32) (main_arg11 : FVec F S128 .f32) (main_arg12 : FVec F S256x256 .f32) (main_arg13 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg10
  let main_cst_18 : FVec F S_ .f32 := constant S_ .f32 0x7F800000#32
  let main_v50 : FVec F S128x256 .f32 := broadcastInDim S128x256 ![] bcast_S_S128x256 main_cst_18
  fn_part3 (F := F) main_arg2 main_arg3 main_arg11 main_arg12 main_arg13 main_v48 main_v49 main_v50

def fn_part1 {F : FTy → Type} [FloatOps F] (main_arg2 : FVec F S65536x256 .f32) (main_arg3 : FVec F S65536x256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S128x256 .f32) (main_arg11 : FVec F S128 .f32) (main_arg12 : FVec F S256x256 .f32) (main_arg13 : FVec F S256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg2 main_arg3 main_arg7 main_arg8 main_arg9 main_arg10 main_arg11 main_arg12 main_arg13 main_v33

def fn {F : FTy → Type} [FloatOps F] (main_arg0 : FVec F S65536x256 .f32) (main_arg1 : FVec F S65536x256 .f32) (main_arg2 : FVec F S65536x256 .f32) (main_arg3 : FVec F S65536x256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S128x256 .f32) (main_arg11 : FVec F S128 .f32) (main_arg12 : FVec F S256x256 .f32) (main_arg13 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg2 main_arg3 main_arg4 main_arg5 main_arg6 main_arg7 main_arg8 main_arg9 main_arg10 main_arg11 main_arg12 main_arg13 main_v13 main_v16
-- ==== Kernel.lean ====
abbrev S65536x256 : Shape := ⟨2, ![65536, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S256x128 : Shape := ⟨2, ![256, 128]⟩
abbrev S1x256 : Shape := ⟨2, ![1, 256]⟩
abbrev S1x128 : Shape := ⟨2, ![1, 128]⟩
abbrev S1x1 : Shape := ⟨2, ![1, 1]⟩
abbrev S2048x256 : Shape := ⟨2, ![2048, 256]⟩
abbrev S2048 : Shape := ⟨1, ![2048]⟩
abbrev S2048x1 : Shape := ⟨2, ![2048, 1]⟩
abbrev S1 : Shape := ⟨1, ![1]⟩
abbrev S65536x128 : Shape := ⟨2, ![65536, 128]⟩
abbrev S2048x128 : Shape := ⟨2, ![2048, 128]⟩

abbrev nBuf : Space → Nat
  | .hbm => 32
  | .vmem => 46
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x128, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x128, .f32⟩
  | .hbm, ⟨24, _⟩ => ⟨S65536x256, .f32⟩
  | .hbm, ⟨25, _⟩ => ⟨S256x256, .f32⟩
  | .hbm, ⟨26, _⟩ => ⟨S1x1, .f32⟩
  | .hbm, ⟨27, _⟩ => ⟨S65536x256, .f32⟩
  | .hbm, ⟨28, _⟩ => ⟨S256x256, .f32⟩
  | .hbm, ⟨29, _⟩ => ⟨S1x1, .f32⟩
  | .hbm, ⟨30, _⟩ => ⟨S65536x256, .f32⟩
  | .hbm, ⟨31, _⟩ => ⟨S65536x128, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S2048x256, .f32⟩
  | .local _ .vmem, ⟨11, _⟩ => ⟨S2048x256, .f32⟩
  | .local _ .vmem, ⟨12, _⟩ => ⟨S256x256, .f32⟩
  | .local _ .vmem, ⟨13, _⟩ => ⟨S1x1, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S256x256, .f32⟩
  | .local _ .vmem, ⟨21, _⟩ => ⟨S1x1, .f32⟩
  | .local _ .vmem, ⟨22, _⟩ => ⟨S256x256, .f32⟩
  | .local _ .vmem, ⟨23, _⟩ => ⟨S1x256, .f32⟩
  | .local _ .vmem, ⟨24, _⟩ => ⟨S256x256, .f32⟩
  | .local _ .vmem, ⟨25, _⟩ => ⟨S1x256, .f32⟩
  | .local _ .vmem, ⟨26, _⟩ => ⟨S2048x256, .f32⟩
  | .local _ .vmem, ⟨27, _⟩ => ⟨S2048x256, .f32⟩
  | .local _ .vmem, ⟨28, _⟩ => ⟨S256x256, .f32⟩
  | .local _ .vmem, ⟨29, _⟩ => ⟨S1x1, .f32⟩
  | .local _ .vmem, ⟨30, _⟩ => ⟨S2048x256, .f32⟩
  | .local _ .vmem, ⟨31, _⟩ => ⟨S2048x256, .f32⟩
  | .local _ .vmem, ⟨32, _⟩ => ⟨S2048x256, .f32⟩
  | .local _ .vmem, ⟨33, _⟩ => ⟨S2048x256, .f32⟩
  | .local _ .vmem, ⟨34, _⟩ => ⟨S256x256, .f32⟩
  | .local _ .vmem, ⟨35, _⟩ => ⟨S1x1, .f32⟩
  | .local _ .vmem, ⟨36, _⟩ => ⟨S256x256, .f32⟩
  | .local _ .vmem, ⟨37, _⟩ => ⟨S1x256, .f32⟩
  | .local _ .vmem, ⟨38, _⟩ => ⟨S256x256, .f32⟩
  | .local _ .vmem, ⟨39, _⟩ => ⟨S1x256, .f32⟩
  | .local _ .vmem, ⟨40, _⟩ => ⟨S256x128, .f32⟩
  | .local _ .vmem, ⟨41, _⟩ => ⟨S1x128, .f32⟩
  | .local _ .vmem, ⟨42, _⟩ => ⟨S2048x256, .f32⟩
  | .local _ .vmem, ⟨43, _⟩ => ⟨S2048x256, .f32⟩
  | .local _ .vmem, ⟨44, _⟩ => ⟨S2048x128, .f32⟩
  | .local _ .vmem, ⟨45, _⟩ => ⟨S2048x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v11_0 : Ref sig .tc := ⟨.hbm, 27, rfl⟩
abbrev main_v11_1 : Ref sig .tc := ⟨.hbm, 28, rfl⟩
abbrev main_v11_2 : Ref sig .tc := ⟨.hbm, 29, rfl⟩
abbrev main_v12_0 : Ref sig .tc := ⟨.hbm, 30, rfl⟩
abbrev main_v12_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg11_0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg10_1 : Ref sig .tc := ⟨.vmem, 43, rfl⟩
abbrev cc2_stg11_0 : Ref sig .tc := ⟨.vmem, 44, rfl⟩
abbrev cc2_stg11_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27
abbrev cc1_sem10_0 : DmaSem sig := 28
abbrev cc1_sem11_0 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem10_1 : DmaSem sig := 43
abbrev cc2_sem11_0 : DmaSem sig := 44
abbrev cc2_sem11_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S256x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S256x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2048x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S2048x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  transposes_S256x256_S256x256_1_0 : S256x256.Transposes [1, 0] S256x256
  transposes_S128x256_S256x128_1_0 : S128x256.Transposes [1, 0] S256x128
  shapeCasts_S256_S1x256 : S256.ShapeCasts S1x256
  shapeCasts_S128_S1x128 : S128.ShapeCasts S1x128
  inb_S256x256_S256x256_0_0 : ∀ a, (![0, 0] : Fin 2 → Nat) a + S256x256.size a ≤ S256x256.size a
  h_S256x256 : 0 < S256x256.numel
  inb_S1x1_S1x1_0_0 : ∀ a, (![0, 0] : Fin 2 → Nat) a + S1x1.size a ≤ S1x1.size a
  h_S1x1 : 0 < S1x1.numel
  inb_S2048x256_S2048x256_0_0 : ∀ a, (![0, 0] : Fin 2 → Nat) a + S2048x256.size a ≤ S2048x256.size a
  h_S2048x256 : 0 < S2048x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  broadcasts_S1x256_S2048x256 : S1x256.Broadcasts S2048x256
  reduces_S2048x256_S2048 : S2048x256.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  shapeCasts_S2048x256_S2048x256 : S2048x256.ShapeCasts S2048x256
  broadcasts_S1x1_S2048x256 : S1x1.Broadcasts S2048x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S2048x256_S256x256_S2048x256_1_0_0_1_n_n_wf : DotDims.WF S2048x256 S256x256 S2048x256 [1] [0] [0] [1] [] []
  dot_S2048x256_S2048x256_S256x256_0_0_1_1_n_n_wf : DotDims.WF S2048x256 S2048x256 S256x256 [0] [0] [1] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S65536x256.size a
  hwx1_1 : ∀ i : grid1.Coords, EltTy.bits .f32 = 32 ∨ (Rect.block (s := S65536x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S65536x256.size a
  hwx1_2 : ∀ i : grid1.Coords, EltTy.bits .f32 = 32 ∨ (Rect.block (s := S65536x256) S2048x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256x256.size a ≤ S256x256.size a
  hwx1_7 : ∀ i : grid1.Coords, EltTy.bits .f32 = 32 ∨ (Rect.block (s := S256x256) S256x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x256.size a ≤ S65536x256.size a
  hwx1_9 : ∀ i : grid1.Coords, EltTy.bits .f32 = 32 ∨ (Rect.block (s := S65536x256) S2048x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256x256.size a ≤ S256x256.size a
  hwx1_10 : ∀ i : grid1.Coords, EltTy.bits .f32 = 32 ∨ (Rect.block (s := S256x256) S256x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .f32 = 32 ∨ (Rect.block (s := S65536x256) S2048x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S65536x256.size a
  hwx2_1 : ∀ i : grid2.Coords, EltTy.bits .f32 = 32 ∨ (Rect.block (s := S65536x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S256x128.size a
  hwx2_8 : ∀ i : grid2.Coords, EltTy.bits .f32 = 32 ∨ (Rect.block (s := S256x128) S256x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x256.size a ≤ S65536x256.size a
  hwx2_10 : ∀ i : grid2.Coords, EltTy.bits .f32 = 32 ∨ (Rect.block (s := S65536x256) S2048x256.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2048x128.size a ≤ S65536x128.size a
  hwx2_11 : ∀ i : grid2.Coords, EltTy.bits .f32 = 32 ∨ (Rect.block (s := S65536x128) S2048x128.size (cc2_transform_11 i) (hinb2_11 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S256x256.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S1x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v10_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10_1) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10_2) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S256x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11_0) S2048x256.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v11_1) S256x256.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_v11_2) S1x1.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v11_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11_1) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11_2) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v3) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v8) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v4) S256x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v9) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v12_0) S2048x256.size cc2_transform_10 reads2_10 true false 2 stage2_10 sem2_10
    hrank2 hreads2_10 hinb2_10 nbuf2_10 (Memref.isWhole_whole _) hwx2_10 hstage2_10

abbrev win2_11 : Pipeline.Window sig grid2 :=
  Pipeline.Window.ofSpec (Memref.whole main_v12_1) S2048x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x256 : Shape := ⟨2, ![1, 256]⟩
abbrev S_ : Shape := ⟨0, ![]⟩
abbrev S256x65536 : Shape := ⟨2, ![256, 65536]⟩
abbrev S256x128 : Shape := ⟨2, ![256, 128]⟩
abbrev S65536x128 : Shape := ⟨2, ![65536, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S65536x256, .f32⟩
  | .hbm, ⟨16, _⟩ => ⟨S1x256, .f32⟩
  | .hbm, ⟨17, _⟩ => ⟨S65536x256, .f32⟩
  | .hbm, ⟨18, _⟩ => ⟨S65536x256, .f32⟩
  | .hbm, ⟨19, _⟩ => ⟨S65536x256, .f32⟩
  | .hbm, ⟨20, _⟩ => ⟨S256x256, .f32⟩
  | .hbm, ⟨21, _⟩ => ⟨S65536x256, .f32⟩
  | .hbm, ⟨22, _⟩ => ⟨S1x256, .f32⟩
  | .hbm, ⟨23, _⟩ => ⟨S65536x256, .f32⟩
  | .hbm, ⟨24, _⟩ => ⟨S65536x256, .f32⟩
  | .hbm, ⟨25, _⟩ => ⟨S65536x256, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S65536x256, .f32⟩
  | .hbm, ⟨32, _⟩ => ⟨S65536x256, .f32⟩
  | .hbm, ⟨33, _⟩ => ⟨S256x65536, .f32⟩
  | .hbm, ⟨34, _⟩ => ⟨S256x256, .f32⟩
  | .hbm, ⟨35, _⟩ => ⟨S65536x256, .f32⟩
  | .hbm, ⟨36, _⟩ => ⟨S65536x256, .f32⟩
  | .hbm, ⟨37, _⟩ => ⟨S256x256, .f32⟩
  | .hbm, ⟨38, _⟩ => ⟨S65536x256, .f32⟩
  | .hbm, ⟨39, _⟩ => ⟨S1x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S256x256, .f32⟩
  | .hbm, ⟨44, _⟩ => ⟨S65536x256, .f32⟩
  | .hbm, ⟨45, _⟩ => ⟨S1x256, .f32⟩
  | .hbm, ⟨46, _⟩ => ⟨S65536x256, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S65536x256, .f32⟩
  | .hbm, ⟨55, _⟩ => ⟨S65536x256, .f32⟩
  | .hbm, ⟨56, _⟩ => ⟨S256x65536, .f32⟩
  | .hbm, ⟨57, _⟩ => ⟨S256x256, .f32⟩
  | .hbm, ⟨58, _⟩ => ⟨S65536x256, .f32⟩
  | .hbm, ⟨59, _⟩ => ⟨S65536x256, .f32⟩
  | .hbm, ⟨60, _⟩ => ⟨S256x256, .f32⟩
  | .hbm, ⟨61, _⟩ => ⟨S65536x256, .f32⟩
  | .hbm, ⟨62, _⟩ => ⟨S1x256, .f32⟩
  | .hbm, ⟨63, _⟩ => ⟨S65536x256, .f32⟩
  | .hbm, ⟨64, _⟩ => ⟨S65536x256, .f32⟩
  | .hbm, ⟨65, _⟩ => ⟨S65536x256, .f32⟩
  | .hbm, ⟨66, _⟩ => ⟨S256x256, .f32⟩
  | .hbm, ⟨67, _⟩ => ⟨S65536x256, .f32⟩
  | .hbm, ⟨68, _⟩ => ⟨S1x256, .f32⟩
  | .hbm, ⟨69, _⟩ => ⟨S65536x256, .f32⟩
  | .hbm, ⟨70, _⟩ => ⟨S65536x256, .f32⟩
  | .hbm, ⟨71, _⟩ => ⟨S65536x256, .f32⟩
  | .hbm, ⟨72, _⟩ => ⟨S65536x256, .f32⟩
  | .hbm, ⟨73, _⟩ => ⟨S256x128, .f32⟩
  | .hbm, ⟨74, _⟩ => ⟨S65536x128, .f32⟩
  | .hbm, ⟨75, _⟩ => ⟨S1x128, .f32⟩
  | .hbm, ⟨76, _⟩ => ⟨S65536x128, .f32⟩
  | .hbm, ⟨77, _⟩ => ⟨S65536x128, .f32⟩
  | .hbm, ⟨78, _⟩ => ⟨S65536x128, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_v0 : Ref sig .tc := ⟨.hbm, 27, rfl⟩
abbrev main_call0_cst : Ref sig .tc := ⟨.hbm, 28, rfl⟩
abbrev main_call0_v1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S_d0_1 : S65536x256.ReducesTo [0, 1] S_
  h_S_ : 0 < S_.numel
  bcast_S_S65536x256 : S_.BroadcastsInDim S65536x256 (![] : Fin 0 → Fin S65536x256.rank)
  transposes_S65536x256_S256x65536_1_0 : S65536x256.Transposes [1, 0] S256x65536
  transposes_S128x256_S256x128_1_0 : S128x256.Transposes [1, 0] S256x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  dot_S65536x256_S256x256_S65536x256_1_0_0_1_n_n_wf : DotDims.WF S65536x256 S256x256 S65536x256 [1] [0] [0] [1] [] []
  dot_S256x65536_S65536x256_S256x256_1_0_0_1_n_n_wf : DotDims.WF S256x65536 S65536x256 S256x256 [1] [0] [0] [1] [] []
  dot_S65536x256_S256x128_S65536x128_1_0_0_1_n_n_wf : DotDims.WF S65536x256 S256x128 S65536x128 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S256x65536_S65536x256_S256x256_1_0_0_1_n_n : DotDims S256x65536 S65536x256 S256x256 where
  lhsContracting := [1]
  rhsContracting := [0]
  lhsNonContracting := [0]
  rhsNonContracting := [1]
  lhsBatch := []
  rhsBatch := []
  wf := dot_S256x65536_S65536x256_S256x256_1_0_0_1_n_n_wf
def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf

class Facts : Prop extends Facts₀ where

variable [Facts]
-- ==== Proof.Cell.lean ====
/-
  The mathematics both programs compute, by coordinates, on the extended reals.

  A "cell" is three stages of the same shape.  Each stage adds two layers, tanh (X · Wᵀ + b), and between stages the
  running hidden state H is DEFLATED against a data matrix X (rows × features): the part of H in the column space
  direction X (Xᵀ H) / ‖X‖² is removed, ‖X‖² the sum of all squares of X (the square of its Frobenius norm).

  Two spellings of the deflation occur.  One multiplies X (Xᵀ H) by 1 / ‖X‖².  The other first divides X by
  ‖X‖ = √‖X‖² and then forms X̂ (X̂ᵀ H).  On real entries with ‖X‖² > 0 they agree, since (1/‖X‖)·(1/‖X‖) = 1/‖X‖²
  (the law is proved in the module that imports this one); with ‖X‖² = 0 the second divides 0 by 0.

  The layers come in two layouts of the same numbers: with the weight as given (out × in) and the bias a vector,
  and with the weight transposed (in × out) and the bias a 1 × out row.
-/
import Idealize.ShloMosaic.PureOps.Ideal
import Idealize.ShloMosaic.Lib.ValueIdx

noncomputable section

open Idealize.ShloMosaic Idealize.ShloMosaic.ValueIdx

namespace Cell

/-- A matrix by coordinates. -/
abbrev Mat (n m : Nat) := Fin n → Fin m → EReal

/-- A rank-2 array read by coordinates. -/
def rd {n m : Nat} (X : (⟨2, ![n, m]⟩ : Shape).Idx → EReal) : Mat n m := fun r k => X (ix2 r k)

/-- A matrix by coordinates as a rank-2 array. -/
def arr {n m : Nat} (X : Mat n m) : (⟨2, ![n, m]⟩ : Shape).Idx → EReal := fun i => X (i 0) (i 1)

theorem rd_arr {n m : Nat} (X : Mat n m) : rd (arr X) = X := rfl

/-- One layer, weight out × in, bias a vector: tanh (∑ₖ X r k · W j k + b j). -/
def act {n d e : Nat} (X : Mat n d) (W : (⟨2, ![e, d]⟩ : Shape).Idx → EReal) (b : (⟨1, ![e]⟩ : Shape).Idx → EReal) : Mat n e :=
  fun r j => Ideal.tanh ((∑ k : Fin d, X r k * W (ix2 j k)) + b (ix1 j))

/-- The same layer with the weight transposed (in × out) and the bias a 1 × out row. -/
def actT {n d e : Nat} (X : Mat n d) (Wt : (⟨2, ![d, e]⟩ : Shape).Idx → EReal) (b2 : (⟨2, ![1, e]⟩ : Shape).Idx → EReal) : Mat n e :=
  fun r j => Ideal.tanh ((∑ k : Fin d, X r k * Wt (ix2 k j)) + b2 (ix2 0 j))

/-- A stage: the sum of two layers. -/
def stage {n d d' e : Nat} (X : Mat n d) (Y : Mat n d') (W : (⟨2, ![e, d]⟩ : Shape).Idx → EReal) (b : (⟨1, ![e]⟩ : Shape).Idx → EReal)
    (U : (⟨2, ![e, d']⟩ : Shape).Idx → EReal) (c : (⟨1, ![e]⟩ : Shape).Idx → EReal) : Mat n e :=
  fun r j => act X W b r j + act Y U c r j

/-- The same stage in the transposed layout. -/
def stageT {n d d' e : Nat} (X : Mat n d) (Y : Mat n d') (Wt : (⟨2, ![d, e]⟩ : Shape).Idx → EReal) (b2 : (⟨2, ![1, e]⟩ : Shape).Idx → EReal)
    (Ut : (⟨2, ![d', e]⟩ : Shape).Idx → EReal) (c2 : (⟨2, ![1, e]⟩ : Shape).Idx → EReal) : Mat n e :=
  fun r j => actT X Wt b2 r j + actT Y Ut c2 r j

/-- ‖X‖²: the sum of the squares of every entry. -/
def sumsq {n d : Nat} (X : Mat n d) : EReal := ∑ r : Fin n, ∑ k : Fin d, X r k * X r k

/-- Xᵀ H. -/
def gram {n d e : Nat} (X : Mat n d) (H : Mat n e) : Mat d e := fun k j => ∑ r : Fin n, X r k * H r j

/-- H with X (M) · (1 / s) removed, M and s given (a d × e array and a 1 × 1 array). -/
def deflateWith {n d e : Nat} (X : Mat n d) (H : Mat n e) (M : (⟨2, ![d, e]⟩ : Shape).Idx → EReal)
    (s : (⟨2, ![1, 1]⟩ : Shape).Idx → EReal) : Mat n e :=
  fun r j => H r j - (∑ k : Fin d, X r k * M (ix2 k j)) * Ideal.div 1 (s (ix2 0 0))

/-- The deflation, first spelling: H − X (Xᵀ H) · (1 / ‖X‖²). -/
def deflateK {n d e : Nat} (X : Mat n d) (H : Mat n e) : Mat n e :=
  fun r j => H r j - (∑ k : Fin d, X r k * gram X H k j) * Ideal.div 1 (sumsq X)

/-- The deflation, second spelling: H − X̂ (X̂ᵀ H) with X̂ = X / √‖X‖². -/
def deflateR {n d e : Nat} (X : Mat n d) (H : Mat n e) : Mat n e :=
  fun r j => H r j - ∑ k : Fin d, Ideal.div (X r k) (Ideal.sqrt (sumsq X))
    * ∑ r' : Fin n, Ideal.div (X r' k) (Ideal.sqrt (sumsq X)) * H r' j

theorem deflateWith_gram {n d e : Nat} (X : Mat n d) (H : Mat n e) :
    deflateWith X H (arr (gram X H)) (fun _ => sumsq X) = deflateK X H := rfl

/-- The whole cell, first spelling of the deflation: the last hidden state. -/
def hiddenK {n d : Nat} (nh hp nr nt : Mat n d) (Wnh Wnr Wnt Wh : (⟨2, ![d, d]⟩ : Shape).Idx → EReal)
    (bnh bnr bnt bh : (⟨1, ![d]⟩ : Shape).Idx → EReal) : Mat n d :=
  stage nt (deflateK nt (stage nr (deflateK nr (stage nh hp Wnh bnh Wh bh)) Wnr bnr Wh bh)) Wnt bnt Wh bh

/-- The whole cell, second spelling. -/
def hiddenR {n d : Nat} (nh hp nr nt : Mat n d) (Wnh Wnr Wnt Wh : (⟨2, ![d, d]⟩ : Shape).Idx → EReal)
    (bnh bnr bnt bh : (⟨1, ![d]⟩ : Shape).Idx → EReal) : Mat n d :=
  stage nt (deflateR nt (stage nr (deflateR nr (stage nh hp Wnh bnh Wh bh)) Wnr bnr Wh bh)) Wnt bnt Wh bh

/-- A hyperbolic tangent on the extended reals is a real number. -/
theorem tanh_real (x : EReal) : ∃ y : ℝ, Ideal.tanh x = (y : EReal) := by
  induction x using EReal.rec with
  | bot => exact ⟨-1, by rw [EReal.coe_neg, EReal.coe_one]; rfl⟩
  | coe r => exact ⟨Real.tanh r, rfl⟩
  | top => exact ⟨1, by rw [EReal.coe_one]; rfl⟩

/-- So every entry of a stage is a real number, whatever its inputs. -/
theorem stage_real {n d d' e : Nat} (X : Mat n d) (Y : Mat n d') (W : (⟨2, ![e, d]⟩ : Shape).Idx → EReal) (b : (⟨1, ![e]⟩ : Shape).Idx → EReal)
    (U : (⟨2, ![e, d']⟩ : Shape).Idx → EReal) (c : (⟨1, ![e]⟩ : Shape).Idx → EReal) (r : Fin n) (j : Fin e) :
    ∃ y : ℝ, stage X Y W b U c r j = (y : EReal) := by
  obtain ⟨a, ha⟩ := tanh_real ((∑ k : Fin d, X r k * W (ix2 j k)) + b (ix1 j))
  obtain ⟨a', ha'⟩ := tanh_real ((∑ k : Fin d', Y r k * U (ix2 j k)) + c (ix1 j))
  exact ⟨a + a', by unfold stage act; rw [ha, ha', EReal.coe_add]⟩

end Cell

end
-- ==== Proof.K0a.lean ====
import proofs.«151021_j35390530519886_1_alg».proof.Proof.Gen.KernelIdeal.Frame
import proofs.«151021_j35390530519886_1_alg».proof.Proof.Cell
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx Cert.KernelIdeal Cert.KernelIdeal.Gen Cell
open Idealize.ShloMosaic.Pipeline (Dat)

namespace Cert.KernelIdeal.K0

/-! # Region 0: what each case of the body leaves in its three output buffers

The body of the first pass is run once per control case: the first grid point, where the two accumulators are reset to
zero before they are added to, and every later point, where they are added to as found. Each output buffer is covered by
the body's stores, so what it holds afterwards is the last store's value: the stage's block for the hidden state, the
accumulator plus this block's contribution for the two sums. -/

variable {F : FTy → Type} [FloatOps F]

/-- The origin of a rank-2 block. -/
theorem hz : (![0, 0] : Fin 2 → Nat) = fun _ => 0 := funext fun a => by fin_cases a <;> rfl

/-- A later point leaves the stage's block in the hidden state's buffer. -/
theorem out_B_7 (c : Dev nD) (i : grid0.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .f32) (h8 : a8.IsWhole) (a9 : Memref sig .tc .vmem S256x256 .f32) (h9 : a9.IsWhole) (a10 : Memref sig .tc .vmem S1x1 .f32) (h10 : a10.IsWhole) (hc : ¬cond0_0 i) (x0 : Vec F S2048x256 .f32) (x1 : Vec F S2048x256 .f32) (x2 : Vec F S2048x256 .f32) (x3 : Vec F S256x256 .f32) (x4 : Vec F S1x256 .f32) (x5 : Vec F S256x256 .f32) (x6 : Vec F S1x256 .f32) (xo8 : Vec F S256x256 .f32) (xo9 : Vec F S1x1 .f32) :
    out0_B_7 c i a1 h1 a2 h2 a3 h3 a4 h4 a5 h5 a6 h6 a7 h7 a8 h8 a9 h9 a10 h10 hc x0 x1 x2 x3 x4 x5 x6 xo8 xo9 = k0_pay4 x0 x1 x3 x4 x5 x6 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h4.read_unread, h5.read_unread, h6.read_unread, h7.read_unread, View.ld_unit_zero (S := S2048x256) hz, View.ld_unit_zero (S := S256x256) hz, View.ld_unit_zero (S := S1x256) hz, View.ld_unit_zero (S := S1x1) hz]

/-- A later point adds this block's Xᵀ H to the matrix accumulator it found. -/
theorem out_B_8 (c : Dev nD) (i : grid0.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .f32) (h8 : a8.IsWhole) (a9 : Memref sig .tc .vmem S256x256 .f32) (h9 : a9.IsWhole) (a10 : Memref sig .tc .vmem S1x1 .f32) (h10 : a10.IsWhole) (hc : ¬cond0_0 i) (x0 : Vec F S2048x256 .f32) (x1 : Vec F S2048x256 .f32) (x2 : Vec F S2048x256 .f32) (x3 : Vec F S256x256 .f32) (x4 : Vec F S1x256 .f32) (x5 : Vec F S256x256 .f32) (x6 : Vec F S1x256 .f32) (xo8 : Vec F S256x256 .f32) (xo9 : Vec F S1x1 .f32) :
    out0_B_8 c i a1 h1 a2 h2 a3 h3 a4 h4 a5 h5 a6 h6 a7 h7 a8 h8 a9 h9 a10 h10 hc x0 x1 x2 x3 x4 x5 x6 xo8 xo9 = k0_pay5 x0 x1 x2 x3 x4 x5 x6 xo8 := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h9.read_unread, View.ld_unit_zero (S := S2048x256) hz, View.ld_unit_zero (S := S256x256) hz, View.ld_unit_zero (S := S1x256) hz, View.ld_unit_zero (S := S1x1) hz]

/-- A later point adds this block's sum of squares to the scalar accumulator it found. -/
theorem out_B_9 (c : Dev nD) (i : grid0.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .f32) (h8 : a8.IsWhole) (a9 : Memref sig .tc .vmem S256x256 .f32) (h9 : a9.IsWhole) (a10 : Memref sig .tc .vmem S1x1 .f32) (h10 : a10.IsWhole) (hc : ¬cond0_0 i) (x0 : Vec F S2048x256 .f32) (x1 : Vec F S2048x256 .f32) (x2 : Vec F S2048x256 .f32) (x3 : Vec F S256x256 .f32) (x4 : Vec F S1x256 .f32) (x5 : Vec F S256x256 .f32) (x6 : Vec F S1x256 .f32) (xo8 : Vec F S256x256 .f32) (xo9 : Vec F S1x1 .f32) :
    out0_B_9 c i a1 h1 a2 h2 a3 h3 a4 h4 a5 h5 a6 h6 a7 h7 a8 h8 a9 h9 a10 h10 hc x0 x1 x2 x3 x4 x5 x6 xo8 xo9 = k0_pay1 x2 xo9 := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 x6 xo8 xo9)]
  unfold kernelRun0_B
  dsimp only
  sl_unfold_words
  rw [View.canon_unit_zero hz]
  simp only [View.readAt_eq_ld, h3.read_unread, h10.read_unread, View.ld_unit_zero (S := S2048x256) hz, View.ld_unit_zero (S := S256x256) hz, View.ld_unit_zero (S := S1x256) hz, View.ld_unit_zero (S := S1x1) hz]

/-- The first point leaves the stage's block in the hidden state's buffer. -/
theorem out_A_7 (c : Dev nD) (i : grid0.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .f32) (h8 : a8.IsWhole) (a9 : Memref sig .tc .vmem S256x256 .f32) (h9 : a9.IsWhole) (a10 : Memref sig .tc .vmem S1x1 .f32) (h10 : a10.IsWhole) (hc : cond0_0 i) (x0 : Vec F S2048x256 .f32) (x1 : Vec F S2048x256 .f32) (x2 : Vec F S2048x256 .f32) (x3 : Vec F S256x256 .f32) (x4 : Vec F S1x256 .f32) (x5 : Vec F S256x256 .f32) (x6 : Vec F S1x256 .f32) :
    out0_A_7 c i a1 h1 a2 h2 a3 h3 a4 h4 a5 h5 a6 h6 a7 h7 a8 h8 a9 h9 a10 h10 hc x0 x1 x2 x3 x4 x5 x6 = k0_pay4 x0 x1 x3 x4 x5 x6 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_unit_zero hz]
  simp only [View.readAt_eq_ld, h1.read_unread, h2.read_unread, h4.read_unread, h5.read_unread, h6.read_unread, h7.read_unread, View.ld_unit_zero (S := S2048x256) hz, View.ld_unit_zero (S := S256x256) hz, View.ld_unit_zero (S := S1x256) hz, View.ld_unit_zero (S := S1x1) hz]

/-- The first point resets the matrix accumulator to zero and adds this block's Xᵀ H to it. -/
theorem out_A_8 (c : Dev nD) (i : grid0.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .f32) (h8 : a8.IsWhole) (a9 : Memref sig .tc .vmem S256x256 .f32) (h9 : a9.IsWhole) (a10 : Memref sig .tc .vmem S1x1 .f32) (h10 : a10.IsWhole) (hc : cond0_0 i) (x0 : Vec F S2048x256 .f32) (x1 : Vec F S2048x256 .f32) (x2 : Vec F S2048x256 .f32) (x3 : Vec F S256x256 .f32) (x4 : Vec F S1x256 .f32) (x5 : Vec F S256x256 .f32) (x6 : Vec F S1x256 .f32) :
    out0_A_8 c i a1 h1 a2 h2 a3 h3 a4 h4 a5 h5 a6 h6 a7 h7 a8 h8 a9 h9 a10 h10 hc x0 x1 x2 x3 x4 x5 x6 = k0_pay5 x0 x1 x2 x3 x4 x5 x6 k0_pay2 := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S256x256) hz, View.readCov_unit_zero (S := S256x256) _ hz]
  simp only [View.readAt_eq_ld, h1.read_unread, h2.read_unread, h3.read_unread, h4.read_unread, h5.read_unread, h6.read_unread, h7.read_unread, View.ld_unit_zero (S := S2048x256) hz, View.ld_unit_zero (S := S256x256) hz, View.ld_unit_zero (S := S1x256) hz, View.ld_unit_zero (S := S1x1) hz]

/-- The first point resets the scalar accumulator to zero and adds this block's sum of squares to it. -/
theorem out_A_9 (c : Dev nD) (i : grid0.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .f32) (h8 : a8.IsWhole) (a9 : Memref sig .tc .vmem S256x256 .f32) (h9 : a9.IsWhole) (a10 : Memref sig .tc .vmem S1x1 .f32) (h10 : a10.IsWhole) (hc : cond0_0 i) (x0 : Vec F S2048x256 .f32) (x1 : Vec F S2048x256 .f32) (x2 : Vec F S2048x256 .f32) (x3 : Vec F S256x256 .f32) (x4 : Vec F S1x256 .f32) (x5 : Vec F S256x256 .f32) (x6 : Vec F S1x256 .f32) :
    out0_A_9 c i a1 h1 a2 h2 a3 h3 a4 h4 a5 h5 a6 h6 a7 h7 a8 h8 a9 h9 a10 h10 hc x0 x1 x2 x3 x4 x5 x6 = k0_pay1 x2 k0_pay3 := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5 x6)]
  unfold kernelRun0_A
  dsimp only
  sl_unfold_words
  rw [View.canon_cons_unit_zero (S := S1x1) hz, View.readCov_unit_zero (S := S1x1) _ hz]
  simp only [View.readAt_eq_ld, h3.read_unread, View.ld_unit_zero (S := S2048x256) hz, View.ld_unit_zero (S := S256x256) hz, View.ld_unit_zero (S := S1x256) hz, View.ld_unit_zero (S := S1x1) hz]

end Cert.KernelIdeal.K0
end
-- ==== Proof.CellLaw.lean ====
/-
  Laws of the cell's mathematics.

  The two spellings of the deflation agree on real entries with a positive sum of squares: writing s = ‖X‖² > 0 and
  c = 1 / √s, one has c · c = 1 / s, so
      (∑ₖ x r k · ∑ᵣ' x r' k · h r' j) · (1 / s) = ∑ₖ (x r k · c) · ∑ᵣ' (x r' k · c) · h r' j
  term by term.  On the extended reals the identity is the image of this real identity under the coercion, which
  commutes with finite sums and products of real numbers.

  A sum over a · b consecutive naturals is the sum, over a blocks, of the sums over each block of b.

  The 32-bit word 0x3F800000 (sign 0, exponent field 127, fraction 0) denotes 2²³ · 2^(127 − 127 − 23) = 1.
-/
import proofs.«151021_j35390530519886_1_alg».proof.Proof.Cell
import Idealize.ShloMosaic.PureOps.Ideal
import Mathlib.Data.EReal.Basic
import Mathlib.Analysis.Real.Sqrt
import Mathlib.Algebra.BigOperators.Group.Finset.Basic
import Mathlib.Algebra.BigOperators.Ring.Finset

noncomputable section

open Idealize.ShloMosaic Idealize.ShloMosaic.ValueIdx

namespace Cell

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real identity behind the two spellings of the deflation, at one output entry. -/
theorem deflate_real {n d : Nat} (x : Fin n → Fin d → ℝ) (h : Fin n → ℝ) (r : Fin n) {S : ℝ} (hS : 0 < S) :
    (∑ k : Fin d, x r k * ∑ r' : Fin n, x r' k * h r') * (1 / S)
      = ∑ k : Fin d, (x r k * (1 / Real.sqrt S)) * ∑ r' : Fin n, (x r' k * (1 / Real.sqrt S)) * h r' := by
  have hne : Real.sqrt S ≠ 0 := (Real.sqrt_pos.mpr hS).ne'
  have hcc : 1 / S = (1 / Real.sqrt S) * (1 / Real.sqrt S) := by
    rw [one_div_mul_one_div, Real.mul_self_sqrt hS.le]
  have inner : ∀ k : Fin d, ∑ r' : Fin n, (x r' k * (1 / Real.sqrt S)) * h r'
      = (1 / Real.sqrt S) * ∑ r' : Fin n, x r' k * h r' := by
    intro k
    rw [Finset.mul_sum]
    exact Finset.sum_congr rfl fun _ _ => by ring
  rw [Finset.sum_mul]
  refine Finset.sum_congr rfl fun k _ => ?_
  rw [inner, hcc]
  ring

/-- The two spellings of the deflation agree on real entries with a positive sum of squares. -/
theorem deflate_eq {n d e : Nat} (X : Mat n d) (H : Mat n e)
    (hX : ∀ r k, ∃ x : ℝ, X r k = (x : EReal)) (hH : ∀ r j, ∃ y : ℝ, H r j = (y : EReal))
    (hS : (0 : EReal) < sumsq X) : deflateK X H = deflateR X H := by
  choose x hx using hX
  choose h hh using hH
  obtain rfl : X = fun r k => (x r k : EReal) := by funext r k; exact hx r k
  obtain rfl : H = fun r j => (h r j : EReal) := by funext r j; exact hh r j
  have hsum : sumsq (fun r k => (x r k : EReal)) = ((∑ r : Fin n, ∑ k : Fin d, x r k * x r k : ℝ) : EReal) := by
    unfold sumsq
    simp only [← EReal.coe_mul, ← coe_sum]
  rw [hsum] at hS
  have hSpos : 0 < ∑ r : Fin n, ∑ k : Fin d, x r k * x r k := EReal.coe_pos.mp hS
  have hne : Real.sqrt (∑ r : Fin n, ∑ k : Fin d, x r k * x r k) ≠ 0 := (Real.sqrt_pos.mpr hSpos).ne'
  funext r j
  unfold deflateK deflateR gram
  rw [hsum, Ideal.sqrt_coe, if_neg (not_lt.mpr hSpos.le)]
  simp only [Ideal.div_coe hne, Ideal.div_coe hSpos.ne']
  rw [← EReal.coe_one]
  simp only [← EReal.coe_mul, ← coe_sum]
  rw [one_mul, deflate_real x (fun r' => h r' j) r hSpos]

/-- The whole cell: the two spellings of the deflation give the same last hidden state, when the two data matrices
    deflated against are real with positive sums of squares (a stage's entries are always real). -/
theorem hidden_eq {n d : Nat} (nh hp nr nt : Mat n d) (Wnh Wnr Wnt Wh : (⟨2, ![d, d]⟩ : Shape).Idx → EReal)
    (bnh bnr bnt bh : (⟨1, ![d]⟩ : Shape).Idx → EReal)
    (hr : ∀ r k, ∃ x : ℝ, nr r k = (x : EReal)) (ht : ∀ r k, ∃ x : ℝ, nt r k = (x : EReal))
    (hSr : (0 : EReal) < sumsq nr) (hSt : (0 : EReal) < sumsq nt) :
    hiddenK nh hp nr nt Wnh Wnr Wnt Wh bnh bnr bnt bh = hiddenR nh hp nr nt Wnh Wnr Wnt Wh bnh bnr bnt bh := by
  unfold hiddenK hiddenR
  rw [deflate_eq nr _ hr (fun r j => stage_real _ _ _ _ _ _ r j) hSr,
    deflate_eq nt _ ht (fun r j => stage_real _ _ _ _ _ _ r j) hSt]

/-- A sum over a · b consecutive naturals, cut into a blocks of b. -/
theorem sum_blocks (a b : Nat) (g : ℕ → EReal) :
    ∑ s ∈ Finset.range a, ∑ p : Fin b, g (b * s + p.val) = ∑ r : Fin (a * b), g r.val := by
  rw [Fin.sum_univ_eq_sum_range g (a * b)]
  induction a with
  | zero => simp
  | succ a ih =>
    have hb : ∑ p : Fin b, g (b * a + p.val) = ∑ p ∈ Finset.range b, g (a * b + p) := by
      rw [Nat.mul_comm b a]
      exact Fin.sum_univ_eq_sum_range (fun p => g (a * b + p)) b
    rw [Finset.sum_range_succ, ih, hb, Nat.succ_mul, Finset.sum_range_add]

/-- The same at 32 blocks of 2048. -/
theorem sum_blocks_32 (g : ℕ → EReal) :
    ∑ s ∈ Finset.range 32, ∑ p : Fin 2048, g (2048 * s + p.val) = ∑ r : Fin 65536, g r.val :=
  sum_blocks 32 2048 g

/-- The 32-bit word of 1.0 denotes 1: sign 0, exponent field 127, fraction 0, so 2²³ · 2^(127 − 127 − 23). -/
theorem ofBits_one : Ideal.ofBits .f32 0x3F800000#32 = (1 : EReal) := by
  have hneg : ((0x3F800000#32).extractLsb' (8 + 23) 1 == 1#1) = false := by decide
  have hex : ((0x3F800000#32).extractLsb' 23 8).toNat = 127 := by decide
  have hfr : ((0x3F800000#32).extractLsb' 0 23).toNat = 0 := by decide
  show Ideal.ieee 8 23 (0x3F800000#32) = 1
  unfold Ideal.ieee
  simp only [hneg, hex, hfr]
  norm_num

end Cell

end
-- ==== Proof.KOps.lean ====
/-
  The kernel's vector operations read at an index, on the extended reals.

  A matrix product into a zero accumulator, read at an output index, is the sum over the contracted axis of the
  products of the operands' entries: for rows × (in × out) weights the sum over the input axis; for the product
  that contracts the row axis of two row blocks, the sum over the rows.  A sum of squares taken first along each row
  and then along the column of row sums is the double sum.  A 1 × b row broadcast over rows reads the row; a 1 × 1
  array broadcast reads its one entry.
-/
import proofs.«151021_j35390530519886_1_alg».proof.KernelIdeal
import proofs.«151021_j35390530519886_1_alg».proof.Proof.Gen.KernelIdeal
import proofs.«151021_j35390530519886_1_alg».proof.Proof.Gen.KernelIdeal.Skeleton
import proofs.«151021_j35390530519886_1_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KOps

open Idealize.ShloMosaic Idealize.ShloMosaic.ValueIdx Cert.KernelIdeal Cert.KernelIdeal.Gen Cell

/-! The index maps of the product S2048x256 · S256x256 (contracting the left operand's axis 1 with the right's axis 0). -/

theorem rows_lhs_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem rows_lhs_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rows_rhs_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rows_rhs_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A row block times an in × out weight, into a zero accumulator, at (p, q): the sum over the input axis. -/
theorem mm_rows (x : FVec Ideal S2048x256 .bf16) (w : FVec Ideal S256x256 .bf16) (p : Fin 2048) (q : Fin 256) :
    matmul (F := Ideal) dot_S2048x256_S256x256_S2048x256_1_0_0_1_n_n none x w (constant (F := Ideal) S2048x256 .f32 0x00000000#32) (ix2 p q)
      = ∑ k : Fin 256, x (ix2 p k) * w (ix2 k q) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p q) ((ValueIdx.contrEquiv1 dot_S2048x256_S256x256_S2048x256_1_0_0_1_n_n 256 rfl rfl).symm k) = ix2 p k := funext fun a => Fin.ext (by
    match a with
    | ⟨0, _⟩ => exact rows_lhs_0 _ _
    | ⟨1, _⟩ => exact (rows_lhs_1 _ _).trans hk)
  have er : dot_S2048x256_S256x256_S2048x256_1_0_0_1_n_n.rhsIdx (ix2 p q) ((ValueIdx.contrEquiv1 dot_S2048x256_S256x256_S2048x256_1_0_0_1_n_n 256 rfl rfl).symm k) = ix2 k q := funext fun a => Fin.ext (by
    match a with
    | ⟨0, _⟩ => exact (rows_rhs_0 _ _).trans hk
    | ⟨1, _⟩ => exact rows_rhs_1 _ _)
  rw [el, er]

/-! The index maps of the product that contracts the row axis of two row blocks. -/

theorem gram_lhs_0 (i : S256x256.Idx) (q : dot_S2048x256_S2048x256_S256x256_0_0_1_1_n_n.contr.Idx) :
    (dot_S2048x256_S2048x256_S256x256_0_0_1_1_n_n.lhsIdx i q 0).val = (q ⟨0, by decide⟩).val :=
  dot_S2048x256_S2048x256_S256x256_0_0_1_1_n_n.lhsIdx_val_of_single rfl i q
theorem gram_lhs_1 (i : S256x256.Idx) (q : dot_S2048x256_S2048x256_S256x256_0_0_1_1_n_n.contr.Idx) :
    (dot_S2048x256_S2048x256_S256x256_0_0_1_1_n_n.lhsIdx i q 1).val = (i 0).val := by
  unfold DotDims.lhsIdx
  rw [dif_neg (show ¬(1 : Fin S2048x256.rank) ∈ dot_S2048x256_S2048x256_S256x256_0_0_1_1_n_n.lhsBatch by decide), dif_pos (show (1 : Fin S2048x256.rank) ∈ dot_S2048x256_S2048x256_S256x256_0_0_1_1_n_n.lhsNonContracting by decide)]
  rfl
theorem gram_rhs_0 (i : S256x256.Idx) (q : dot_S2048x256_S2048x256_S256x256_0_0_1_1_n_n.contr.Idx) :
    (dot_S2048x256_S2048x256_S256x256_0_0_1_1_n_n.rhsIdx i q 0).val = (q ⟨0, by decide⟩).val :=
  dot_S2048x256_S2048x256_S256x256_0_0_1_1_n_n.rhsIdx_val_of_single rfl i q
theorem gram_rhs_1 (i : S256x256.Idx) (q : dot_S2048x256_S2048x256_S256x256_0_0_1_1_n_n.contr.Idx) :
    (dot_S2048x256_S2048x256_S256x256_0_0_1_1_n_n.rhsIdx i q 1).val = (i 1).val := by
  unfold DotDims.rhsIdx
  rw [dif_neg (show ¬(1 : Fin S2048x256.rank) ∈ dot_S2048x256_S2048x256_S256x256_0_0_1_1_n_n.rhsBatch by decide), dif_pos (show (1 : Fin S2048x256.rank) ∈ dot_S2048x256_S2048x256_S256x256_0_0_1_1_n_n.rhsNonContracting by decide)]
  rfl

/-- Two row blocks contracted along the rows, into a zero accumulator, at (k, j): the sum over the rows. -/
theorem mm_gram (x h : FVec Ideal S2048x256 .bf16) (k j : Fin 256) :
    matmul (F := Ideal) dot_S2048x256_S2048x256_S256x256_0_0_1_1_n_n none x h (constant (F := Ideal) S256x256 .f32 0x00000000#32) (ix2 k j)
      = ∑ p : Fin 2048, x (ix2 p k) * h (ix2 p j) := by
  simp only [matmul]
  rw [Ideal.matmul_constant_zero_apply, ← Equiv.sum_comp (ValueIdx.contrEquiv1 dot_S2048x256_S2048x256_S256x256_0_0_1_1_n_n 2048 rfl rfl).symm]
  refine Finset.sum_congr rfl fun p _ => ?_
  have hp := ValueIdx.contrEquiv1_symm_val dot_S2048x256_S2048x256_S256x256_0_0_1_1_n_n 2048 rfl rfl p
  have el : dot_S2048x256_S2048x256_S256x256_0_0_1_1_n_n.lhsIdx (ix2 k j) ((ValueIdx.contrEquiv1 dot_S2048x256_S2048x256_S256x256_0_0_1_1_n_n 2048 rfl rfl).symm p) = ix2 p k := funext fun a => Fin.ext (by
    match a with
    | ⟨0, _⟩ => exact (gram_lhs_0 _ _).trans hp
    | ⟨1, _⟩ => exact gram_lhs_1 _ _)
  have er : dot_S2048x256_S2048x256_S256x256_0_0_1_1_n_n.rhsIdx (ix2 k j) ((ValueIdx.contrEquiv1 dot_S2048x256_S2048x256_S256x256_0_0_1_1_n_n 2048 rfl rfl).symm p) = ix2 p j := funext fun a => Fin.ext (by
    match a with
    | ⟨0, _⟩ => exact (gram_rhs_0 _ _).trans hp
    | ⟨1, _⟩ => exact gram_rhs_1 _ _)
  rw [el, er]

/-! Broadcasts. -/

/-- A 1 × 256 bias row (through its identity shape cast) broadcast over 2048 rows reads the row. -/
theorem bias_row (b : FVec Ideal S1x256 .f32) (p : Fin 2048) (q : Fin 256) :
    broadcastTo S2048x256 (shapeCast S1x256 b shapeCasts_S1x256_S1x256) broadcasts_S1x256_S2048x256 (ix2 p q)
      = b (ix2 0 q) := by
  rw [shapeCast_self, broadcastTo_1b_ab_apply]

/-- The same for a 1 × 128 row over 2048 rows. -/
theorem bias_row_128 (b : FVec Ideal S1x128 .f32) (p : Fin 2048) (q : Fin 128) :
    broadcastTo S2048x128 (shapeCast S1x128 b shapeCasts_S1x128_S1x128) broadcasts_S1x128_S2048x128 (ix2 p q)
      = b (ix2 0 q) := by
  rw [shapeCast_self, broadcastTo_1b_ab_apply]

/-- A 1 × 1 array broadcast to 2048 × 256 reads its one entry. -/
theorem scal_bcast (s : FVec Ideal S1x1 .f32) (p : Fin 2048) (q : Fin 256) :
    broadcastTo S2048x256 s broadcasts_S1x1_S2048x256 (ix2 p q) = s (ix2 0 0) := by
  refine broadcastTo_apply s broadcasts_S1x1_S2048x256 (ix2 p q) (ix2 0 0) fun a => ?_
  match a with
  | ⟨0, _⟩ => rfl
  | ⟨1, _⟩ => rfl

/-! The sum of squares of a row block: along each row, then along the column of row sums. -/

/-- A 2048-vector cast to 2048 × 1 reads, at (p, 0), the vector at p. -/
theorem col_cast {α : Type} (v : S2048.Idx → α) (p : Fin 2048) :
    shapeCast S2048x1 v shapeCasts_S2048_S2048x1 (ix2 p 0) = v (ix1 p) :=
  shapeCast_apply v shapeCasts_S2048_S2048x1 _ _ (by
    rw [Shape.rowMajor_val_two, Shape.rowMajor_val_one]
    show p.val = p.val * 1 + 0
    omega)

/-- The sum along each row of a 2048 × 256 array, at row p. -/
theorem row_sum (y : FVec Ideal S2048x256 .f32) (p : Fin 2048) :
    multiReduction (F := Ideal) .add [1] S2048 y 0x00000000#32 reduces_S2048x256_S2048 (.inl rfl) rfl (ix1 p)
      = ∑ q : Fin 256, y (ix2 p q) := by
  refine (Ideal.multiReduction_add_single y 0x00000000#32 reduces_S2048x256_S2048 (.inl rfl) rfl (ix1 p)).trans ?_
  show ∑ q : Fin 256, y (reduces_S2048x256_S2048.lift (ix1 p) q) = _
  refine Finset.sum_congr rfl fun q _ => congrArg y (funext fun a => Fin.ext ?_)
  match a with
  | ⟨0, _⟩ => rfl
  | ⟨1, _⟩ => rfl

/-- The sum along the one column of a 2048 × 1 array. -/
theorem col_sum (y : FVec Ideal S2048x1 .f32) :
    multiReduction (F := Ideal) .add [0] S1 y 0x00000000#32 reduces_S2048x1_S1 (.inl rfl) rfl (ix1 0)
      = ∑ p : Fin 2048, y (ix2 p 0) := by
  refine (Ideal.multiReduction_add_single y 0x00000000#32 reduces_S2048x1_S1 (.inl rfl) rfl (ix1 0)).trans ?_
  show ∑ p : Fin 2048, y (reduces_S2048x1_S1.lift (ix1 0) p) = _
  refine Finset.sum_congr rfl fun p _ => congrArg y (funext fun a => Fin.ext ?_)
  match a with
  | ⟨0, _⟩ => rfl
  | ⟨1, _⟩ => rfl

/-- The block's sum of squares, as the kernel takes it, is the double sum. -/
theorem sq_total (x : FVec Ideal S2048x256 .f32) :
    (shapeCast S1x1 (multiReduction (F := Ideal) .add [0] S1 (shapeCast S2048x1 (multiReduction (F := Ideal) .add [1] S2048 (mulf x x) 0x00000000#32 reduces_S2048x256_S2048 (.inl rfl) rfl) shapeCasts_S2048_S2048x1) 0x00000000#32 reduces_S2048x1_S1 (.inl rfl) rfl) shapeCasts_S1_S1x1) (ix2 0 0)
      = ∑ p : Fin 2048, ∑ q : Fin 256, x (ix2 p q) * x (ix2 p q) := by
  rw [shapeCast_a_1a_apply, col_sum]
  refine Finset.sum_congr rfl fun p _ => ?_
  rw [col_cast, row_sum]
  rfl

/-! The index maps of the product S2048x256 · S256x128 (contracting the left operand's axis 1 with the right's axis 0). -/

theorem out_lhs_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem out_lhs_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem out_rhs_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem out_rhs_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- A row block times a 256 × 128 weight, into a zero accumulator, at (p, j): the sum over the input axis. -/
theorem mm_out (x : FVec Ideal S2048x256 .bf16) (w : FVec Ideal S256x128 .bf16) (p : Fin 2048) (j : Fin 128) :
    matmul (F := Ideal) dot_S2048x256_S256x128_S2048x128_1_0_0_1_n_n none x w (constant (F := Ideal) S2048x128 .f32 0x00000000#32) (ix2 p j)
      = ∑ k : Fin 256, x (ix2 p k) * w (ix2 k j) := by
  simp only [matmul]
  rw [Ideal.matmul_constant_zero_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 p j) ((ValueIdx.contrEquiv1 dot_S2048x256_S256x128_S2048x128_1_0_0_1_n_n 256 rfl rfl).symm k) = ix2 p k := funext fun a => Fin.ext (by
    match a with
    | ⟨0, _⟩ => exact out_lhs_0 _ _
    | ⟨1, _⟩ => exact (out_lhs_1 _ _).trans hk)
  have er : dot_S2048x256_S256x128_S2048x128_1_0_0_1_n_n.rhsIdx (ix2 p j) ((ValueIdx.contrEquiv1 dot_S2048x256_S256x128_S2048x128_1_0_0_1_n_n 256 rfl rfl).symm k) = ix2 k j := funext fun a => Fin.ext (by
    match a with
    | ⟨0, _⟩ => exact (out_rhs_0 _ _).trans hk
    | ⟨1, _⟩ => exact out_rhs_1 _ _)
  rw [el, er]

/-! The stage of a row block. -/

/-- A hyperbolic tangent of an array, read at an index. -/
theorem tanh_at {s : Shape} {φ : FTy} (v : FVec Ideal s φ) (i : s.Idx) : tanh v i = Ideal.tanh (v i) := rfl

/-- The first region's stage payload, read at (p, q), is the stage (transposed layout) of the two row blocks. -/
theorem stage_blk (x y : Vec Ideal S2048x256 .f32) (wt : Vec Ideal S256x256 .f32) (b : Vec Ideal S1x256 .f32)
    (ut : Vec Ideal S256x256 .f32) (c : Vec Ideal S1x256 .f32) (p : Fin 2048) (q : Fin 256) :
    k0_pay4 (F := Ideal) x y wt b ut c (ix2 p q) = stageT (rd x) (rd y) wt b ut c p q := by
  unfold k0_pay4 stageT actT rd
  simp only [addf_apply, tanh_at, mm_rows, broadcastTo_1b_ab_apply, truncf_apply, shapeCast_self]

end Cert.KernelIdeal.KOps

end
-- ==== Proof.KBlocks.lean ====
/-
  What each window of the three grids reads of its array, by coordinates.

  A window whose block is 2048 rows of a 65536-row array, and whose index map sends grid point t to block (t, 0),
  reads at (p, q) the array's entry (2048 t + p, q): a block's coordinate is always the block index times the
  block's extent plus the coordinate inside the block.  A window whose block is the whole array, index map
  constantly (0, 0), reads the array itself at every point.
-/
import proofs.«151021_j35390530519886_1_alg».proof.Proof.Gen.KernelIdeal.Frame
import Idealize.ShloMosaic.Lib.ValueIdx
import Idealize.ShloMosaic.Lib.Pipeline.Value

set_option maxRecDepth 16384

noncomputable section

namespace Cert.KernelIdeal.KBlocks

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## Grid 0 -/

/-- Grid 0, window 0: point t reads block (t, 0). -/
theorem idx0_0 : ∀ t : Fin cfg0.N, win0_0.index t 0 = t.val ∧ win0_0.index t 1 = 0 :=
  (by decide +kernel : ∀ t : Fin grid0.N, _)

/-- Grid 0, window 0 at point t reads, at (p, q), its array at (2048 t + p, q). -/
theorem blk0_0 (c : Dev nD) (t : Fin cfg0.N) (p : Fin 2048) (q : Fin 256) :
    iblk0 V c 0 t (ix2 p q)
      = V c (Pipeline.arrRef spec0 0) (ix2 ⟨2048 * t.val + p.val, by have := t.isLt; have : cfg0.N = 32 := N_0; omega⟩ q) := by
  unfold iblk0
  rw [View.read_apply]
  show V c (Pipeline.arrRef spec0 0) _ = V c (Pipeline.arrRef spec0 0) _
  congr 1
  funext a
  apply Fin.ext
  match a with
  | ⟨0, _⟩ => show win0_0.index t 0 * 2048 + 1 * p.val = 2048 * t.val + p.val; rw [(idx0_0 t).1]; omega
  | ⟨1, _⟩ => show win0_0.index t 1 * 256 + 1 * q.val = q.val; rw [(idx0_0 t).2]; omega

/-- Grid 0, window 1: point t reads block (t, 0). -/
theorem idx0_1 : ∀ t : Fin cfg0.N, win0_1.index t 0 = t.val ∧ win0_1.index t 1 = 0 :=
  (by decide +kernel : ∀ t : Fin grid0.N, _)

/-- Grid 0, window 1 at point t reads, at (p, q), its array at (2048 t + p, q). -/
theorem blk0_1 (c : Dev nD) (t : Fin cfg0.N) (p : Fin 2048) (q : Fin 256) :
    iblk0 V c 1 t (ix2 p q)
      = V c (Pipeline.arrRef spec0 1) (ix2 ⟨2048 * t.val + p.val, by have := t.isLt; have : cfg0.N = 32 := N_0; omega⟩ q) := by
  unfold iblk0
  rw [View.read_apply]
  show V c (Pipeline.arrRef spec0 1) _ = V c (Pipeline.arrRef spec0 1) _
  congr 1
  funext a
  apply Fin.ext
  match a with
  | ⟨0, _⟩ => show win0_1.index t 0 * 2048 + 1 * p.val = 2048 * t.val + p.val; rw [(idx0_1 t).1]; omega
  | ⟨1, _⟩ => show win0_1.index t 1 * 256 + 1 * q.val = q.val; rw [(idx0_1 t).2]; omega

/-- Grid 0, window 2: point t reads block (t, 0). -/
theorem idx0_2 : ∀ t : Fin cfg0.N, win0_2.index t 0 = t.val ∧ win0_2.index t 1 = 0 :=
  (by decide +kernel : ∀ t : Fin grid0.N, _)

/-- Grid 0, window 2 at point t reads, at (p, q), its array at (2048 t + p, q). -/
theorem blk0_2 (c : Dev nD) (t : Fin cfg0.N) (p : Fin 2048) (q : Fin 256) :
    iblk0 V c 2 t (ix2 p q)
      = V c (Pipeline.arrRef spec0 2) (ix2 ⟨2048 * t.val + p.val, by have := t.isLt; have : cfg0.N = 32 := N_0; omega⟩ q) := by
  unfold iblk0
  rw [View.read_apply]
  show V c (Pipeline.arrRef spec0 2) _ = V c (Pipeline.arrRef spec0 2) _
  congr 1
  funext a
  apply Fin.ext
  match a with
  | ⟨0, _⟩ => show win0_2.index t 0 * 2048 + 1 * p.val = 2048 * t.val + p.val; rw [(idx0_2 t).1]; omega
  | ⟨1, _⟩ => show win0_2.index t 1 * 256 + 1 * q.val = q.val; rw [(idx0_2 t).2]; omega

/-- Grid 0, window 3: every point reads block (0, 0). -/
theorem idx0_3 : ∀ t : Fin cfg0.N, win0_3.index t 0 = 0 ∧ win0_3.index t 1 = 0 :=
  (by decide +kernel : ∀ t : Fin grid0.N, _)

/-- Grid 0, window 3 reads its whole 256 × 256 array at every point. -/
theorem whole0_3 (c : Dev nD) (t : Fin cfg0.N) : iblk0 V c 3 t = V c (Pipeline.arrRef spec0 3) := by
  funext j
  unfold iblk0
  rw [View.read_apply]
  show V c (Pipeline.arrRef spec0 3) _ = V c (Pipeline.arrRef spec0 3) j
  congr 1
  funext a
  apply Fin.ext
  match a with
  | ⟨0, _⟩ => show win0_3.index t 0 * 256 + 1 * (j 0).val = (j 0).val; rw [(idx0_3 t).1]; omega
  | ⟨1, _⟩ => show win0_3.index t 1 * 256 + 1 * (j 1).val = (j 1).val; rw [(idx0_3 t).2]; omega

/-- Grid 0, window 4: every point reads block (0, 0). -/
theorem idx0_4 : ∀ t : Fin cfg0.N, win0_4.index t 0 = 0 ∧ win0_4.index t 1 = 0 :=
  (by decide +kernel : ∀ t : Fin grid0.N, _)

/-- Grid 0, window 4 reads its whole 1 × 256 array at every point. -/
theorem whole0_4 (c : Dev nD) (t : Fin cfg0.N) : iblk0 V c 4 t = V c (Pipeline.arrRef spec0 4) := by
  funext j
  unfold iblk0
  rw [View.read_apply]
  show V c (Pipeline.arrRef spec0 4) _ = V c (Pipeline.arrRef spec0 4) j
  congr 1
  funext a
  apply Fin.ext
  match a with
  | ⟨0, _⟩ => show win0_4.index t 0 * 1 + 1 * (j 0).val = (j 0).val; rw [(idx0_4 t).1]; omega
  | ⟨1, _⟩ => show win0_4.index t 1 * 256 + 1 * (j 1).val = (j 1).val; rw [(idx0_4 t).2]; omega

/-- Grid 0, window 5: every point reads block (0, 0). -/
theorem idx0_5 : ∀ t : Fin cfg0.N, win0_5.index t 0 = 0 ∧ win0_5.index t 1 = 0 :=
  (by decide +kernel : ∀ t : Fin grid0.N, _)

/-- Grid 0, window 5 reads its whole 256 × 256 array at every point. -/
theorem whole0_5 (c : Dev nD) (t : Fin cfg0.N) : iblk0 V c 5 t = V c (Pipeline.arrRef spec0 5) := by
  funext j
  unfold iblk0
  rw [View.read_apply]
  show V c (Pipeline.arrRef spec0 5) _ = V c (Pipeline.arrRef spec0 5) j
  congr 1
  funext a
  apply Fin.ext
  match a with
  | ⟨0, _⟩ => show win0_5.index t 0 * 256 + 1 * (j 0).val = (j 0).val; rw [(idx0_5 t).1]; omega
  | ⟨1, _⟩ => show win0_5.index t 1 * 256 + 1 * (j 1).val = (j 1).val; rw [(idx0_5 t).2]; omega

/-- Grid 0, window 6: every point reads block (0, 0). -/
theorem idx0_6 : ∀ t : Fin cfg0.N, win0_6.index t 0 = 0 ∧ win0_6.index t 1 = 0 :=
  (by decide +kernel : ∀ t : Fin grid0.N, _)

/-- Grid 0, window 6 reads its whole 1 × 256 array at every point. -/
theorem whole0_6 (c : Dev nD) (t : Fin cfg0.N) : iblk0 V c 6 t = V c (Pipeline.arrRef spec0 6) := by
  funext j
  unfold iblk0
  rw [View.read_apply]
  show V c (Pipeline.arrRef spec0 6) _ = V c (Pipeline.arrRef spec0 6) j
  congr 1
  funext a
  apply Fin.ext
  match a with
  | ⟨0, _⟩ => show win0_6.index t 0 * 1 + 1 * (j 0).val = (j 0).val; rw [(idx0_6 t).1]; omega
  | ⟨1, _⟩ => show win0_6.index t 1 * 256 + 1 * (j 1).val = (j 1).val; rw [(idx0_6 t).2]; omega

/-! ## Grid 1 -/

/-- Grid 1, window 0: point t reads block (t, 0). -/
theorem idx1_0 : ∀ t : Fin cfg1.N, win1_0.index t 0 = t.val ∧ win1_0.index t 1 = 0 :=
  (by decide +kernel : ∀ t : Fin grid1.N, _)

/-- Grid 1, window 0 at point t reads, at (p, q), its array at (2048 t + p, q). -/
theorem blk1_0 (c : Dev nD) (t : Fin cfg1.N) (p : Fin 2048) (q : Fin 256) :
    iblk1 V c 0 t (ix2 p q)
      = V c (Pipeline.arrRef spec1 0) (ix2 ⟨2048 * t.val + p.val, by have := t.isLt; have : cfg1.N = 32 := N_1; omega⟩ q) := by
  unfold iblk1
  rw [View.read_apply]
  show V c (Pipeline.arrRef spec1 0) _ = V c (Pipeline.arrRef spec1 0) _
  congr 1
  funext a
  apply Fin.ext
  match a with
  | ⟨0, _⟩ => show win1_0.index t 0 * 2048 + 1 * p.val = 2048 * t.val + p.val; rw [(idx1_0 t).1]; omega
  | ⟨1, _⟩ => show win1_0.index t 1 * 256 + 1 * q.val = q.val; rw [(idx1_0 t).2]; omega

/-- Grid 1, window 1: point t reads block (t, 0). -/
theorem idx1_1 : ∀ t : Fin cfg1.N, win1_1.index t 0 = t.val ∧ win1_1.index t 1 = 0 :=
  (by decide +kernel : ∀ t : Fin grid1.N, _)

/-- Grid 1, window 1 at point t reads, at (p, q), its array at (2048 t + p, q). -/
theorem blk1_1 (c : Dev nD) (t : Fin cfg1.N) (p : Fin 2048) (q : Fin 256) :
    iblk1 V c 1 t (ix2 p q)
      = V c (Pipeline.arrRef spec1 1) (ix2 ⟨2048 * t.val + p.val, by have := t.isLt; have : cfg1.N = 32 := N_1; omega⟩ q) := by
  unfold iblk1
  rw [View.read_apply]
  show V c (Pipeline.arrRef spec1 1) _ = V c (Pipeline.arrRef spec1 1) _
  congr 1
  funext a
  apply Fin.ext
  match a with
  | ⟨0, _⟩ => show win1_1.index t 0 * 2048 + 1 * p.val = 2048 * t.val + p.val; rw [(idx1_1 t).1]; omega
  | ⟨1, _⟩ => show win1_1.index t 1 * 256 + 1 * q.val = q.val; rw [(idx1_1 t).2]; omega

/-- Grid 1, window 2: point t reads block (t, 0). -/
theorem idx1_2 : ∀ t : Fin cfg1.N, win1_2.index t 0 = t.val ∧ win1_2.index t 1 = 0 :=
  (by decide +kernel : ∀ t : Fin grid1.N, _)

/-- Grid 1, window 2 at point t reads, at (p, q), its array at (2048 t + p, q). -/
theorem blk1_2 (c : Dev nD) (t : Fin cfg1.N) (p : Fin 2048) (q : Fin 256) :
    iblk1 V c 2 t (ix2 p q)
      = V c (Pipeline.arrRef spec1 2) (ix2 ⟨2048 * t.val + p.val, by have := t.isLt; have : cfg1.N = 32 := N_1; omega⟩ q) := by
  unfold iblk1
  rw [View.read_apply]
  show V c (Pipeline.arrRef spec1 2) _ = V c (Pipeline.arrRef spec1 2) _
  congr 1
  funext a
  apply Fin.ext
  match a with
  | ⟨0, _⟩ => show win1_2.index t 0 * 2048 + 1 * p.val = 2048 * t.val + p.val; rw [(idx1_2 t).1]; omega
  | ⟨1, _⟩ => show win1_2.index t 1 * 256 + 1 * q.val = q.val; rw [(idx1_2 t).2]; omega

/-- Grid 1, window 3: every point reads block (0, 0). -/
theorem idx1_3 : ∀ t : Fin cfg1.N, win1_3.index t 0 = 0 ∧ win1_3.index t 1 = 0 :=
  (by decide +kernel : ∀ t : Fin grid1.N, _)

/-- Grid 1, window 3 reads its whole 256 × 256 array at every point. -/
theorem whole1_3 (c : Dev nD) (t : Fin cfg1.N) : iblk1 V c 3 t = V c (Pipeline.arrRef spec1 3) := by
  funext j
  unfold iblk1
  rw [View.read_apply]
  show V c (Pipeline.arrRef spec1 3) _ = V c (Pipeline.arrRef spec1 3) j
  congr 1
  funext a
  apply Fin.ext
  match a with
  | ⟨0, _⟩ => show win1_3.index t 0 * 256 + 1 * (j 0).val = (j 0).val; rw [(idx1_3 t).1]; omega
  | ⟨1, _⟩ => show win1_3.index t 1 * 256 + 1 * (j 1).val = (j 1).val; rw [(idx1_3 t).2]; omega

/-- Grid 1, window 4: every point reads block (0, 0). -/
theorem idx1_4 : ∀ t : Fin cfg1.N, win1_4.index t 0 = 0 ∧ win1_4.index t 1 = 0 :=
  (by decide +kernel : ∀ t : Fin grid1.N, _)

/-- Grid 1, window 4 reads its whole 1 × 1 array at every point. -/
theorem whole1_4 (c : Dev nD) (t : Fin cfg1.N) : iblk1 V c 4 t = V c (Pipeline.arrRef spec1 4) := by
  funext j
  unfold iblk1
  rw [View.read_apply]
  show V c (Pipeline.arrRef spec1 4) _ = V c (Pipeline.arrRef spec1 4) j
  congr 1
  funext a
  apply Fin.ext
  match a with
  | ⟨0, _⟩ => show win1_4.index t 0 * 1 + 1 * (j 0).val = (j 0).val; rw [(idx1_4 t).1]; omega
  | ⟨1, _⟩ => show win1_4.index t 1 * 1 + 1 * (j 1).val = (j 1).val; rw [(idx1_4 t).2]; omega

/-- Grid 1, window 5: every point reads block (0, 0). -/
theorem idx1_5 : ∀ t : Fin cfg1.N, win1_5.index t 0 = 0 ∧ win1_5.index t 1 = 0 :=
  (by decide +kernel : ∀ t : Fin grid1.N, _)

/-- Grid 1, window 5 reads its whole 256 × 256 array at every point. -/
theorem whole1_5 (c : Dev nD) (t : Fin cfg1.N) : iblk1 V c 5 t = V c (Pipeline.arrRef spec1 5) := by
  funext j
  unfold iblk1
  rw [View.read_apply]
  show V c (Pipeline.arrRef spec1 5) _ = V c (Pipeline.arrRef spec1 5) j
  congr 1
  funext a
  apply Fin.ext
  match a with
  | ⟨0, _⟩ => show win1_5.index t 0 * 256 + 1 * (j 0).val = (j 0).val; rw [(idx1_5 t).1]; omega
  | ⟨1, _⟩ => show win1_5.index t 1 * 256 + 1 * (j 1).val = (j 1).val; rw [(idx1_5 t).2]; omega

/-- Grid 1, window 6: every point reads block (0, 0). -/
theorem idx1_6 : ∀ t : Fin cfg1.N, win1_6.index t 0 = 0 ∧ win1_6.index t 1 = 0 :=
  (by decide +kernel : ∀ t : Fin grid1.N, _)

/-- Grid 1, window 6 reads its whole 1 × 256 array at every point. -/
theorem whole1_6 (c : Dev nD) (t : Fin cfg1.N) : iblk1 V c 6 t = V c (Pipeline.arrRef spec1 6) := by
  funext j
  unfold iblk1
  rw [View.read_apply]
  show V c (Pipeline.arrRef spec1 6) _ = V c (Pipeline.arrRef spec1 6) j
  congr 1
  funext a
  apply Fin.ext
  match a with
  | ⟨0, _⟩ => show win1_6.index t 0 * 1 + 1 * (j 0).val = (j 0).val; rw [(idx1_6 t).1]; omega
  | ⟨1, _⟩ => show win1_6.index t 1 * 256 + 1 * (j 1).val = (j 1).val; rw [(idx1_6 t).2]; omega

/-- Grid 1, window 7: every point reads block (0, 0). -/
theorem idx1_7 : ∀ t : Fin cfg1.N, win1_7.index t 0 = 0 ∧ win1_7.index t 1 = 0 :=
  (by decide +kernel : ∀ t : Fin grid1.N, _)

/-- Grid 1, window 7 reads its whole 256 × 256 array at every point. -/
theorem whole1_7 (c : Dev nD) (t : Fin cfg1.N) : iblk1 V c 7 t = V c (Pipeline.arrRef spec1 7) := by
  funext j
  unfold iblk1
  rw [View.read_apply]
  show V c (Pipeline.arrRef spec1 7) _ = V c (Pipeline.arrRef spec1 7) j
  congr 1
  funext a
  apply Fin.ext
  match a with
  | ⟨0, _⟩ => show win1_7.index t 0 * 256 + 1 * (j 0).val = (j 0).val; rw [(idx1_7 t).1]; omega
  | ⟨1, _⟩ => show win1_7.index t 1 * 256 + 1 * (j 1).val = (j 1).val; rw [(idx1_7 t).2]; omega

/-- Grid 1, window 8: every point reads block (0, 0). -/
theorem idx1_8 : ∀ t : Fin cfg1.N, win1_8.index t 0 = 0 ∧ win1_8.index t 1 = 0 :=
  (by decide +kernel : ∀ t : Fin grid1.N, _)

/-- Grid 1, window 8 reads its whole 1 × 256 array at every point. -/
theorem whole1_8 (c : Dev nD) (t : Fin cfg1.N) : iblk1 V c 8 t = V c (Pipeline.arrRef spec1 8) := by
  funext j
  unfold iblk1
  rw [View.read_apply]
  show V c (Pipeline.arrRef spec1 8) _ = V c (Pipeline.arrRef spec1 8) j
  congr 1
  funext a
  apply Fin.ext
  match a with
  | ⟨0, _⟩ => show win1_8.index t 0 * 1 + 1 * (j 0).val = (j 0).val; rw [(idx1_8 t).1]; omega
  | ⟨1, _⟩ => show win1_8.index t 1 * 256 + 1 * (j 1).val = (j 1).val; rw [(idx1_8 t).2]; omega

/-! ## Grid 2 -/

/-- Grid 2, window 0: point t reads block (t, 0). -/
theorem idx2_0 : ∀ t : Fin cfg2.N, win2_0.index t 0 = t.val ∧ win2_0.index t 1 = 0 :=
  (by decide +kernel : ∀ t : Fin grid2.N, _)

/-- Grid 2, window 0 at point t reads, at (p, q), its array at (2048 t + p, q). -/
theorem blk2_0 (c : Dev nD) (t : Fin cfg2.N) (p : Fin 2048) (q : Fin 256) :
    iblk2 V c 0 t (ix2 p q)
      = V c (Pipeline.arrRef spec2 0) (ix2 ⟨2048 * t.val + p.val, by have := t.isLt; have : cfg2.N = 32 := N_2; omega⟩ q) := by
  unfold iblk2
  rw [View.read_apply]
  show V c (Pipeline.arrRef spec2 0) _ = V c (Pipeline.arrRef spec2 0) _
  congr 1
  funext a
  apply Fin.ext
  match a with
  | ⟨0, _⟩ => show win2_0.index t 0 * 2048 + 1 * p.val = 2048 * t.val + p.val; rw [(idx2_0 t).1]; omega
  | ⟨1, _⟩ => show win2_0.index t 1 * 256 + 1 * q.val = q.val; rw [(idx2_0 t).2]; omega

/-- Grid 2, window 1: point t reads block (t, 0). -/
theorem idx2_1 : ∀ t : Fin cfg2.N, win2_1.index t 0 = t.val ∧ win2_1.index t 1 = 0 :=
  (by decide +kernel : ∀ t : Fin grid2.N, _)

/-- Grid 2, window 1 at point t reads, at (p, q), its array at (2048 t + p, q). -/
theorem blk2_1 (c : Dev nD) (t : Fin cfg2.N) (p : Fin 2048) (q : Fin 256) :
    iblk2 V c 1 t (ix2 p q)
      = V c (Pipeline.arrRef spec2 1) (ix2 ⟨2048 * t.val + p.val, by have := t.isLt; have : cfg2.N = 32 := N_2; omega⟩ q) := by
  unfold iblk2
  rw [View.read_apply]
  show V c (Pipeline.arrRef spec2 1) _ = V c (Pipeline.arrRef spec2 1) _
  congr 1
  funext a
  apply Fin.ext
  match a with
  | ⟨0, _⟩ => show win2_1.index t 0 * 2048 + 1 * p.val = 2048 * t.val + p.val; rw [(idx2_1 t).1]; omega
  | ⟨1, _⟩ => show win2_1.index t 1 * 256 + 1 * q.val = q.val; rw [(idx2_1 t).2]; omega

/-- Grid 2, window 2: every point reads block (0, 0). -/
theorem idx2_2 : ∀ t : Fin cfg2.N, win2_2.index t 0 = 0 ∧ win2_2.index t 1 = 0 :=
  (by decide +kernel : ∀ t : Fin grid2.N, _)

/-- Grid 2, window 2 reads its whole 256 × 256 array at every point. -/
theorem whole2_2 (c : Dev nD) (t : Fin cfg2.N) : iblk2 V c 2 t = V c (Pipeline.arrRef spec2 2) := by
  funext j
  unfold iblk2
  rw [View.read_apply]
  show V c (Pipeline.arrRef spec2 2) _ = V c (Pipeline.arrRef spec2 2) j
  congr 1
  funext a
  apply Fin.ext
  match a with
  | ⟨0, _⟩ => show win2_2.index t 0 * 256 + 1 * (j 0).val = (j 0).val; rw [(idx2_2 t).1]; omega
  | ⟨1, _⟩ => show win2_2.index t 1 * 256 + 1 * (j 1).val = (j 1).val; rw [(idx2_2 t).2]; omega

/-- Grid 2, window 3: every point reads block (0, 0). -/
theorem idx2_3 : ∀ t : Fin cfg2.N, win2_3.index t 0 = 0 ∧ win2_3.index t 1 = 0 :=
  (by decide +kernel : ∀ t : Fin grid2.N, _)

/-- Grid 2, window 3 reads its whole 1 × 1 array at every point. -/
theorem whole2_3 (c : Dev nD) (t : Fin cfg2.N) : iblk2 V c 3 t = V c (Pipeline.arrRef spec2 3) := by
  funext j
  unfold iblk2
  rw [View.read_apply]
  show V c (Pipeline.arrRef spec2 3) _ = V c (Pipeline.arrRef spec2 3) j
  congr 1
  funext a
  apply Fin.ext
  match a with
  | ⟨0, _⟩ => show win2_3.index t 0 * 1 + 1 * (j 0).val = (j 0).val; rw [(idx2_3 t).1]; omega
  | ⟨1, _⟩ => show win2_3.index t 1 * 1 + 1 * (j 1).val = (j 1).val; rw [(idx2_3 t).2]; omega

/-- Grid 2, window 4: every point reads block (0, 0). -/
theorem idx2_4 : ∀ t : Fin cfg2.N, win2_4.index t 0 = 0 ∧ win2_4.index t 1 = 0 :=
  (by decide +kernel : ∀ t : Fin grid2.N, _)

/-- Grid 2, window 4 reads its whole 256 × 256 array at every point. -/
theorem whole2_4 (c : Dev nD) (t : Fin cfg2.N) : iblk2 V c 4 t = V c (Pipeline.arrRef spec2 4) := by
  funext j
  unfold iblk2
  rw [View.read_apply]
  show V c (Pipeline.arrRef spec2 4) _ = V c (Pipeline.arrRef spec2 4) j
  congr 1
  funext a
  apply Fin.ext
  match a with
  | ⟨0, _⟩ => show win2_4.index t 0 * 256 + 1 * (j 0).val = (j 0).val; rw [(idx2_4 t).1]; omega
  | ⟨1, _⟩ => show win2_4.index t 1 * 256 + 1 * (j 1).val = (j 1).val; rw [(idx2_4 t).2]; omega

/-- Grid 2, window 5: every point reads block (0, 0). -/
theorem idx2_5 : ∀ t : Fin cfg2.N, win2_5.index t 0 = 0 ∧ win2_5.index t 1 = 0 :=
  (by decide +kernel : ∀ t : Fin grid2.N, _)

/-- Grid 2, window 5 reads its whole 1 × 256 array at every point. -/
theorem whole2_5 (c : Dev nD) (t : Fin cfg2.N) : iblk2 V c 5 t = V c (Pipeline.arrRef spec2 5) := by
  funext j
  unfold iblk2
  rw [View.read_apply]
  show V c (Pipeline.arrRef spec2 5) _ = V c (Pipeline.arrRef spec2 5) j
  congr 1
  funext a
  apply Fin.ext
  match a with
  | ⟨0, _⟩ => show win2_5.index t 0 * 1 + 1 * (j 0).val = (j 0).val; rw [(idx2_5 t).1]; omega
  | ⟨1, _⟩ => show win2_5.index t 1 * 256 + 1 * (j 1).val = (j 1).val; rw [(idx2_5 t).2]; omega

/-- Grid 2, window 6: every point reads block (0, 0). -/
theorem idx2_6 : ∀ t : Fin cfg2.N, win2_6.index t 0 = 0 ∧ win2_6.index t 1 = 0 :=
  (by decide +kernel : ∀ t : Fin grid2.N, _)

/-- Grid 2, window 6 reads its whole 256 × 256 array at every point. -/
theorem whole2_6 (c : Dev nD) (t : Fin cfg2.N) : iblk2 V c 6 t = V c (Pipeline.arrRef spec2 6) := by
  funext j
  unfold iblk2
  rw [View.read_apply]
  show V c (Pipeline.arrRef spec2 6) _ = V c (Pipeline.arrRef spec2 6) j
  congr 1
  funext a
  apply Fin.ext
  match a with
  | ⟨0, _⟩ => show win2_6.index t 0 * 256 + 1 * (j 0).val = (j 0).val; rw [(idx2_6 t).1]; omega
  | ⟨1, _⟩ => show win2_6.index t 1 * 256 + 1 * (j 1).val = (j 1).val; rw [(idx2_6 t).2]; omega

/-- Grid 2, window 7: every point reads block (0, 0). -/
theorem idx2_7 : ∀ t : Fin cfg2.N, win2_7.index t 0 = 0 ∧ win2_7.index t 1 = 0 :=
  (by decide +kernel : ∀ t : Fin grid2.N, _)

/-- Grid 2, window 7 reads its whole 1 × 256 array at every point. -/
theorem whole2_7 (c : Dev nD) (t : Fin cfg2.N) : iblk2 V c 7 t = V c (Pipeline.arrRef spec2 7) := by
  funext j
  unfold iblk2
  rw [View.read_apply]
  show V c (Pipeline.arrRef spec2 7) _ = V c (Pipeline.arrRef spec2 7) j
  congr 1
  funext a
  apply Fin.ext
  match a with
  | ⟨0, _⟩ => show win2_7.index t 0 * 1 + 1 * (j 0).val = (j 0).val; rw [(idx2_7 t).1]; omega
  | ⟨1, _⟩ => show win2_7.index t 1 * 256 + 1 * (j 1).val = (j 1).val; rw [(idx2_7 t).2]; omega

/-- Grid 2, window 8: every point reads block (0, 0). -/
theorem idx2_8 : ∀ t : Fin cfg2.N, win2_8.index t 0 = 0 ∧ win2_8.index t 1 = 0 :=
  (by decide +kernel : ∀ t : Fin grid2.N, _)

/-- Grid 2, window 8 reads its whole 256 × 128 array at every point. -/
theorem whole2_8 (c : Dev nD) (t : Fin cfg2.N) : iblk2 V c 8 t = V c (Pipeline.arrRef spec2 8) := by
  funext j
  unfold iblk2
  rw [View.read_apply]
  show V c (Pipeline.arrRef spec2 8) _ = V c (Pipeline.arrRef spec2 8) j
  congr 1
  funext a
  apply Fin.ext
  match a with
  | ⟨0, _⟩ => show win2_8.index t 0 * 256 + 1 * (j 0).val = (j 0).val; rw [(idx2_8 t).1]; omega
  | ⟨1, _⟩ => show win2_8.index t 1 * 128 + 1 * (j 1).val = (j 1).val; rw [(idx2_8 t).2]; omega

/-- Grid 2, window 9: every point reads block (0, 0). -/
theorem idx2_9 : ∀ t : Fin cfg2.N, win2_9.index t 0 = 0 ∧ win2_9.index t 1 = 0 :=
  (by decide +kernel : ∀ t : Fin grid2.N, _)

/-- Grid 2, window 9 reads its whole 1 × 128 array at every point. -/
theorem whole2_9 (c : Dev nD) (t : Fin cfg2.N) : iblk2 V c 9 t = V c (Pipeline.arrRef spec2 9) := by
  funext j
  unfold iblk2
  rw [View.read_apply]
  show V c (Pipeline.arrRef spec2 9) _ = V c (Pipeline.arrRef spec2 9) j
  congr 1
  funext a
  apply Fin.ext
  match a with
  | ⟨0, _⟩ => show win2_9.index t 0 * 1 + 1 * (j 0).val = (j 0).val; rw [(idx2_9 t).1]; omega
  | ⟨1, _⟩ => show win2_9.index t 1 * 128 + 1 * (j 1).val = (j 1).val; rw [(idx2_9 t).2]; omega

end Cert.KernelIdeal.KBlocks

end
-- ==== Proof.K0.lean ====
import proofs.«151021_j35390530519886_1_alg».proof.Proof.Gen.KernelIdeal.Frame
import proofs.«151021_j35390530519886_1_alg».proof.Proof.Cell
import proofs.«151021_j35390530519886_1_alg».proof.Proof.K0a
import proofs.«151021_j35390530519886_1_alg».proof.Proof.CellLaw
import proofs.«151021_j35390530519886_1_alg».proof.Proof.KOps
import proofs.«151021_j35390530519886_1_alg».proof.Proof.KBlocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx Cert.KernelIdeal Cert.KernelIdeal.Gen Cell
open Idealize.ShloMosaic.Pipeline (Dat)

namespace Cert.KernelIdeal.K0
/-! # Region 0: the first pass over the batch, as values

The first pass walks the 65536-row batch in 32 row blocks of 2048. At each block it computes the stage
H = tanh (X₀ W₀ + b₀) + tanh (X₁ W₁ + b₁) of the two data matrices' rows and writes those rows of H out; it also adds the
block's part of X₂ᵀ H to a 256 × 256 accumulator and the block's part of ‖X₂‖² to a scalar accumulator, both reset to
zero before the first block and written out after the last.

A stage's row depends on the same row of its two data operands only, so block `t`'s rows are rows 2048 t … 2048 t + 2047 of
the stage of the whole matrices. The accumulators after block `n` hold the contributions of the rows of blocks 0 … n (by
induction on `n`: zero plus the first block's part, then each later block's part added to what was there); after the last
block the 32 block sums of 2048 rows are one sum over all 65536 rows, which is X₂ᵀ H and ‖X₂‖². -/

variable (V : (c : Dev nD) → (b : Ref sig .tc) → Buf (Elt Ideal) ((c : Thread nD τ).loc b))

/-- The arrays the region finds, window by window, at their literal types. -/
abbrev A0 (c : Dev nD) : Vec Ideal S65536x256 .f32 := V c (Pipeline.arrRef spec0 0)
abbrev A1 (c : Dev nD) : Vec Ideal S65536x256 .f32 := V c (Pipeline.arrRef spec0 1)
abbrev A2 (c : Dev nD) : Vec Ideal S65536x256 .f32 := V c (Pipeline.arrRef spec0 2)
abbrev A3 (c : Dev nD) : Vec Ideal S256x256 .f32 := V c (Pipeline.arrRef spec0 3)
abbrev A4 (c : Dev nD) : Vec Ideal S1x256 .f32 := V c (Pipeline.arrRef spec0 4)
abbrev A5 (c : Dev nD) : Vec Ideal S256x256 .f32 := V c (Pipeline.arrRef spec0 5)
abbrev A6 (c : Dev nD) : Vec Ideal S1x256 .f32 := V c (Pipeline.arrRef spec0 6)

/-- The hidden state the first pass computes: the stage of the two data matrices. -/
def Hm (c : Dev nD) : Mat 65536 256 := stageT (rd (A0 V c)) (rd (A1 V c)) (A3 V c) (A4 V c) (A5 V c) (A6 V c)

/-- A block's rows lie inside the batch. -/
theorem rowlt (t : Fin cfg0.N) (p : Fin 2048) : 2048 * t.val + p.val < 65536 := by
  have hN : cfg0.N = 32 := N_0
  have := t.isLt; have := p.isLt; omega

/-- Row `p` of the block of grid point `t` is row `2048 t + p` of the batch. -/
def row (t : Fin cfg0.N) (p : Fin 2048) : Fin 65536 := ⟨2048 * t.val + p.val, rowlt t p⟩

/-- Row `r`'s contribution to entry `(k, j)` of Xᵀ H, as a function of every natural (zero past the batch). -/
def gG (c : Dev nD) (k j : Fin 256) (r : ℕ) : EReal :=
  if h : r < 65536 then rd (A2 V c) ⟨r, h⟩ k * Hm V c ⟨r, h⟩ j else 0

/-- Row `r`'s contribution to ‖X‖², as a function of every natural (zero past the batch). -/
def gS (c : Dev nD) (r : ℕ) : EReal :=
  if h : r < 65536 then ∑ q : Fin 256, rd (A2 V c) ⟨r, h⟩ q * rd (A2 V c) ⟨r, h⟩ q else 0

theorem gG_sum (c : Dev nD) (k j : Fin 256) : ∑ r : Fin 65536, gG V c k j r.val = gram (rd (A2 V c)) (Hm V c) k j := by
  unfold gram gG
  refine Finset.sum_congr rfl fun r _ => ?_
  rw [dif_pos r.isLt]

theorem gS_sum (c : Dev nD) : ∑ r : Fin 65536, gS V c r.val = sumsq (rd (A2 V c)) := by
  unfold sumsq gS
  refine Finset.sum_congr rfl fun r _ => ?_
  rw [dif_pos r.isLt]

/-- A stage reads row `p` of its two data operands only: two pairs of operands that agree on a row give the same row. -/
theorem stageT_row {n N d d' e : Nat} (x : Mat n d) (X : Mat N d) (y : Mat n d') (Y : Mat N d')
    (Wt : (⟨2, ![d, e]⟩ : Shape).Idx → EReal) (b2 : (⟨2, ![1, e]⟩ : Shape).Idx → EReal)
    (Ut : (⟨2, ![d', e]⟩ : Shape).Idx → EReal) (c2 : (⟨2, ![1, e]⟩ : Shape).Idx → EReal)
    (p : Fin n) (r : Fin N) (hx : ∀ k, x p k = X r k) (hy : ∀ k, y p k = Y r k) (q : Fin e) :
    stageT x y Wt b2 Ut c2 p q = stageT X Y Wt b2 Ut c2 r q := by
  unfold stageT actT
  simp only [hx, hy]

/-- The accumulated product at an index: what was there plus this block's Xᵀ H. -/
theorem pay5_apply (x0 x1 x2 : Vec Ideal S2048x256 .f32) (x3 : Vec Ideal S256x256 .f32) (x4 : Vec Ideal S1x256 .f32) (x5 : Vec Ideal S256x256 .f32) (x6 : Vec Ideal S1x256 .f32) (v31 : Vec Ideal S256x256 .f32) (k j : Fin 256) :
    k0_pay5 (F := Ideal) x0 x1 x2 x3 x4 x5 x6 v31 (ix2 k j)
      = v31 (ix2 k j) + ∑ p : Fin 2048, x2 (ix2 p k) * k0_pay4 (F := Ideal) x0 x1 x3 x4 x5 x6 (ix2 p j) := by
  unfold k0_pay5
  refine (addf_apply _ _ _).trans ?_
  rw [shapeCast_self]
  exact congrArg (v31 (ix2 k j) + ·) (KOps.mm_gram (truncf .bf16 x2 bitsLt_bf16_f32) (truncf .bf16 (k0_pay4 x0 x1 x3 x4 x5 x6) bitsLt_bf16_f32) k j)

/-- The blocks of the three data windows at a point, at their literal type. -/
abbrev B0 (c : Dev nD) (t : Fin cfg0.N) : Vec Ideal S2048x256 .f32 := iblk0 V c 0 t
abbrev B1 (c : Dev nD) (t : Fin cfg0.N) : Vec Ideal S2048x256 .f32 := iblk0 V c 1 t
abbrev B2 (c : Dev nD) (t : Fin cfg0.N) : Vec Ideal S2048x256 .f32 := iblk0 V c 2 t
/-- What the accumulators' buffers hold after point `n`, at their literal types. -/
abbrev O8 (c : Dev nD) (n : ℕ) (h : n < cfg0.N) : Vec Ideal S256x256 .f32 := (outsAt0 V c n h).2.1
abbrev O9 (c : Dev nD) (n : ℕ) (h : n < cfg0.N) : Vec Ideal S1x1 .f32 := (outsAt0 V c n h).2.2
abbrev O7 (c : Dev nD) (n : ℕ) (h : n < cfg0.N) : Vec Ideal S2048x256 .f32 := (outsAt0 V c n h).1

/-- The accumulated sum of squares at its one index: what was there plus this block's sum of squares. -/
theorem pay1_apply (x2 : Vec Ideal S2048x256 .f32) (v40 : Vec Ideal S1x1 .f32) (u v : Fin 1) :
    k0_pay1 (F := Ideal) x2 v40 (ix2 u v) = v40 (ix2 u v) + ∑ p : Fin 2048, ∑ q : Fin 256, x2 (ix2 p q) * x2 (ix2 p q) := by
  obtain rfl : u = 0 := Subsingleton.elim _ _
  obtain rfl : v = 0 := Subsingleton.elim _ _
  unfold k0_pay1
  refine (addf_apply _ _ _).trans ?_
  rw [shapeCast_self]
  exact congrArg (v40 (ix2 0 0) + ·) (KOps.sq_total x2)

/-- The zero blocks the first point stores. -/
theorem pay2_apply (i : S256x256.Idx) : k0_pay2 (F := Ideal) i = 0 := Ideal.ofBits_zero_f32
theorem pay3_apply (i : S1x1.Idx) : k0_pay3 (F := Ideal) i = 0 := Ideal.ofBits_zero_f32

theorem B0_apply (c : Dev nD) (t : Fin cfg0.N) (p : Fin 2048) (q : Fin 256) : B0 V c t (ix2 p q) = A0 V c (ix2 (row t p) q) := KBlocks.blk0_0 V c t p q
theorem B1_apply (c : Dev nD) (t : Fin cfg0.N) (p : Fin 2048) (q : Fin 256) : B1 V c t (ix2 p q) = A1 V c (ix2 (row t p) q) := KBlocks.blk0_1 V c t p q
theorem B2_apply (c : Dev nD) (t : Fin cfg0.N) (p : Fin 2048) (q : Fin 256) : B2 V c t (ix2 p q) = A2 V c (ix2 (row t p) q) := KBlocks.blk0_2 V c t p q

/-- THE STAGE AT A POINT: row `p` of the block a point computes is row `2048 t + p` of the whole hidden state. -/
theorem stage_row (c : Dev nD) (t : Fin cfg0.N) (p : Fin 2048) (q : Fin 256) :
    k0_pay4 (F := Ideal) (iblk0 V c 0 t) (iblk0 V c 1 t) (iblk0 V c 3 t) (iblk0 V c 4 t) (iblk0 V c 5 t) (iblk0 V c 6 t) (ix2 p q) = Hm V c (row t p) q := by
  refine (KOps.stage_blk (iblk0 V c 0 t) (iblk0 V c 1 t) (iblk0 V c 3 t) (iblk0 V c 4 t) (iblk0 V c 5 t) (iblk0 V c 6 t) p q).trans ?_
  unfold Hm
  rw [show (iblk0 V c 3 t : Vec Ideal S256x256 .f32) = A3 V c from KBlocks.whole0_3 V c t,
    show (iblk0 V c 4 t : Vec Ideal S1x256 .f32) = A4 V c from KBlocks.whole0_4 V c t,
    show (iblk0 V c 5 t : Vec Ideal S256x256 .f32) = A5 V c from KBlocks.whole0_5 V c t,
    show (iblk0 V c 6 t : Vec Ideal S1x256 .f32) = A6 V c from KBlocks.whole0_6 V c t]
  exact stageT_row _ _ _ _ _ _ _ _ p (row t p) (fun k => B0_apply V c t p k) (fun k => B1_apply V c t p k) q

/-- A point's addend to entry `(k, j)` of Xᵀ H is the sum of its 2048 rows' contributions. -/
theorem gram_term (c : Dev nD) (t : Fin cfg0.N) (k j : Fin 256) :
    ∑ p : Fin 2048, B2 V c t (ix2 p k) * k0_pay4 (F := Ideal) (iblk0 V c 0 t) (iblk0 V c 1 t) (iblk0 V c 3 t) (iblk0 V c 4 t) (iblk0 V c 5 t) (iblk0 V c 6 t) (ix2 p j)
      = ∑ p : Fin 2048, gG V c k j (2048 * t.val + p.val) := by
  refine Finset.sum_congr rfl fun p _ => ?_
  rw [stage_row V c t p j, B2_apply V c t p k]
  unfold gG
  rw [dif_pos (rowlt t p)]
  rfl

/-- A point's addend to ‖X‖² is the sum of its 2048 rows' contributions. -/
theorem sq_term (c : Dev nD) (t : Fin cfg0.N) :
    ∑ p : Fin 2048, ∑ q : Fin 256, B2 V c t (ix2 p q) * B2 V c t (ix2 p q)
      = ∑ p : Fin 2048, gS V c (2048 * t.val + p.val) := by
  refine Finset.sum_congr rfl fun p _ => ?_
  unfold gS
  rw [dif_pos (rowlt t p)]
  refine Finset.sum_congr rfl fun q _ => ?_
  rw [B2_apply V c t p q]
  rfl

/-- THE MATRIX ACCUMULATOR after point `n`: the contributions of the rows of blocks 0 … n. -/
theorem acc8 (c : Dev nD) : ∀ (n : ℕ) (h : n < cfg0.N) (k j : Fin 256),
    O8 V c n h (ix2 k j) = ∑ s ∈ Finset.range (n + 1), ∑ p : Fin 2048, gG V c k j (2048 * s + p.val)
  | 0, h, k, j => by
    show (outsAt0 V c 0 h).2.1 (ix2 k j) = _
    rw [outsAt0_A V c ⟨0, h⟩ rfl]
    dsimp only
    refine (congrFun (out_A_8 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩)) (ix2 k j)).trans ?_
    refine (pay5_apply (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) (k0_pay2 (F := Ideal)) k j).trans ?_
    rw [pay2_apply, zero_add, Finset.sum_range_one]
    exact gram_term V c ⟨0, h⟩ k j
  | n + 1, h, k, j => by
    have hN : cfg0.N = 32 := N_0
    have hB : ¬(⟨n + 1, h⟩ : Fin cfg0.N).val % 32 = 0 := by dsimp only; omega
    show (outsAt0 V c (n + 1) h).2.1 (ix2 k j) = _
    rw [outsAt0_B V c ⟨n + 1, h⟩ hB]
    dsimp only
    refine (congrFun (out_B_8 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (O8 V c n (Nat.lt_of_succ_lt h)) (O9 V c n (Nat.lt_of_succ_lt h))) (ix2 k j)).trans ?_
    refine (pay5_apply (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (O8 V c n (Nat.lt_of_succ_lt h)) k j).trans ?_
    rw [Finset.sum_range_succ _ (n + 1), acc8 c n (Nat.lt_of_succ_lt h) k j]
    exact congrArg (_ + ·) (gram_term V c ⟨n + 1, h⟩ k j)

/-- THE SCALAR ACCUMULATOR after point `n`: the squares of the rows of blocks 0 … n. -/
theorem acc9 (c : Dev nD) : ∀ (n : ℕ) (h : n < cfg0.N) (u v : Fin 1),
    O9 V c n h (ix2 u v) = ∑ s ∈ Finset.range (n + 1), ∑ p : Fin 2048, gS V c (2048 * s + p.val)
  | 0, h, u, v => by
    show (outsAt0 V c 0 h).2.2 (ix2 u v) = _
    rw [outsAt0_A V c ⟨0, h⟩ rfl]
    dsimp only
    refine (congrFun (out_A_9 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) ((hcond0_0 ⟨0, h⟩).mpr rfl) (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩)) (ix2 u v)).trans ?_
    refine (pay1_apply (iblk0 V c 2 ⟨0, h⟩) (k0_pay3 (F := Ideal)) u v).trans ?_
    rw [pay3_apply, zero_add, Finset.sum_range_one]
    exact sq_term V c ⟨0, h⟩
  | n + 1, h, u, v => by
    have hN : cfg0.N = 32 := N_0
    have hB : ¬(⟨n + 1, h⟩ : Fin cfg0.N).val % 32 = 0 := by dsimp only; omega
    show (outsAt0 V c (n + 1) h).2.2 (ix2 u v) = _
    rw [outsAt0_B V c ⟨n + 1, h⟩ hB]
    dsimp only
    refine (congrFun (out_B_9 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (fun hh => hB ((hcond0_0 ⟨n + 1, h⟩).mp hh)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (O8 V c n (Nat.lt_of_succ_lt h)) (O9 V c n (Nat.lt_of_succ_lt h))) (ix2 u v)).trans ?_
    refine (pay1_apply (iblk0 V c 2 ⟨n + 1, h⟩) (O9 V c n (Nat.lt_of_succ_lt h)) u v).trans ?_
    rw [Finset.sum_range_succ _ (n + 1), acc9 c n (Nat.lt_of_succ_lt h) u v]
    exact congrArg (_ + ·) (sq_term V c ⟨n + 1, h⟩)

/-- THE HIDDEN STATE'S BUFFER after point `t`: block `t` of the whole hidden state. -/
theorem after7 (c : Dev nD) (t : Fin cfg0.N) (p : Fin 2048) (q : Fin 256) :
    O7 V c t.val t.isLt (ix2 p q) = Hm V c (row t p) q := by
  by_cases h0 : t.val % 32 = 0
  · show (outsAt0 V c t.val t.isLt).1 (ix2 p q) = _
    rw [outsAt0_A V c t h0]
    dsimp only
    exact (congrFun (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t)) (ix2 p q)).trans (stage_row V c t p q)
  · show (outsAt0 V c t.val t.isLt).1 (ix2 p q) = _
    rw [outsAt0_B V c t h0]
    dsimp only
    exact (congrFun (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hh => h0 ((hcond0_0 t).mp hh)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) (ix2 p q)).trans (stage_row V c t p q)

/-! ## From blocks to the arrays -/

/-- The blocks' index maps, decided once over the grid: the hidden state's block is row block `t`; the accumulators'
    blocks never move. -/
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

/-- An index of the array is in point `t`'s block iff each coordinate is in the block's range on its axis. -/
theorem mem_blk7 (t : Fin cfg0.N) (i : S65536x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v10_0).slice (win0_7.rect t)).set ↔ _
  rw [View.set_slice_whole, Rect.mem_set_unit]
  exact Iff.rfl

theorem mem_blk8 (t : Fin cfg0.N) (i : S256x256.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v10_1).slice (win0_8.rect t)).set ↔ _
  rw [View.set_slice_whole, Rect.mem_set_unit]
  exact Iff.rfl

theorem mem_blk9 (t : Fin cfg0.N) (i : S1x1.Idx) :
    i ∈ ((cfg0.win 9).blk t).view.set ↔ ∀ a : Fin 2, win0_9.index t a * S1x1.size a ≤ (i a).val ∧ (i a).val < win0_9.index t a * S1x1.size a + S1x1.size a := by
  show i ∈ ((View.whole main_v10_2).slice (win0_9.rect t)).set ↔ _
  rw [View.set_slice_whole, Rect.mem_set_unit]
  exact Iff.rfl

/-- Row `r` of the hidden state is written back by point `r / 2048`. -/
theorem cover7 : ∀ i : S65536x256.Idx, ∃ t : Fin cfg0.N, (cfg0.win 7).flush t = true ∧ i ∈ ((cfg0.win 7).blk t).view.set := by
  intro i
  have hN : cfg0.N = 32 := N_0
  have hi0 : (i 0).val < 65536 := (i 0).isLt
  have hi1 : (i 1).val < 256 := (i 1).isLt
  obtain ⟨t, ht⟩ : ∃ t : Fin cfg0.N, t.val = (i 0).val / 2048 := ⟨⟨(i 0).val / 2048, by omega⟩, rfl⟩
  obtain ⟨e0, e1⟩ := idx7 t
  refine ⟨t, flush0_7 t, ?_⟩
  rw [mem_blk7]
  intro a
  match a with
  | ⟨0, _⟩ =>
    show win0_7.index t (0 : Fin 2) * 2048 ≤ (i 0).val ∧ (i 0).val < win0_7.index t (0 : Fin 2) * 2048 + 2048
    omega
  | ⟨1, _⟩ =>
    show win0_7.index t (1 : Fin 2) * 256 ≤ (i 1).val ∧ (i 1).val < win0_7.index t (1 : Fin 2) * 256 + 256
    omega

/-- The whole matrix accumulator is written back by the last point. -/
theorem cover8 : ∀ i : S256x256.Idx, ∃ t : Fin cfg0.N, (cfg0.win 8).flush t = true ∧ i ∈ ((cfg0.win 8).blk t).view.set := by
  intro i
  have hN : cfg0.N = 32 := N_0
  have hi0 : (i 0).val < 256 := (i 0).isLt
  have hi1 : (i 1).val < 256 := (i 1).isLt
  obtain ⟨t, ht⟩ : ∃ t : Fin cfg0.N, t.val = 31 := ⟨⟨31, by omega⟩, rfl⟩
  obtain ⟨e0, e1⟩ := idx8 t
  refine ⟨t, (flush0_8 t).mpr (by omega), ?_⟩
  rw [mem_blk8]
  intro a
  match a with
  | ⟨0, _⟩ =>
    show win0_8.index t (0 : Fin 2) * 256 ≤ (i 0).val ∧ (i 0).val < win0_8.index t (0 : Fin 2) * 256 + 256
    omega
  | ⟨1, _⟩ =>
    show win0_8.index t (1 : Fin 2) * 256 ≤ (i 1).val ∧ (i 1).val < win0_8.index t (1 : Fin 2) * 256 + 256
    omega

/-- The scalar accumulator is written back by the last point. -/
theorem cover9 : ∀ i : S1x1.Idx, ∃ t : Fin cfg0.N, (cfg0.win 9).flush t = true ∧ i ∈ ((cfg0.win 9).blk t).view.set := by
  intro i
  have hN : cfg0.N = 32 := N_0
  have hi0 : (i 0).val < 1 := (i 0).isLt
  have hi1 : (i 1).val < 1 := (i 1).isLt
  obtain ⟨t, ht⟩ : ∃ t : Fin cfg0.N, t.val = 31 := ⟨⟨31, by omega⟩, rfl⟩
  obtain ⟨e0, e1⟩ := idx9 t
  refine ⟨t, (flush0_9 t).mpr (by omega), ?_⟩
  rw [mem_blk9]
  intro a
  match a with
  | ⟨0, _⟩ =>
    show win0_9.index t (0 : Fin 2) * 1 ≤ (i 0).val ∧ (i 0).val < win0_9.index t (0 : Fin 2) * 1 + 1
    omega
  | ⟨1, _⟩ =>
    show win0_9.index t (1 : Fin 2) * 1 ≤ (i 1).val ∧ (i 1).val < win0_9.index t (1 : Fin 2) * 1 + 1
    omega

/-- What point `t` writes back of the hidden state is block `t` of the whole hidden state. -/
theorem flushed7 (c : Dev nD) (t : Fin cfg0.N) :
    (dat0 V c).flushed 7 t = ((cfg0.win 7).blk t).view.read (Elt Ideal) (arr (Hm V c)) := by
  show (cfg0.win 7).cut (grid0.coords t) ((dat0 V c).after 7 t) = _
  rw [after0_7]
  funext y
  obtain ⟨e0, e1⟩ := idx7 t
  show O7 V c t.val t.isLt y = arr (Hm V c) (((cfg0.win 7).blk t).view.emb y)
  refine (congrArg (O7 V c t.val t.isLt) (eq_ix2 (n0 := 2048) (n1 := 256) y)).trans ?_
  refine (after7 V c t (y 0) (y 1)).trans ?_
  unfold arr
  refine congrArg₂ (Hm V c) (Fin.ext ?_) (Fin.ext ?_)
  · show 2048 * t.val + (y 0).val = win0_7.index t (0 : Fin 2) * 2048 + 1 * (y 0).val
    omega
  · show (y 1).val = win0_7.index t (1 : Fin 2) * 256 + 1 * (y 1).val
    omega

/-- The last point writes back the matrix accumulator: by then the contributions of all 65536 rows, which is Xᵀ H. -/
theorem flushed8 (c : Dev nD) (t : Fin cfg0.N) (hf : (cfg0.win 8).flush t = true) :
    (dat0 V c).flushed 8 t = ((cfg0.win 8).blk t).view.read (Elt Ideal) (arr (gram (rd (A2 V c)) (Hm V c))) := by
  have hN : cfg0.N = 32 := N_0
  have h31 : t.val + 1 = 32 := by have := (flush0_8 t).mp hf; have := t.isLt; omega
  obtain ⟨e0, e1⟩ := idx8 t
  show (cfg0.win 8).cut (grid0.coords t) ((dat0 V c).after 8 t) = _
  rw [after0_8]
  -- the accumulator's one block is the whole array: reading the array back through it changes nothing
  have hz' : (fun a => win0_8.index t a * main_v10_1.ty.shape.size a) = fun _ => 0 := funext fun a => by
    match a with
    | ⟨0, _⟩ => show win0_8.index t (0 : Fin 2) * 256 = 0; omega
    | ⟨1, _⟩ => show win0_8.index t (1 : Fin 2) * 256 = 0; omega
  refine Eq.trans ?_ (Memref.read_access_unit_zero (Elt Ideal) main_v10_1 hz' (fun a => by rw [congrFun hz' a]; simp) (arr (gram (rd (A2 V c)) (Hm V c)))).symm
  funext y
  show O8 V c t.val t.isLt y = arr (gram (rd (A2 V c)) (Hm V c)) y
  refine (congrArg (O8 V c t.val t.isLt) (eq_ix2 (n0 := 256) (n1 := 256) y)).trans ?_
  refine (acc8 V c t.val t.isLt (y 0) (y 1)).trans ?_
  rw [h31, Cell.sum_blocks_32]
  exact gG_sum V c (y 0) (y 1)

/-- The last point writes back the scalar accumulator: by then the squares of all 65536 rows, which is ‖X‖². -/
theorem flushed9 (c : Dev nD) (t : Fin cfg0.N) (hf : (cfg0.win 9).flush t = true) :
    (dat0 V c).flushed 9 t = ((cfg0.win 9).blk t).view.read (Elt Ideal) ((fun _ => sumsq (rd (A2 V c))) : Vec Ideal S1x1 .f32) := by
  have hN : cfg0.N = 32 := N_0
  have h31 : t.val + 1 = 32 := by have := (flush0_9 t).mp hf; have := t.isLt; omega
  obtain ⟨e0, e1⟩ := idx9 t
  show (cfg0.win 9).cut (grid0.coords t) ((dat0 V c).after 9 t) = _
  rw [after0_9]
  have hz' : (fun a => win0_9.index t a * main_v10_2.ty.shape.size a) = fun _ => 0 := funext fun a => by
    match a with
    | ⟨0, _⟩ => show win0_9.index t (0 : Fin 2) * 1 = 0; omega
    | ⟨1, _⟩ => show win0_9.index t (1 : Fin 2) * 1 = 0; omega
  refine Eq.trans ?_ (Memref.read_access_unit_zero (Elt Ideal) main_v10_2 hz' (fun a => by rw [congrFun hz' a]; simp) ((fun _ => sumsq (rd (A2 V c))) : Vec Ideal S1x1 .f32)).symm
  funext y
  show O9 V c t.val t.isLt y = sumsq (rd (A2 V c))
  refine (congrArg (O9 V c t.val t.isLt) (eq_ix2 (n0 := 1) (n1 := 1) y)).trans ?_
  refine (acc9 V c t.val t.isLt (y 0) (y 1)).trans ?_
  rw [h31, Cell.sum_blocks_32]
  exact gS_sum V c

/-- THE HIDDEN STATE after the pass: the stage of the two data matrices. -/
theorem final7 (c : Dev nD) : (dat0 (F := Ideal) V c).arrAt 7 cfg0.N
    = arr (stageT (rd (A0 V c)) (rd (A1 V c)) (A3 V c) (A4 V c) (A5 V c) (A6 V c)) :=
  (dat0 V c).arrAt_eq_of_cover 7 (arr (Hm V c)) (fun t _ => flushed7 V c t) cover7

/-- THE MATRIX ACCUMULATOR after the pass: Xᵀ H of the third data matrix and the hidden state. -/
theorem final8 (c : Dev nD) : (dat0 (F := Ideal) V c).arrAt 8 cfg0.N
    = arr (gram (rd (A2 V c)) (stageT (rd (A0 V c)) (rd (A1 V c)) (A3 V c) (A4 V c) (A5 V c) (A6 V c))) :=
  (dat0 V c).arrAt_eq_of_cover 8 (arr (gram (rd (A2 V c)) (Hm V c))) (flushed8 V c) cover8

/-- THE SCALAR ACCUMULATOR after the pass: ‖X‖² of the third data matrix. -/
theorem final9 (c : Dev nD) : (dat0 (F := Ideal) V c).arrAt 9 cfg0.N = fun _ => sumsq (rd (A2 V c)) :=
  (dat0 V c).arrAt_eq_of_cover 9 ((fun _ => sumsq (rd (A2 V c))) : Vec Ideal S1x1 .f32) (flushed9 V c) cover9

end Cert.KernelIdeal.K0
end
-- ==== Proof.K1a.lean ====
import proofs.«151021_j35390530519886_1_alg».proof.Proof.Gen.KernelIdeal.Frame
import proofs.«151021_j35390530519886_1_alg».proof.Proof.Cell
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Cert.KernelIdeal Cert.KernelIdeal.Gen Cell
open Idealize.ShloMosaic.Pipeline (Dat)

namespace Cert.KernelIdeal.K1

variable {F : FTy → Type} [FloatOps F]

/-! ## What each case of the body leaves in the three output buffers

At the first point the two accumulators are reset to zero and then updated; at every later point they are updated
from what the point before left.  The stage's block is stored whole at every point. -/

theorem hz : (![0, 0] : Fin 2 → Nat) = fun _ => 0 := funext fun a => by fin_cases a <;> rfl

/-- The zero block a product accumulates into. -/
abbrev zacc : FVec F S2048x256 .f32 := constant S2048x256 .f32 0x00000000#32

/-- The stage's block as the body computes it from the nine loaded blocks: x0 the running hidden state's rows,
    x1 the rows it is deflated against, x3 and x4 the Gram matrix and the sum of squares of the pass before,
    x5 … x8 the two layers' weights and biases. -/
abbrev stageBlk (x0 : Vec F S2048x256 .f32) (x1 : Vec F S2048x256 .f32) (x2 : Vec F S2048x256 .f32) (x3 : Vec F S256x256 .f32) (x4 : Vec F S1x1 .f32) (x5 : Vec F S256x256 .f32) (x6 : Vec F S1x256 .f32) (x7 : Vec F S256x256 .f32) (x8 : Vec F S1x256 .f32) : FVec F S2048x256 .f32 :=
  k1_pay1 (k1_pay6 x8) (k1_pay7 x1 x5 x6) (k1_pay8 x0 x1 x3 x4) (k1_pay9 x7) zacc

/-- The Gram accumulator's update: acc + x2ᵀ · (the stage's block). -/
abbrev gramUpd (x0 : Vec F S2048x256 .f32) (x1 : Vec F S2048x256 .f32) (x2 : Vec F S2048x256 .f32) (x3 : Vec F S256x256 .f32) (x4 : Vec F S1x1 .f32) (x5 : Vec F S256x256 .f32) (x6 : Vec F S1x256 .f32) (x7 : Vec F S256x256 .f32) (x8 : Vec F S1x256 .f32) (acc : Vec F S256x256 .f32) : FVec F S256x256 .f32 :=
  k1_pay2 x2 (k1_pay6 x8) (k1_pay7 x1 x5 x6) (k1_pay8 x0 x1 x3 x4) (k1_pay9 x7) zacc acc

theorem out_A_9 (c : Dev nD) (i : grid1.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x1 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S2048x256 .f32) (h10 : a10.IsWhole) (a11 : Memref sig .tc .vmem S256x256 .f32) (h11 : a11.IsWhole) (a12 : Memref sig .tc .vmem S1x1 .f32) (h12 : a12.IsWhole) (hc : cond1_0 i) (x0 : Vec F S2048x256 .f32) (x1 : Vec F S2048x256 .f32) (x2 : Vec F S2048x256 .f32) (x3 : Vec F S256x256 .f32) (x4 : Vec F S1x1 .f32) (x5 : Vec F S256x256 .f32) (x6 : Vec F S1x256 .f32) (x7 : Vec F S256x256 .f32) (x8 : Vec F S1x256 .f32) :
    out1_A_9 c i a1 h1 a2 h2 a3 h3 a4 h4 a5 h5 a6 h6 a7 h7 a8 h8 a9 h9 a10 h10 a11 h11 a12 h12 hc x0 x1 x2 x3 x4 x5 x6 x7 x8 = stageBlk x0 x1 x2 x3 x4 x5 x6 x7 x8 := by
  unfold out1_A_9
  rw [View.read_writes_eq_canon _ _ _ (cover1_A_9 c i a1 h1 a2 h2 a3 h3 a4 h4 a5 h5 a6 h6 a7 h7 a8 h8 a9 h9 a10 h10 a11 h11 a12 h12 hc x0 x1 x2 x3 x4 x5 x6 x7 x8)]
  unfold kernelRun1_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S2048x256) hz, View.ld_unit_zero (S := S256x256) hz, View.ld_unit_zero (S := S1x256) hz, View.ld_unit_zero (S := S1x1) hz]

theorem out_B_9 (c : Dev nD) (i : grid1.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x1 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S2048x256 .f32) (h10 : a10.IsWhole) (a11 : Memref sig .tc .vmem S256x256 .f32) (h11 : a11.IsWhole) (a12 : Memref sig .tc .vmem S1x1 .f32) (h12 : a12.IsWhole) (hc : ¬cond1_0 i) (x0 : Vec F S2048x256 .f32) (x1 : Vec F S2048x256 .f32) (x2 : Vec F S2048x256 .f32) (x3 : Vec F S256x256 .f32) (x4 : Vec F S1x1 .f32) (x5 : Vec F S256x256 .f32) (x6 : Vec F S1x256 .f32) (x7 : Vec F S256x256 .f32) (x8 : Vec F S1x256 .f32)
    (xo10 : Vec F S256x256 .f32) (xo11 : Vec F S1x1 .f32) :
    out1_B_9 c i a1 h1 a2 h2 a3 h3 a4 h4 a5 h5 a6 h6 a7 h7 a8 h8 a9 h9 a10 h10 a11 h11 a12 h12 hc x0 x1 x2 x3 x4 x5 x6 x7 x8 xo10 xo11 = stageBlk x0 x1 x2 x3 x4 x5 x6 x7 x8 := by
  unfold out1_B_9
  rw [View.read_writes_eq_canon _ _ _ (cover1_B_9 c i a1 h1 a2 h2 a3 h3 a4 h4 a5 h5 a6 h6 a7 h7 a8 h8 a9 h9 a10 h10 a11 h11 a12 h12 hc x0 x1 x2 x3 x4 x5 x6 x7 x8 xo10 xo11)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S2048x256) hz, View.ld_unit_zero (S := S256x256) hz, View.ld_unit_zero (S := S1x256) hz, View.ld_unit_zero (S := S1x1) hz, h11.read_unread, h12.read_unread]

theorem out_A_10 (c : Dev nD) (i : grid1.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x1 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S2048x256 .f32) (h10 : a10.IsWhole) (a11 : Memref sig .tc .vmem S256x256 .f32) (h11 : a11.IsWhole) (a12 : Memref sig .tc .vmem S1x1 .f32) (h12 : a12.IsWhole) (hc : cond1_0 i) (x0 : Vec F S2048x256 .f32) (x1 : Vec F S2048x256 .f32) (x2 : Vec F S2048x256 .f32) (x3 : Vec F S256x256 .f32) (x4 : Vec F S1x1 .f32) (x5 : Vec F S256x256 .f32) (x6 : Vec F S1x256 .f32) (x7 : Vec F S256x256 .f32) (x8 : Vec F S1x256 .f32) :
    out1_A_10 c i a1 h1 a2 h2 a3 h3 a4 h4 a5 h5 a6 h6 a7 h7 a8 h8 a9 h9 a10 h10 a11 h11 a12 h12 hc x0 x1 x2 x3 x4 x5 x6 x7 x8 = gramUpd x0 x1 x2 x3 x4 x5 x6 x7 x8 k1_pay4 := by
  unfold out1_A_10
  rw [View.read_writes_eq_canon _ _ _ (cover1_A_10 c i a1 h1 a2 h2 a3 h3 a4 h4 a5 h5 a6 h6 a7 h7 a8 h8 a9 h9 a10 h10 a11 h11 a12 h12 hc x0 x1 x2 x3 x4 x5 x6 x7 x8)]
  unfold kernelRun1_A
  dsimp only
  sl_unfold_words
  rw [View.canon_cons_unit_zero (S := S256x256) hz, View.readCov_unit_zero (S := S256x256) _ hz]
  simp only [View.readAt_eq_ld, h1.read_unread, h2.read_unread, h3.read_unread, h4.read_unread, h5.read_unread, h6.read_unread, h7.read_unread, h8.read_unread, h9.read_unread, View.ld_unit_zero (S := S2048x256) hz, View.ld_unit_zero (S := S256x256) hz, View.ld_unit_zero (S := S1x256) hz, View.ld_unit_zero (S := S1x1) hz]

theorem out_B_10 (c : Dev nD) (i : grid1.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x1 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S2048x256 .f32) (h10 : a10.IsWhole) (a11 : Memref sig .tc .vmem S256x256 .f32) (h11 : a11.IsWhole) (a12 : Memref sig .tc .vmem S1x1 .f32) (h12 : a12.IsWhole) (hc : ¬cond1_0 i) (x0 : Vec F S2048x256 .f32) (x1 : Vec F S2048x256 .f32) (x2 : Vec F S2048x256 .f32) (x3 : Vec F S256x256 .f32) (x4 : Vec F S1x1 .f32) (x5 : Vec F S256x256 .f32) (x6 : Vec F S1x256 .f32) (x7 : Vec F S256x256 .f32) (x8 : Vec F S1x256 .f32)
    (xo10 : Vec F S256x256 .f32) (xo11 : Vec F S1x1 .f32) :
    out1_B_10 c i a1 h1 a2 h2 a3 h3 a4 h4 a5 h5 a6 h6 a7 h7 a8 h8 a9 h9 a10 h10 a11 h11 a12 h12 hc x0 x1 x2 x3 x4 x5 x6 x7 x8 xo10 xo11 = gramUpd x0 x1 x2 x3 x4 x5 x6 x7 x8 xo10 := by
  unfold out1_B_10
  rw [View.read_writes_eq_canon _ _ _ (cover1_B_10 c i a1 h1 a2 h2 a3 h3 a4 h4 a5 h5 a6 h6 a7 h7 a8 h8 a9 h9 a10 h10 a11 h11 a12 h12 hc x0 x1 x2 x3 x4 x5 x6 x7 x8 xo10 xo11)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S2048x256) hz, View.ld_unit_zero (S := S256x256) hz, View.ld_unit_zero (S := S1x256) hz, View.ld_unit_zero (S := S1x1) hz, h11.read_unread, h12.read_unread]

theorem out_A_11 (c : Dev nD) (i : grid1.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x1 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S2048x256 .f32) (h10 : a10.IsWhole) (a11 : Memref sig .tc .vmem S256x256 .f32) (h11 : a11.IsWhole) (a12 : Memref sig .tc .vmem S1x1 .f32) (h12 : a12.IsWhole) (hc : cond1_0 i) (x0 : Vec F S2048x256 .f32) (x1 : Vec F S2048x256 .f32) (x2 : Vec F S2048x256 .f32) (x3 : Vec F S256x256 .f32) (x4 : Vec F S1x1 .f32) (x5 : Vec F S256x256 .f32) (x6 : Vec F S1x256 .f32) (x7 : Vec F S256x256 .f32) (x8 : Vec F S1x256 .f32) :
    out1_A_11 c i a1 h1 a2 h2 a3 h3 a4 h4 a5 h5 a6 h6 a7 h7 a8 h8 a9 h9 a10 h10 a11 h11 a12 h12 hc x0 x1 x2 x3 x4 x5 x6 x7 x8 = k1_pay3 x2 k1_pay5 := by
  unfold out1_A_11
  rw [View.read_writes_eq_canon _ _ _ (cover1_A_11 c i a1 h1 a2 h2 a3 h3 a4 h4 a5 h5 a6 h6 a7 h7 a8 h8 a9 h9 a10 h10 a11 h11 a12 h12 hc x0 x1 x2 x3 x4 x5 x6 x7 x8)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread, h7.read_unread, h8.read_unread, h9.read_unread, View.ld_unit_zero (S := S2048x256) hz, View.ld_unit_zero (S := S256x256) hz, View.ld_unit_zero (S := S1x256) hz, View.ld_unit_zero (S := S1x1) hz]

theorem out_B_11 (c : Dev nD) (i : grid1.Coords) (a1 : Memref sig .tc .vmem S2048x256 .f32) (h1 : a1.IsWhole) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x1 .f32) (h5 : a5.IsWhole) (a6 : Memref sig .tc .vmem S256x256 .f32) (h6 : a6.IsWhole) (a7 : Memref sig .tc .vmem S1x256 .f32) (h7 : a7.IsWhole) (a8 : Memref sig .tc .vmem S256x256 .f32) (h8 : a8.IsWhole) (a9 : Memref sig .tc .vmem S1x256 .f32) (h9 : a9.IsWhole) (a10 : Memref sig .tc .vmem S2048x256 .f32) (h10 : a10.IsWhole) (a11 : Memref sig .tc .vmem S256x256 .f32) (h11 : a11.IsWhole) (a12 : Memref sig .tc .vmem S1x1 .f32) (h12 : a12.IsWhole) (hc : ¬cond1_0 i) (x0 : Vec F S2048x256 .f32) (x1 : Vec F S2048x256 .f32) (x2 : Vec F S2048x256 .f32) (x3 : Vec F S256x256 .f32) (x4 : Vec F S1x1 .f32) (x5 : Vec F S256x256 .f32) (x6 : Vec F S1x256 .f32) (x7 : Vec F S256x256 .f32) (x8 : Vec F S1x256 .f32)
    (xo10 : Vec F S256x256 .f32) (xo11 : Vec F S1x1 .f32) :
    out1_B_11 c i a1 h1 a2 h2 a3 h3 a4 h4 a5 h5 a6 h6 a7 h7 a8 h8 a9 h9 a10 h10 a11 h11 a12 h12 hc x0 x1 x2 x3 x4 x5 x6 x7 x8 xo10 xo11 = k1_pay3 x2 xo11 := by
  unfold out1_B_11
  rw [View.read_writes_eq_canon _ _ _ (cover1_B_11 c i a1 h1 a2 h2 a3 h3 a4 h4 a5 h5 a6 h6 a7 h7 a8 h8 a9 h9 a10 h10 a11 h11 a12 h12 hc x0 x1 x2 x3 x4 x5 x6 x7 x8 xo10 xo11)]
  unfold kernelRun1_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S2048x256) hz, View.ld_unit_zero (S := S256x256) hz, View.ld_unit_zero (S := S1x256) hz, View.ld_unit_zero (S := S1x1) hz, h11.read_unread, h12.read_unread]

end Cert.KernelIdeal.K1

end
-- ==== Proof.K1Pay.lean ====
import proofs.«151021_j35390530519886_1_alg».proof.Proof.K1a
import proofs.«151021_j35390530519886_1_alg».proof.Proof.Cell
import proofs.«151021_j35390530519886_1_alg».proof.Proof.CellLaw
import proofs.«151021_j35390530519886_1_alg».proof.Proof.KOps
import Idealize.ShloMosaic.Lib.ValueIdx
import Idealize.ShloMosaic.Lib.ValueLayout
import Idealize.ShloMosaic.Lib.Pipeline.Value
import Idealize.ShloMosaic.PureOps.Ideal.Laws

/-
  The second kernel's block values read at an index, on the extended reals: the deflated block, the stage's block,
  the update of the Gram accumulator and of the sum of squares, and the two zero blocks that reset them.
-/

noncomputable section

namespace Cert.KernelIdeal.K1Pay

open Idealize.ShloMosaic Idealize.ShloMosaic.ValueIdx Cert.KernelIdeal Cert.KernelIdeal.Gen Cell
open Cert.KernelIdeal.KOps

/-- A hyperbolic tangent taken entry by entry. -/
theorem tanh_apply {s : Shape} {φ : FTy} (v : FVec Ideal s φ) (i : s.Idx) : tanh v i = Ideal.tanh (v i) := rfl

/-- The deflated block, at (p, q): H − (X M) · (1 / s). -/
theorem pay8_apply (x0 x1 : Vec Ideal S2048x256 .f32) (x3 : Vec Ideal S256x256 .f32) (x4 : Vec Ideal S1x1 .f32)
    (p : Fin 2048) (q : Fin 256) :
    k1_pay8 (F := Ideal) x0 x1 x3 x4 (ix2 p q) = deflateWith (rd x1) (rd x0) x3 x4 p q := by
  unfold k1_pay8
  simp only [shapeCast_self, truncf_apply, subf_apply, mulf_apply, mm_rows, scal_bcast, divf_apply, broadcast_apply,
    Ideal.ofBits_def, ofBits_one]
  rfl

/-- The stage's block at a row and a column: the stage of the rows it is deflated against and of the deflated rows. -/
theorem stageBlk_apply (x0 : Vec Ideal S2048x256 .f32) (x1 : Vec Ideal S2048x256 .f32) (x2 : Vec Ideal S2048x256 .f32) (x3 : Vec Ideal S256x256 .f32) (x4 : Vec Ideal S1x1 .f32) (x5 : Vec Ideal S256x256 .f32) (x6 : Vec Ideal S1x256 .f32) (x7 : Vec Ideal S256x256 .f32) (x8 : Vec Ideal S1x256 .f32) (p : Fin 2048) (q : Fin 256) :
    K1.stageBlk (F := Ideal) x0 x1 x2 x3 x4 x5 x6 x7 x8 (ix2 p q)
      = stageT (rd x1) (deflateWith (rd x1) (rd x0) x3 x4) x5 x6 x7 x8 p q := by
  unfold K1.stageBlk k1_pay1 k1_pay6 k1_pay7 k1_pay9
  simp only [addf_apply, tanh_apply, shapeCast_self, broadcastTo_1b_ab_apply, mm_rows, truncf_apply, pay8_apply]
  rfl

/-- The Gram update at an entry: what was there plus the column products summed over the block's rows. -/
theorem gramUpd_apply (x0 : Vec Ideal S2048x256 .f32) (x1 : Vec Ideal S2048x256 .f32) (x2 : Vec Ideal S2048x256 .f32) (x3 : Vec Ideal S256x256 .f32) (x4 : Vec Ideal S1x1 .f32) (x5 : Vec Ideal S256x256 .f32) (x6 : Vec Ideal S1x256 .f32) (x7 : Vec Ideal S256x256 .f32) (x8 : Vec Ideal S1x256 .f32) (acc : Vec Ideal S256x256 .f32) (k j : Fin 256) :
    K1.gramUpd (F := Ideal) x0 x1 x2 x3 x4 x5 x6 x7 x8 acc (ix2 k j)
      = acc (ix2 k j) + ∑ p : Fin 2048, x2 (ix2 p k) * K1.stageBlk (F := Ideal) x0 x1 x2 x3 x4 x5 x6 x7 x8 (ix2 p j) := by
  unfold K1.gramUpd k1_pay2
  simp only [addf_apply, shapeCast_self, mm_gram, truncf_apply]

/-- The sum-of-squares update: what was there plus the squares of the block's entries. -/
theorem sqUpd_apply (x2 : Vec Ideal S2048x256 .f32) (acc : Vec Ideal S1x1 .f32) :
    k1_pay3 (F := Ideal) x2 acc (ix2 0 0) = acc (ix2 0 0) + ∑ p : Fin 2048, ∑ q : Fin 256, x2 (ix2 p q) * x2 (ix2 p q) := by
  unfold k1_pay3
  simp only [addf_apply, shapeCast_self]
  exact congrArg (fun t => acc (ix2 0 0) + t) (sq_total x2)

/-- The 256 × 256 reset block is zero. -/
theorem zero256_apply (k j : Fin 256) : k1_pay4 (F := Ideal) (ix2 k j) = 0 := by
  unfold k1_pay4
  simp only [broadcast_apply, Ideal.ofBits_def, Ideal.ofBits_zero_f32]

/-- The 1 × 1 reset block is zero. -/
theorem zero1_apply : k1_pay5 (F := Ideal) (ix2 0 0) = 0 := by
  unfold k1_pay5
  simp only [broadcast_apply, Ideal.ofBits_def, Ideal.ofBits_zero_f32]

end Cert.KernelIdeal.K1Pay

end
-- ==== Proof.K1b.lean ====
import proofs.«151021_j35390530519886_1_alg».proof.Proof.Gen.KernelIdeal.Frame
import proofs.«151021_j35390530519886_1_alg».proof.Proof.Cell
import proofs.«151021_j35390530519886_1_alg».proof.Proof.K1a
import proofs.«151021_j35390530519886_1_alg».proof.Proof.CellLaw
import proofs.«151021_j35390530519886_1_alg».proof.Proof.K1Pay
import proofs.«151021_j35390530519886_1_alg».proof.Proof.KBlocks
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Cert.KernelIdeal Cert.KernelIdeal.Gen Cell
open Idealize.ShloMosaic.Pipeline (Dat)

namespace Cert.KernelIdeal.K1

/-! ## The arrays and their blocks, at their literal types -/

variable (V : (c : Dev nD) → (b : Ref sig .tc) → Buf (Elt Ideal) ((c : Thread nD τ).loc b))

abbrev A0 (c : Dev nD) : Vec Ideal S65536x256 .f32 := V c (Pipeline.arrRef spec1 0)
abbrev A1 (c : Dev nD) : Vec Ideal S65536x256 .f32 := V c (Pipeline.arrRef spec1 1)
abbrev A2 (c : Dev nD) : Vec Ideal S65536x256 .f32 := V c (Pipeline.arrRef spec1 2)
abbrev A3 (c : Dev nD) : Vec Ideal S256x256 .f32 := V c (Pipeline.arrRef spec1 3)
abbrev A4 (c : Dev nD) : Vec Ideal S1x1 .f32 := V c (Pipeline.arrRef spec1 4)
abbrev A5 (c : Dev nD) : Vec Ideal S256x256 .f32 := V c (Pipeline.arrRef spec1 5)
abbrev A6 (c : Dev nD) : Vec Ideal S1x256 .f32 := V c (Pipeline.arrRef spec1 6)
abbrev A7 (c : Dev nD) : Vec Ideal S256x256 .f32 := V c (Pipeline.arrRef spec1 7)
abbrev A8 (c : Dev nD) : Vec Ideal S1x256 .f32 := V c (Pipeline.arrRef spec1 8)

abbrev B0 (c : Dev nD) (t : Fin cfg1.N) : Vec Ideal S2048x256 .f32 := iblk1 V c 0 t
abbrev B1 (c : Dev nD) (t : Fin cfg1.N) : Vec Ideal S2048x256 .f32 := iblk1 V c 1 t
abbrev B2 (c : Dev nD) (t : Fin cfg1.N) : Vec Ideal S2048x256 .f32 := iblk1 V c 2 t
abbrev B3 (c : Dev nD) (t : Fin cfg1.N) : Vec Ideal S256x256 .f32 := iblk1 V c 3 t
abbrev B4 (c : Dev nD) (t : Fin cfg1.N) : Vec Ideal S1x1 .f32 := iblk1 V c 4 t
abbrev B5 (c : Dev nD) (t : Fin cfg1.N) : Vec Ideal S256x256 .f32 := iblk1 V c 5 t
abbrev B6 (c : Dev nD) (t : Fin cfg1.N) : Vec Ideal S1x256 .f32 := iblk1 V c 6 t
abbrev B7 (c : Dev nD) (t : Fin cfg1.N) : Vec Ideal S256x256 .f32 := iblk1 V c 7 t
abbrev B8 (c : Dev nD) (t : Fin cfg1.N) : Vec Ideal S1x256 .f32 := iblk1 V c 8 t

theorem rowlt (t : Fin cfg1.N) (p : Fin 2048) : 2048 * t.val + p.val < 65536 := by
  have h : cfg1.N = 32 := N_1
  have := t.isLt; have := p.isLt; omega

/-- A row-block window's block at point t holds rows 2048 t … 2048 t + 2047 of its array. -/
theorem blk1_0 (c : Dev nD) (t : Fin cfg1.N) (p : Fin 2048) (q : Fin 256) :
    B0 V c t (ix2 p q) = A0 V c (ix2 ⟨2048 * t.val + p.val, rowlt t p⟩ q) := KBlocks.blk1_0 V c t p q
theorem blk1_1 (c : Dev nD) (t : Fin cfg1.N) (p : Fin 2048) (q : Fin 256) :
    B1 V c t (ix2 p q) = A1 V c (ix2 ⟨2048 * t.val + p.val, rowlt t p⟩ q) := KBlocks.blk1_1 V c t p q
theorem blk1_2 (c : Dev nD) (t : Fin cfg1.N) (p : Fin 2048) (q : Fin 256) :
    B2 V c t (ix2 p q) = A2 V c (ix2 ⟨2048 * t.val + p.val, rowlt t p⟩ q) := KBlocks.blk1_2 V c t p q

/-- The other windows' block is their whole array at every point. -/
theorem whole1_3 (c : Dev nD) (t : Fin cfg1.N) : B3 V c t = A3 V c := KBlocks.whole1_3 V c t
theorem whole1_4 (c : Dev nD) (t : Fin cfg1.N) : B4 V c t = A4 V c := KBlocks.whole1_4 V c t
theorem whole1_5 (c : Dev nD) (t : Fin cfg1.N) : B5 V c t = A5 V c := KBlocks.whole1_5 V c t
theorem whole1_6 (c : Dev nD) (t : Fin cfg1.N) : B6 V c t = A6 V c := KBlocks.whole1_6 V c t
theorem whole1_7 (c : Dev nD) (t : Fin cfg1.N) : B7 V c t = A7 V c := KBlocks.whole1_7 V c t
theorem whole1_8 (c : Dev nD) (t : Fin cfg1.N) : B8 V c t = A8 V c := KBlocks.whole1_8 V c t

/-- The deflated hidden state, over the whole batch. -/
abbrev Hp (c : Dev nD) : Mat 65536 256 := deflateWith (rd (A1 V c)) (rd (A0 V c)) (A3 V c) (A4 V c)

/-- The stage, over the whole batch. -/
abbrev H1 (c : Dev nD) : Mat 65536 256 := stageT (rd (A1 V c)) (Hp V c) (A5 V c) (A6 V c) (A7 V c) (A8 V c)

/-- The stage's block at a point. -/
abbrev SB (c : Dev nD) (t : Fin cfg1.N) : Vec Ideal S2048x256 .f32 := stageBlk (F := Ideal) (B0 V c t) (B1 V c t) (B2 V c t) (B3 V c t) (B4 V c t) (B5 V c t) (B6 V c t) (B7 V c t) (B8 V c t)

/-- Row p of point t's stage block is row 2048 t + p of the whole stage: a stage's row depends on the same row of
    its two operands only, and so does the deflation's. -/
theorem SB_apply (c : Dev nD) (t : Fin cfg1.N) (p : Fin 2048) (q : Fin 256) :
    SB V c t (ix2 p q) = H1 V c ⟨2048 * t.val + p.val, rowlt t p⟩ q := by
  refine (K1Pay.stageBlk_apply (B0 V c t) (B1 V c t) (B2 V c t) (B3 V c t) (B4 V c t) (B5 V c t) (B6 V c t) (B7 V c t) (B8 V c t) p q).trans ?_
  unfold H1 Hp stageT actT deflateWith rd
  simp only [blk1_0 V c t, blk1_1 V c t, whole1_3 V c t, whole1_4 V c t, whole1_5 V c t, whole1_6 V c t, whole1_7 V c t, whole1_8 V c t]

end Cert.KernelIdeal.K1

namespace Cert.KernelIdeal.K1

variable (V : (c : Dev nD) → (b : Ref sig .tc) → Buf (Elt Ideal) ((c : Thread nD τ).loc b))

/-! ## The accumulators after each point

After point n the Gram accumulator holds, at (k, j), the products of column k of the third operand with column j
of the stage summed over the rows of blocks 0 … n, and the scalar accumulator the squares of the third operand's
entries over the same rows.  The summands are written as functions of a natural row number (zero past the batch),
so that the 32 block sums are one sum over the batch at the end. -/

/-- Row r's summand of the Gram matrix at (k, j). -/
def gG (c : Dev nD) (k j : Fin 256) (r : ℕ) : EReal :=
  if h : r < 65536 then A2 V c (ix2 ⟨r, h⟩ k) * H1 V c ⟨r, h⟩ j else 0

/-- Row r's summand of the sum of squares. -/
def gS (c : Dev nD) (r : ℕ) : EReal :=
  if h : r < 65536 then ∑ q : Fin 256, A2 V c (ix2 ⟨r, h⟩ q) * A2 V c (ix2 ⟨r, h⟩ q) else 0

theorem gG_blk (c : Dev nD) (t : Fin cfg1.N) (p : Fin 2048) (k j : Fin 256) :
    B2 V c t (ix2 p k) * SB V c t (ix2 p j) = gG V c k j (2048 * t.val + p.val) := by
  unfold gG
  rw [dif_pos (rowlt t p), blk1_2 V c t p k, SB_apply V c t p j]

theorem gS_blk (c : Dev nD) (t : Fin cfg1.N) (p : Fin 2048) :
    ∑ q : Fin 256, B2 V c t (ix2 p q) * B2 V c t (ix2 p q) = gS V c (2048 * t.val + p.val) := by
  unfold gS
  rw [dif_pos (rowlt t p)]
  exact Finset.sum_congr rfl fun q _ => by rw [blk1_2 V c t p q]

theorem N32 : cfg1.N = 32 := N_1

/-- The stage's block is stored whole at every point. -/
theorem outs9 (c : Dev nD) (t : Fin cfg1.N) : (outsAt1 V c t.val t.isLt).1 = SB V c t := by
  by_cases h0 : t.val % 32 = 0
  · rw [outsAt1_A V c t h0]
    dsimp only
    exact out_A_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) _ (iblk1 V c 0 t) (iblk1 V c 1 t) (iblk1 V c 2 t) (iblk1 V c 3 t) (iblk1 V c 4 t) (iblk1 V c 5 t) (iblk1 V c 6 t) (iblk1 V c 7 t) (iblk1 V c 8 t)
  · rw [outsAt1_B V c t h0]
    dsimp only
    exact out_B_9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) _ (iblk1 V c 0 t) (iblk1 V c 1 t) (iblk1 V c 2 t) (iblk1 V c 3 t) (iblk1 V c 4 t) (iblk1 V c 5 t) (iblk1 V c 6 t) (iblk1 V c 7 t) (iblk1 V c 8 t) _ _

/-- The Gram accumulator after point n. -/
theorem outs10 (c : Dev nD) (k j : Fin 256) : ∀ (n : ℕ) (h : n < cfg1.N),
    (outsAt1 V c n h).2.1 (ix2 k j) = ∑ s ∈ Finset.range (n + 1), ∑ p : Fin 2048, gG V c k j (2048 * s + p.val)
  | 0, h => by
    rw [outsAt1_A V c ⟨0, h⟩ rfl]
    dsimp only
    refine (congrFun (out_A_10 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) (ms1_11 ⟨0, h⟩) (hs1_11 ⟨0, h⟩) _ (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩)) (ix2 k j)).trans ?_
    refine (K1Pay.gramUpd_apply (B0 V c ⟨0, h⟩) (B1 V c ⟨0, h⟩) (B2 V c ⟨0, h⟩) (B3 V c ⟨0, h⟩) (B4 V c ⟨0, h⟩) (B5 V c ⟨0, h⟩) (B6 V c ⟨0, h⟩) (B7 V c ⟨0, h⟩) (B8 V c ⟨0, h⟩) (k1_pay4 (F := Ideal)) k j).trans ?_
    rw [K1Pay.zero256_apply, zero_add, Finset.sum_range_one]
    exact Finset.sum_congr rfl fun p _ => gG_blk V c ⟨0, h⟩ p k j
  | n + 1, h => by
    have hB : ¬(⟨n + 1, h⟩ : Fin cfg1.N).val % 32 = 0 := by have := N32; dsimp only; omega
    rw [outsAt1_B V c ⟨n + 1, h⟩ hB]
    dsimp only
    refine (congrFun (out_B_10 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (ms1_11 ⟨n + 1, h⟩) (hs1_11 ⟨n + 1, h⟩) _ (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) _ _) (ix2 k j)).trans ?_
    refine (K1Pay.gramUpd_apply (B0 V c ⟨n + 1, h⟩) (B1 V c ⟨n + 1, h⟩) (B2 V c ⟨n + 1, h⟩) (B3 V c ⟨n + 1, h⟩) (B4 V c ⟨n + 1, h⟩) (B5 V c ⟨n + 1, h⟩) (B6 V c ⟨n + 1, h⟩) (B7 V c ⟨n + 1, h⟩) (B8 V c ⟨n + 1, h⟩) _ k j).trans ?_
    rw [Finset.sum_range_succ _ (n + 1)]
    refine congrArg₂ (· + ·) (outs10 c k j n (Nat.lt_of_succ_lt h)) ?_
    exact Finset.sum_congr rfl fun p _ => gG_blk V c ⟨n + 1, h⟩ p k j

/-- The sum-of-squares accumulator after point n. -/
theorem outs11 (c : Dev nD) : ∀ (n : ℕ) (h : n < cfg1.N),
    (outsAt1 V c n h).2.2 (ix2 0 0) = ∑ s ∈ Finset.range (n + 1), ∑ p : Fin 2048, gS V c (2048 * s + p.val)
  | 0, h => by
    rw [outsAt1_A V c ⟨0, h⟩ rfl]
    dsimp only
    refine (congrFun (out_A_11 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) (ms1_7 ⟨0, h⟩) (hs1_7 ⟨0, h⟩) (ms1_8 ⟨0, h⟩) (hs1_8 ⟨0, h⟩) (ms1_9 ⟨0, h⟩) (hs1_9 ⟨0, h⟩) (ms1_10 ⟨0, h⟩) (hs1_10 ⟨0, h⟩) (ms1_11 ⟨0, h⟩) (hs1_11 ⟨0, h⟩) _ (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩)) (ix2 0 0)).trans ?_
    refine (K1Pay.sqUpd_apply (B2 V c ⟨0, h⟩) (k1_pay5 (F := Ideal))).trans ?_
    rw [K1Pay.zero1_apply, zero_add, Finset.sum_range_one]
    exact Finset.sum_congr rfl fun p _ => gS_blk V c ⟨0, h⟩ p
  | n + 1, h => by
    have hB : ¬(⟨n + 1, h⟩ : Fin cfg1.N).val % 32 = 0 := by have := N32; dsimp only; omega
    rw [outsAt1_B V c ⟨n + 1, h⟩ hB]
    dsimp only
    refine (congrFun (out_B_11 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (ms1_9 ⟨n + 1, h⟩) (hs1_9 ⟨n + 1, h⟩) (ms1_10 ⟨n + 1, h⟩) (hs1_10 ⟨n + 1, h⟩) (ms1_11 ⟨n + 1, h⟩) (hs1_11 ⟨n + 1, h⟩) _ (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) _ _) (ix2 0 0)).trans ?_
    refine (K1Pay.sqUpd_apply (B2 V c ⟨n + 1, h⟩) _).trans ?_
    rw [Finset.sum_range_succ _ (n + 1)]
    refine congrArg₂ (· + ·) (outs11 c n (Nat.lt_of_succ_lt h)) ?_
    exact Finset.sum_congr rfl fun p _ => gS_blk V c ⟨n + 1, h⟩ p

end Cert.KernelIdeal.K1

namespace Cert.KernelIdeal.K1

variable (V : (c : Dev nD) → (b : Ref sig .tc) → Buf (Elt Ideal) ((c : Thread nD τ).loc b))

/-! ## From the blocks to the arrays

Output 9 is written back at every point, block t holding rows 2048 t … 2048 t + 2047; the two accumulators are
written back once, after the last point, when they hold the sums over all 32 blocks of rows, that is over the
whole batch. -/

/-- The output windows' index maps, decided over the grid. -/
theorem idx_out : ∀ t : Fin cfg1.N, win1_9.index t (0 : Fin 2) = t.val ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0 :=
  (by decide +kernel : ∀ t : Fin grid1.N, _)

/-- What point t writes back of output 9 is block t of the whole stage. -/
theorem flushed9_eq (c : Dev nD) (t : Fin cfg1.N) (hf : (cfg1.win 9).flush t = true) :
    (dat1 V c).flushed 9 t = ((cfg1.win 9).blk t).view.read (Elt Ideal) (arr (H1 V c)) := by
  show (cfg1.win 9).cut (grid1.coords t) ((dat1 V c).after 9 t) = _
  rw [after1_9, outs9]
  obtain ⟨e0, e1, -⟩ := idx_out t
  funext y
  show SB V c t y = arr (H1 V c) (((cfg1.win 9).blk t).view.emb y)
  refine (congrArg (SB V c t) (eq_ix2 (n0 := 2048) (n1 := 256) y)).trans ?_
  refine (SB_apply V c t (y 0) (y 1)).trans ?_
  refine congrArg₂ (H1 V c) (Fin.ext ?_) (Fin.ext ?_)
  · show 2048 * t.val + (y 0).val = win1_9.index t (0 : Fin 2) * 2048 + 1 * (y 0).val
    rw [e0]; omega
  · show (y 1).val = win1_9.index t (1 : Fin 2) * 256 + 1 * (y 1).val
    rw [e1]; omega

/-- An index of output 9's array is in point t's block iff its row is among the block's rows. -/
theorem mem_blk9 (t : Fin cfg1.N) (i : S65536x256.Idx) :
    i ∈ ((cfg1.win 9).blk t).view.set ↔ ∀ a : Fin 2, win1_9.index t a * S2048x256.size a ≤ (i a).val ∧ (i a).val < win1_9.index t a * S2048x256.size a + S2048x256.size a := by
  show i ∈ ((View.whole main_v11_0).slice (win1_9.rect t)).set ↔ _
  rw [View.set_slice_whole, Rect.mem_set_unit]
  exact Iff.rfl

/-- Output 9's array ends holding the whole stage: row r is written by point r / 2048. -/
theorem final9 (c : Dev nD) : (dat1 (F := Ideal) V c).arrAt 9 cfg1.N = arr (H1 V c) :=
  (dat1 V c).arrAt_eq_of_cover 9 (arr (H1 V c)) (flushed9_eq V c) fun i => by
    have hi0 : (i 0).val < 65536 := (i 0).isLt
    have hi1 : (i 1).val < 256 := (i 1).isLt
    have hN : cfg1.N = 32 := N32
    let t : Fin cfg1.N := ⟨(i 0).val / 2048, by omega⟩
    obtain ⟨e0, e1, -⟩ := idx_out t
    have et : t.val = (i 0).val / 2048 := rfl
    refine ⟨t, flush1_9 t, ?_⟩
    rw [mem_blk9]
    intro a
    match a with
    | ⟨0, _⟩ => show win1_9.index t (0 : Fin 2) * 2048 ≤ (i 0).val ∧ (i 0).val < win1_9.index t (0 : Fin 2) * 2048 + 2048; omega
    | ⟨1, _⟩ => show win1_9.index t (1 : Fin 2) * 256 ≤ (i 1).val ∧ (i 1).val < win1_9.index t (1 : Fin 2) * 256 + 256; omega

/-- The 32 block sums of the Gram summands are the Gram matrix of the third operand with the whole stage. -/
theorem sum_gG (c : Dev nD) (k j : Fin 256) :
    ∑ s ∈ Finset.range 32, ∑ p : Fin 2048, gG V c k j (2048 * s + p.val) = gram (rd (A2 V c)) (H1 V c) k j := by
  rw [Cell.sum_blocks_32 (gG V c k j)]
  unfold gram rd gG
  exact Finset.sum_congr rfl fun r _ => by rw [dif_pos r.isLt]

/-- The 32 block sums of the squares are the sum of all squares of the third operand. -/
theorem sum_gS (c : Dev nD) :
    ∑ s ∈ Finset.range 32, ∑ p : Fin 2048, gS V c (2048 * s + p.val) = sumsq (rd (A2 V c)) := by
  rw [Cell.sum_blocks_32 (gS V c)]
  unfold sumsq rd gS
  exact Finset.sum_congr rfl fun r _ => by rw [dif_pos r.isLt]

/-- Writing a block back whole: nothing is cut off windows 10 and 11. -/
theorem cut10 (t : Fin cfg1.N) (X : Vec Ideal S256x256 .f32) (y : ((cfg1.win 10).xblock (grid1.coords t)).Idx) :
    (cfg1.win 10).cut (grid1.coords t) X y = X y := rfl

theorem cut11 (t : Fin cfg1.N) (X : Vec Ideal S1x1 .f32) (y : ((cfg1.win 11).xblock (grid1.coords t)).Idx) :
    (cfg1.win 11).cut (grid1.coords t) X y = X y := rfl

/-- Window 10's one block is its whole array: read through the block, a matrix is itself. -/
theorem read10 (t : Fin cfg1.N) (G : Mat 256 256) (y : ((cfg1.win 10).xblock (grid1.coords t)).Idx) :
    ((cfg1.win 10).blk t).view.read (Elt Ideal) (arr G) y = G (y 0) (y 1) := by
  obtain ⟨-, -, e0, e1, -⟩ := idx_out t
  show G ((((cfg1.win 10).blk t).view.emb y) 0) ((((cfg1.win 10).blk t).view.emb y) 1) = _
  refine congrArg₂ G (Fin.ext ?_) (Fin.ext ?_)
  · show win1_10.index t (0 : Fin 2) * 256 + 1 * (y 0).val = (y 0).val
    rw [e0]; omega
  · show win1_10.index t (1 : Fin 2) * 256 + 1 * (y 1).val = (y 1).val
    rw [e1]; omega

/-- The one write-back of output 10, after the last point, writes the Gram matrix over the whole batch. -/
theorem flushed10_eq (c : Dev nD) (t : Fin cfg1.N) (hf : (cfg1.win 10).flush t = true) :
    (dat1 V c).flushed 10 t = ((cfg1.win 10).blk t).view.read (Elt Ideal) (arr (gram (rd (A2 V c)) (H1 V c))) := by
  have hN : cfg1.N = 32 := N32
  have h31 : t.val = 31 := by have := (flush1_10 t).mp hf; have := t.isLt; omega
  show (cfg1.win 10).cut (grid1.coords t) ((dat1 V c).after 10 t) = _
  rw [after1_10]
  funext y
  refine (cut10 t (outsAt1 V c t.val t.isLt).2.1 y).trans ?_
  refine Eq.trans ?_ (read10 t (gram (rd (A2 V c)) (H1 V c)) y).symm
  refine (congrArg (outsAt1 V c t.val t.isLt).2.1 (eq_ix2 (n0 := 256) (n1 := 256) y)).trans ?_
  refine (outs10 V c (y 0) (y 1) t.val t.isLt).trans ?_
  rw [h31]
  exact sum_gG V c (y 0) (y 1)

theorem mem_blk10 (t : Fin cfg1.N) (i : S256x256.Idx) :
    i ∈ ((cfg1.win 10).blk t).view.set ↔ ∀ a : Fin 2, win1_10.index t a * S256x256.size a ≤ (i a).val ∧ (i a).val < win1_10.index t a * S256x256.size a + S256x256.size a := by
  show i ∈ ((View.whole main_v11_1).slice (win1_10.rect t)).set ↔ _
  rw [View.set_slice_whole, Rect.mem_set_unit]
  exact Iff.rfl

/-- The last point. -/
abbrev tlast : Fin cfg1.N := ⟨31, by rw [N32]; decide⟩

/-- Output 10's array ends holding the Gram matrix: its one block, written after the last point, is the array. -/
theorem final10 (c : Dev nD) : (dat1 (F := Ideal) V c).arrAt 10 cfg1.N = arr (gram (rd (A2 V c)) (H1 V c)) :=
  (dat1 V c).arrAt_eq_of_cover 10 (arr (gram (rd (A2 V c)) (H1 V c))) (flushed10_eq V c) fun i => by
    have hi0 : (i 0).val < 256 := (i 0).isLt
    have hi1 : (i 1).val < 256 := (i 1).isLt
    obtain ⟨-, -, e0, e1, -⟩ := idx_out tlast
    refine ⟨tlast, (flush1_10 tlast).mpr rfl, ?_⟩
    rw [mem_blk10]
    intro a
    match a with
    | ⟨0, _⟩ => show win1_10.index tlast (0 : Fin 2) * 256 ≤ (i 0).val ∧ (i 0).val < win1_10.index tlast (0 : Fin 2) * 256 + 256; omega
    | ⟨1, _⟩ => show win1_10.index tlast (1 : Fin 2) * 256 ≤ (i 1).val ∧ (i 1).val < win1_10.index tlast (1 : Fin 2) * 256 + 256; omega

/-- Read through window 11's block, a constant is itself. -/
theorem read11 (t : Fin cfg1.N) (s : EReal) (y : ((cfg1.win 11).xblock (grid1.coords t)).Idx) :
    ((cfg1.win 11).blk t).view.read (Elt Ideal) (fun _ => s) y = s := rfl

/-- The one write-back of output 11 writes the sum of all squares of the third operand. -/
theorem flushed11_eq (c : Dev nD) (t : Fin cfg1.N) (hf : (cfg1.win 11).flush t = true) :
    (dat1 V c).flushed 11 t = ((cfg1.win 11).blk t).view.read (Elt Ideal) (fun _ => sumsq (rd (A2 V c))) := by
  have hN : cfg1.N = 32 := N32
  have h31 : t.val = 31 := by have := (flush1_11 t).mp hf; have := t.isLt; omega
  show (cfg1.win 11).cut (grid1.coords t) ((dat1 V c).after 11 t) = _
  rw [after1_11]
  funext y
  refine (cut11 t (outsAt1 V c t.val t.isLt).2.2 y).trans ?_
  refine Eq.trans ?_ (read11 t (sumsq (rd (A2 V c))) y).symm
  refine (congrArg (outsAt1 V c t.val t.isLt).2.2
    ((eq_ix2 (n0 := 1) (n1 := 1) y).trans (congrArg₂ (ix2 (n0 := 1) (n1 := 1)) (Subsingleton.elim (α := Fin 1) (y 0) 0) (Subsingleton.elim (α := Fin 1) (y 1) 0)))).trans ?_
  refine (outs11 V c t.val t.isLt).trans ?_
  rw [h31]
  exact sum_gS V c

theorem mem_blk11 (t : Fin cfg1.N) (i : S1x1.Idx) :
    i ∈ ((cfg1.win 11).blk t).view.set ↔ ∀ a : Fin 2, win1_11.index t a * S1x1.size a ≤ (i a).val ∧ (i a).val < win1_11.index t a * S1x1.size a + S1x1.size a := by
  show i ∈ ((View.whole main_v11_2).slice (win1_11.rect t)).set ↔ _
  rw [View.set_slice_whole, Rect.mem_set_unit]
  exact Iff.rfl

/-- Output 11's array ends holding the sum of squares. -/
theorem final11 (c : Dev nD) : (dat1 (F := Ideal) V c).arrAt 11 cfg1.N = fun _ => sumsq (rd (A2 V c)) :=
  (dat1 V c).arrAt_eq_of_cover 11 (fun _ => sumsq (rd (A2 V c))) (flushed11_eq V c) fun i => by
    have hi0 : (i 0).val < 1 := (i 0).isLt
    have hi1 : (i 1).val < 1 := (i 1).isLt
    obtain ⟨-, -, -, -, e0, e1⟩ := idx_out tlast
    refine ⟨tlast, (flush1_11 tlast).mpr rfl, ?_⟩
    rw [mem_blk11]
    intro a
    match a with
    | ⟨0, _⟩ => show win1_11.index tlast (0 : Fin 2) * 1 ≤ (i 0).val ∧ (i 0).val < win1_11.index tlast (0 : Fin 2) * 1 + 1; omega
    | ⟨1, _⟩ => show win1_11.index tlast (1 : Fin 2) * 1 ≤ (i 1).val ∧ (i 1).val < win1_11.index tlast (1 : Fin 2) * 1 + 1; omega

end Cert.KernelIdeal.K1

end
-- ==== Proof.K2.lean ====
/-
  The third pass of the cell, block by block and then as whole arrays.

  Each of the 32 grid points reads one block of 2048 rows of the hidden state H and of the data matrix X, and the
  whole of the small arrays (the 256 × 256 matrix M, the 1 × 1 sum of squares s, the transposed weights and the bias
  rows).  It first deflates its rows of H against X, H r j − (∑ₖ X r k · M k j) · (1 / s), then forms the stage
  tanh (X Wᵀ + b) + tanh (H' Uᵀ + c) of those rows, and from that the last layer tanh (H'' Wbᵀ + bb).  Every row of
  the two results depends only on the same row of H and X, so the blocks are the restrictions of one function of the
  whole arrays, and the 32 blocks of 2048 rows tile the 65536 rows.
-/
import proofs.«151021_j35390530519886_1_alg».proof.Proof.Gen.KernelIdeal.Frame
import proofs.«151021_j35390530519886_1_alg».proof.Proof.Cell
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«151021_j35390530519886_1_alg».proof.Proof.CellLaw

noncomputable section

namespace Cert.KernelIdeal.K2

open Idealize.ShloMosaic Idealize.ShloMosaic.TcCoe Idealize.SL.Sem Idealize.ShloMosaic.ValueIdx Cert.KernelIdeal Cert.KernelIdeal.Gen Cell
open Idealize.ShloMosaic.Pipeline (Dat)

/-- The zero offsets of a whole-block rectangle, however spelt. -/
theorem hz : (![0, 0] : Fin 2 → Nat) = fun _ => 0 := funext fun a => by fin_cases a <;> rfl

/-! ## What the body stores, as terms of the blocks it loads -/

/-- The block of the new hidden state: the stage of the X block and the deflated H block. -/
theorem out10_eq (x0 : Vec Ideal S2048x256 .f32) (x1 : Vec Ideal S2048x256 .f32) (x2 : Vec Ideal S256x256 .f32) (x3 : Vec Ideal S1x1 .f32)
    (x4 : Vec Ideal S256x256 .f32) (x5 : Vec Ideal S1x256 .f32) (x6 : Vec Ideal S256x256 .f32) (x7 : Vec Ideal S1x256 .f32)
    (x8 : Vec Ideal S256x128 .f32) (x9 : Vec Ideal S1x128 .f32) :
    out2_10 (F := Ideal) x0 x1 x2 x3 x4 x5 x6 x7 x8 x9
      = k2_pay1 (k2_pay3 x7) (k2_pay6 x1 x4 x5) (k2_pay7 x0 x1 x2 x3 x6) := by
  unfold out2_10
  rw [View.canon_unit_zero hz]
  simp only [View.ld_unit_zero (S := S2048x256) hz, View.ld_unit_zero (S := S256x256) hz, View.ld_unit_zero (S := S1x1) hz,
    View.ld_unit_zero (S := S1x256) hz]

/-- The block of the last layer. -/
theorem out11_eq (x0 : Vec Ideal S2048x256 .f32) (x1 : Vec Ideal S2048x256 .f32) (x2 : Vec Ideal S256x256 .f32) (x3 : Vec Ideal S1x1 .f32)
    (x4 : Vec Ideal S256x256 .f32) (x5 : Vec Ideal S1x256 .f32) (x6 : Vec Ideal S256x256 .f32) (x7 : Vec Ideal S1x256 .f32)
    (x8 : Vec Ideal S256x128 .f32) (x9 : Vec Ideal S1x128 .f32) :
    out2_11 (F := Ideal) x0 x1 x2 x3 x4 x5 x6 x7 x8 x9
      = k2_pay2 (k2_pay3 x7) (k2_pay4 x8) (k2_pay5 x9) (k2_pay6 x1 x4 x5) (k2_pay7 x0 x1 x2 x3 x6) := by
  unfold out2_11
  rw [View.canon_unit_zero hz]
  simp only [View.ld_unit_zero (S := S2048x256) hz, View.ld_unit_zero (S := S256x256) hz, View.ld_unit_zero (S := S1x1) hz,
    View.ld_unit_zero (S := S1x256) hz, View.ld_unit_zero (S := S256x128) hz, View.ld_unit_zero (S := S1x128) hz]

/-! ## The body's operations at an entry -/

theorem lhs_rows_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_rows_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_rows_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_rows_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A product of a block of rows with a 256 × 256 matrix into a zero accumulator, at an entry: the sum over the inner index. -/
theorem mm_rows (x : FVec Ideal S2048x256 .bf16) (w : FVec Ideal S256x256 .bf16) (p : Fin 2048) (q : Fin 256) :
    matmul dot_S2048x256_S256x256_S2048x256_1_0_0_1_n_n none x w (constant S2048x256 .f32 0x00000000#32) (ix2 p q)
      = ∑ k : Fin 256, x (ix2 p k) * w (ix2 k q) := by
  simp only [matmul]
  rw [Ideal.matmul_constant_zero_apply, ← Equiv.sum_comp (ValueIdx.contrEquiv1 dot_S2048x256_S256x256_S2048x256_1_0_0_1_n_n 256 rfl rfl).symm]
  refine Finset.sum_congr rfl fun k _ => ?_
  have hk := ValueIdx.contrEquiv1_symm_val dot_S2048x256_S256x256_S2048x256_1_0_0_1_n_n 256 rfl rfl k
  have el : dot_S2048x256_S256x256_S2048x256_1_0_0_1_n_n.lhsIdx (ix2 p q) ((ValueIdx.contrEquiv1 dot_S2048x256_S256x256_S2048x256_1_0_0_1_n_n 256 rfl rfl).symm k) = ix2 p k := funext fun a => Fin.ext (by
    match a with
    | ⟨0, _⟩ => exact lhs_rows_0 _ _
    | ⟨1, _⟩ => exact (lhs_rows_1 _ _).trans hk)
  have er : dot_S2048x256_S256x256_S2048x256_1_0_0_1_n_n.rhsIdx (ix2 p q) ((ValueIdx.contrEquiv1 dot_S2048x256_S256x256_S2048x256_1_0_0_1_n_n 256 rfl rfl).symm k) = ix2 k q := funext fun a => Fin.ext (by
    match a with
    | ⟨0, _⟩ => exact (rhs_rows_0 _ _).trans hk
    | ⟨1, _⟩ => exact rhs_rows_1 _ _)
  rw [el, er]

theorem lhs_last_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
theorem lhs_last_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
theorem rhs_last_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
theorem rhs_last_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- A product of a block of rows with a 256 × 128 matrix into a zero accumulator, at an entry: the sum over the inner index. -/
theorem mm_last (x : FVec Ideal S2048x256 .bf16) (w : FVec Ideal S256x128 .bf16) (p : Fin 2048) (q : Fin 128) :
    matmul dot_S2048x256_S256x128_S2048x128_1_0_0_1_n_n none x w (constant S2048x128 .f32 0x00000000#32) (ix2 p q)
      = ∑ k : Fin 256, x (ix2 p k) * w (ix2 k q) := by
  simp only [matmul]
  rw [Ideal.matmul_constant_zero_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 p q) ((ValueIdx.contrEquiv1 dot_S2048x256_S256x128_S2048x128_1_0_0_1_n_n 256 rfl rfl).symm k) = ix2 p k := funext fun a => Fin.ext (by
    match a with
    | ⟨0, _⟩ => exact lhs_last_0 _ _
    | ⟨1, _⟩ => exact (lhs_last_1 _ _).trans hk)
  have er : dot_S2048x256_S256x128_S2048x128_1_0_0_1_n_n.rhsIdx (ix2 p q) ((ValueIdx.contrEquiv1 dot_S2048x256_S256x128_S2048x128_1_0_0_1_n_n 256 rfl rfl).symm k) = ix2 k q := funext fun a => Fin.ext (by
    match a with
    | ⟨0, _⟩ => exact (rhs_last_0 _ _).trans hk
    | ⟨1, _⟩ => exact rhs_last_1 _ _)
  rw [el, er]

/-- A bias row spread over the rows of a block. -/
theorem bias_row (b : FVec Ideal S1x256 .f32) (p : Fin 2048) (q : Fin 256) :
    broadcastTo S2048x256 b broadcasts_S1x256_S2048x256 (ix2 p q) = b (ix2 0 q) :=
  broadcastTo_apply b broadcasts_S1x256_S2048x256 (ix2 p q) (ix2 0 q) (fun a => by
    match a with
    | ⟨0, _⟩ => rfl
    | ⟨1, _⟩ => rfl)

/-- The same for the last layer's 1 × 128 row. -/
theorem bias_row_last (b : FVec Ideal S1x128 .f32) (p : Fin 2048) (q : Fin 128) :
    broadcastTo S2048x128 b broadcasts_S1x128_S2048x128 (ix2 p q) = b (ix2 0 q) :=
  broadcastTo_apply b broadcasts_S1x128_S2048x128 (ix2 p q) (ix2 0 q) (fun a => by
    match a with
    | ⟨0, _⟩ => rfl
    | ⟨1, _⟩ => rfl)

/-- A 1 × 1 array spread over a block. -/
theorem scal_bcast (s : FVec Ideal S1x1 .f32) (p : Fin 2048) (q : Fin 256) :
    broadcastTo S2048x256 s broadcasts_S1x1_S2048x256 (ix2 p q) = s (ix2 0 0) :=
  broadcastTo_apply s broadcasts_S1x1_S2048x256 (ix2 p q) (ix2 0 0) (fun a => by
    match a with
    | ⟨0, _⟩ => rfl
    | ⟨1, _⟩ => rfl)

/-! ## The payloads at an entry -/

/-- The deflated rows of H, times the second weight: the second layer's sum. -/
theorem pay7_apply (x0 x1 : Vec Ideal S2048x256 .f32) (x2 : Vec Ideal S256x256 .f32) (x3 : Vec Ideal S1x1 .f32)
    (x6 : Vec Ideal S256x256 .f32) (p : Fin 2048) (q : Fin 256) :
    k2_pay7 x0 x1 x2 x3 x6 (ix2 p q)
      = ∑ k : Fin 256, deflateWith (rd x1) (rd x0) x2 x3 p k * x6 (ix2 k q) := by
  unfold k2_pay7
  simp only [shapeCast_self]
  refine (mm_rows _ _ p q).trans ?_
  refine Finset.sum_congr rfl fun k _ => ?_
  refine congrArg (· * x6 (ix2 k q)) ?_
  show x0 (ix2 p k)
      - matmul (F := Ideal) dot_S2048x256_S256x256_S2048x256_1_0_0_1_n_n none (truncf (F := Ideal) .bf16 x1 bitsLt_bf16_f32)
          (truncf (F := Ideal) .bf16 x2 bitsLt_bf16_f32) (constant (F := Ideal) S2048x256 .f32 0x00000000#32) (ix2 p k)
        * broadcastTo S2048x256 (divf (F := Ideal) (broadcast S1x1 (FloatOps.ofBits (F := Ideal) .f32 0x3F800000#32)) x3)
          broadcasts_S1x1_S2048x256 (ix2 p k) = _
  rw [mm_rows, scal_bcast]
  show x0 (ix2 p k) - (∑ k' : Fin 256, x1 (ix2 p k') * x2 (ix2 k' k))
      * Ideal.div (Ideal.ofBits .f32 0x3F800000#32) (x3 (ix2 0 0)) = _
  rw [Cell.ofBits_one]
  rfl

/-- The first layer's sum plus its bias. -/
theorem pay6_apply (x1 : Vec Ideal S2048x256 .f32) (x4 : Vec Ideal S256x256 .f32) (x5 : Vec Ideal S1x256 .f32)
    (p : Fin 2048) (q : Fin 256) :
    k2_pay6 x1 x4 x5 (ix2 p q) = (∑ k : Fin 256, x1 (ix2 p k) * x4 (ix2 k q)) + x5 (ix2 0 q) := by
  unfold k2_pay6
  simp only [shapeCast_self]
  show matmul (F := Ideal) dot_S2048x256_S256x256_S2048x256_1_0_0_1_n_n none (truncf (F := Ideal) .bf16 x1 bitsLt_bf16_f32)
          (truncf (F := Ideal) .bf16 x4 bitsLt_bf16_f32) (constant (F := Ideal) S2048x256 .f32 0x00000000#32) (ix2 p q)
        + broadcastTo S2048x256 x5 broadcasts_S1x256_S2048x256 (ix2 p q) = _
  rw [mm_rows, bias_row]
  rfl

/-- The block of the new hidden state, entry by entry: the stage of the X rows and the deflated H rows. -/
theorem hnext_apply (x0 x1 : Vec Ideal S2048x256 .f32) (x2 : Vec Ideal S256x256 .f32) (x3 : Vec Ideal S1x1 .f32)
    (x4 : Vec Ideal S256x256 .f32) (x5 : Vec Ideal S1x256 .f32) (x6 : Vec Ideal S256x256 .f32) (x7 : Vec Ideal S1x256 .f32)
    (p : Fin 2048) (q : Fin 256) :
    k2_pay1 (k2_pay3 x7) (k2_pay6 x1 x4 x5) (k2_pay7 x0 x1 x2 x3 x6) (ix2 p q)
      = stageT (rd x1) (deflateWith (rd x1) (rd x0) x2 x3) x4 x5 x6 x7 p q := by
  unfold k2_pay1 k2_pay3
  simp only [shapeCast_self]
  show Ideal.tanh (k2_pay6 x1 x4 x5 (ix2 p q))
      + Ideal.tanh (k2_pay7 x0 x1 x2 x3 x6 (ix2 p q) + broadcastTo S2048x256 x7 broadcasts_S1x256_S2048x256 (ix2 p q)) = _
  rw [pay6_apply, pay7_apply, bias_row]
  rfl

/-- The block of the last layer, entry by entry: one more layer on the rows of the new hidden state. -/
theorem last_apply (x0 x1 : Vec Ideal S2048x256 .f32) (x2 : Vec Ideal S256x256 .f32) (x3 : Vec Ideal S1x1 .f32)
    (x4 : Vec Ideal S256x256 .f32) (x5 : Vec Ideal S1x256 .f32) (x6 : Vec Ideal S256x256 .f32) (x7 : Vec Ideal S1x256 .f32)
    (x8 : Vec Ideal S256x128 .f32) (x9 : Vec Ideal S1x128 .f32) (p : Fin 2048) (j : Fin 128) :
    k2_pay2 (k2_pay3 x7) (k2_pay4 x8) (k2_pay5 x9) (k2_pay6 x1 x4 x5) (k2_pay7 x0 x1 x2 x3 x6) (ix2 p j)
      = actT (stageT (rd x1) (deflateWith (rd x1) (rd x0) x2 x3) x4 x5 x6 x7) x8 x9 p j := by
  unfold k2_pay2 k2_pay4 k2_pay5
  simp only [shapeCast_self]
  show Ideal.tanh (matmul (F := Ideal) dot_S2048x256_S256x128_S2048x128_1_0_0_1_n_n none
          (truncf (F := Ideal) .bf16 (k2_pay1 (k2_pay3 x7) (k2_pay6 x1 x4 x5) (k2_pay7 x0 x1 x2 x3 x6)) bitsLt_bf16_f32)
          (truncf (F := Ideal) .bf16 x8 bitsLt_bf16_f32) (constant (F := Ideal) S2048x128 .f32 0x00000000#32) (ix2 p j)
        + broadcastTo S2048x128 x9 broadcasts_S1x128_S2048x128 (ix2 p j)) = _
  rw [mm_last, bias_row_last]
  refine congrArg (fun s => Ideal.tanh (s + x9 (ix2 0 j))) ?_
  refine Finset.sum_congr rfl fun k _ => ?_
  exact congrArg (· * x8 (ix2 k j)) (hnext_apply x0 x1 x2 x3 x4 x5 x6 x7 p k)

/-! ## Rows: a stage, a layer and a deflation at a row see that row only -/

theorem actT_row {n n' d e : Nat} (X : Mat n d) (X' : Mat n' d) (Wt : (⟨2, ![d, e]⟩ : Shape).Idx → EReal)
    (b2 : (⟨2, ![1, e]⟩ : Shape).Idx → EReal) (r : Fin n) (r' : Fin n') (hX : X r = X' r') :
    actT X Wt b2 r = actT X' Wt b2 r' := by
  funext j; unfold actT; rw [hX]

theorem stageT_row {n n' d d' e : Nat} (X : Mat n d) (X' : Mat n' d) (Y : Mat n d') (Y' : Mat n' d')
    (Wt : (⟨2, ![d, e]⟩ : Shape).Idx → EReal) (b2 : (⟨2, ![1, e]⟩ : Shape).Idx → EReal)
    (Ut : (⟨2, ![d', e]⟩ : Shape).Idx → EReal) (c2 : (⟨2, ![1, e]⟩ : Shape).Idx → EReal) (r : Fin n) (r' : Fin n')
    (hX : X r = X' r') (hY : Y r = Y' r') :
    stageT X Y Wt b2 Ut c2 r = stageT X' Y' Wt b2 Ut c2 r' := by
  funext j; unfold stageT actT; rw [hX, hY]

theorem deflateWith_row {n n' d e : Nat} (X : Mat n d) (X' : Mat n' d) (H : Mat n e) (H' : Mat n' e)
    (M : (⟨2, ![d, e]⟩ : Shape).Idx → EReal) (s : (⟨2, ![1, 1]⟩ : Shape).Idx → EReal) (r : Fin n) (r' : Fin n')
    (hX : X r = X' r') (hH : H r = H' r') :
    deflateWith X H M s r = deflateWith X' H' M s r' := by
  funext j; unfold deflateWith; rw [hX, hH]

/-! ## The blocks as parts of the arrays -/

section Arrays

variable (V : (c : Dev nD) → (b : Ref sig .tc) → Buf (Elt Ideal) ((c : Thread nD τ).loc b))

/-- The arrays as the pass finds them: H, X, M, s, then the two transposed weights with their bias rows, then the
    last layer's. -/
abbrev A0 (c : Dev nD) : Vec Ideal S65536x256 .f32 := V c (Pipeline.arrRef spec2 0)
abbrev A1 (c : Dev nD) : Vec Ideal S65536x256 .f32 := V c (Pipeline.arrRef spec2 1)
abbrev A2 (c : Dev nD) : Vec Ideal S256x256 .f32 := V c (Pipeline.arrRef spec2 2)
abbrev A3 (c : Dev nD) : Vec Ideal S1x1 .f32 := V c (Pipeline.arrRef spec2 3)
abbrev A4 (c : Dev nD) : Vec Ideal S256x256 .f32 := V c (Pipeline.arrRef spec2 4)
abbrev A5 (c : Dev nD) : Vec Ideal S1x256 .f32 := V c (Pipeline.arrRef spec2 5)
abbrev A6 (c : Dev nD) : Vec Ideal S256x256 .f32 := V c (Pipeline.arrRef spec2 6)
abbrev A7 (c : Dev nD) : Vec Ideal S1x256 .f32 := V c (Pipeline.arrRef spec2 7)
abbrev A8 (c : Dev nD) : Vec Ideal S256x128 .f32 := V c (Pipeline.arrRef spec2 8)
abbrev A9 (c : Dev nD) : Vec Ideal S1x128 .f32 := V c (Pipeline.arrRef spec2 9)

/-- The blocks a grid point loads. -/
abbrev B0 (c : Dev nD) (t : Fin cfg2.N) : Vec Ideal S2048x256 .f32 := iblk2 V c 0 t
abbrev B1 (c : Dev nD) (t : Fin cfg2.N) : Vec Ideal S2048x256 .f32 := iblk2 V c 1 t
abbrev B2 (c : Dev nD) (t : Fin cfg2.N) : Vec Ideal S256x256 .f32 := iblk2 V c 2 t
abbrev B3 (c : Dev nD) (t : Fin cfg2.N) : Vec Ideal S1x1 .f32 := iblk2 V c 3 t
abbrev B4 (c : Dev nD) (t : Fin cfg2.N) : Vec Ideal S256x256 .f32 := iblk2 V c 4 t
abbrev B5 (c : Dev nD) (t : Fin cfg2.N) : Vec Ideal S1x256 .f32 := iblk2 V c 5 t
abbrev B6 (c : Dev nD) (t : Fin cfg2.N) : Vec Ideal S256x256 .f32 := iblk2 V c 6 t
abbrev B7 (c : Dev nD) (t : Fin cfg2.N) : Vec Ideal S1x256 .f32 := iblk2 V c 7 t
abbrev B8 (c : Dev nD) (t : Fin cfg2.N) : Vec Ideal S256x128 .f32 := iblk2 V c 8 t
abbrev B9 (c : Dev nD) (t : Fin cfg2.N) : Vec Ideal S1x128 .f32 := iblk2 V c 9 t

/-- The index maps, decided over the grid: the row-block windows move with the point on the row axis. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_10.index t (0 : Fin 2) = t.val ∧ win2_10.index t (1 : Fin 2) = 0
    ∧ win2_11.index t (0 : Fin 2) = t.val ∧ win2_11.index t (1 : Fin 2) = 0 :=
  (by decide +kernel : ∀ t : Fin grid2.N, _)

/-- The other windows stay at block (0, 0): each is its whole array at every point. -/
theorem idx_still : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

theorem point_lt (t : Fin cfg2.N) : t.val < 32 := lt_of_lt_of_eq t.isLt N_2

/-- Row p of point t's block is row 2048 t + p of the array. -/
theorem row_lt (t : Fin cfg2.N) (p : Fin 2048) : 2048 * t.val + p.val < 65536 := by
  have := point_lt t; have := p.isLt; omega

theorem blk0 (c : Dev nD) (t : Fin cfg2.N) (p : Fin 2048) (q : Fin 256) :
    B0 V c t (ix2 p q) = A0 V c (ix2 ⟨2048 * t.val + p.val, row_lt t p⟩ q) := by
  show V c (Pipeline.arrRef spec2 0) (((cfg2.win 0).blk t).view.emb (ix2 p q)) = V c (Pipeline.arrRef spec2 0) _
  refine congrArg _ (funext fun a => Fin.ext ?_)
  obtain ⟨e0, e1, -⟩ := idx_facts t
  match a with
  | ⟨0, _⟩ => show win2_0.index t (0 : Fin 2) * 2048 + 1 * p.val = 2048 * t.val + p.val; omega
  | ⟨1, _⟩ => show win2_0.index t (1 : Fin 2) * 256 + 1 * q.val = q.val; omega

theorem blk1 (c : Dev nD) (t : Fin cfg2.N) (p : Fin 2048) (q : Fin 256) :
    B1 V c t (ix2 p q) = A1 V c (ix2 ⟨2048 * t.val + p.val, row_lt t p⟩ q) := by
  show V c (Pipeline.arrRef spec2 1) (((cfg2.win 1).blk t).view.emb (ix2 p q)) = V c (Pipeline.arrRef spec2 1) _
  refine congrArg _ (funext fun a => Fin.ext ?_)
  obtain ⟨_, _, e0, e1, -⟩ := idx_facts t
  match a with
  | ⟨0, _⟩ => show win2_1.index t (0 : Fin 2) * 2048 + 1 * p.val = 2048 * t.val + p.val; omega
  | ⟨1, _⟩ => show win2_1.index t (1 : Fin 2) * 256 + 1 * q.val = q.val; omega

theorem whole2 (c : Dev nD) (t : Fin cfg2.N) : B2 V c t = A2 V c := by
  funext y
  show V c (Pipeline.arrRef spec2 2) (((cfg2.win 2).blk t).view.emb y) = V c (Pipeline.arrRef spec2 2) y
  refine congrArg _ (funext fun a => Fin.ext ?_)
  obtain ⟨e0, e1, _, _, _, _, _, _, _, _, _, _, _, _, _, _⟩ := idx_still t
  match a with
  | ⟨0, _⟩ => show win2_2.index t (0 : Fin 2) * 256 + 1 * (y 0).val = (y 0).val; omega
  | ⟨1, _⟩ => show win2_2.index t (1 : Fin 2) * 256 + 1 * (y 1).val = (y 1).val; omega

theorem whole3 (c : Dev nD) (t : Fin cfg2.N) : B3 V c t = A3 V c := by
  funext y
  show V c (Pipeline.arrRef spec2 3) (((cfg2.win 3).blk t).view.emb y) = V c (Pipeline.arrRef spec2 3) y
  refine congrArg _ (funext fun a => Fin.ext ?_)
  obtain ⟨_, _, e0, e1, _, _, _, _, _, _, _, _, _, _, _, _⟩ := idx_still t
  match a with
  | ⟨0, _⟩ => show win2_3.index t (0 : Fin 2) * 1 + 1 * (y 0).val = (y 0).val; omega
  | ⟨1, _⟩ => show win2_3.index t (1 : Fin 2) * 1 + 1 * (y 1).val = (y 1).val; omega

theorem whole4 (c : Dev nD) (t : Fin cfg2.N) : B4 V c t = A4 V c := by
  funext y
  show V c (Pipeline.arrRef spec2 4) (((cfg2.win 4).blk t).view.emb y) = V c (Pipeline.arrRef spec2 4) y
  refine congrArg _ (funext fun a => Fin.ext ?_)
  obtain ⟨_, _, _, _, e0, e1, _, _, _, _, _, _, _, _, _, _⟩ := idx_still t
  match a with
  | ⟨0, _⟩ => show win2_4.index t (0 : Fin 2) * 256 + 1 * (y 0).val = (y 0).val; omega
  | ⟨1, _⟩ => show win2_4.index t (1 : Fin 2) * 256 + 1 * (y 1).val = (y 1).val; omega

theorem whole5 (c : Dev nD) (t : Fin cfg2.N) : B5 V c t = A5 V c := by
  funext y
  show V c (Pipeline.arrRef spec2 5) (((cfg2.win 5).blk t).view.emb y) = V c (Pipeline.arrRef spec2 5) y
  refine congrArg _ (funext fun a => Fin.ext ?_)
  obtain ⟨_, _, _, _, _, _, e0, e1, _, _, _, _, _, _, _, _⟩ := idx_still t
  match a with
  | ⟨0, _⟩ => show win2_5.index t (0 : Fin 2) * 1 + 1 * (y 0).val = (y 0).val; omega
  | ⟨1, _⟩ => show win2_5.index t (1 : Fin 2) * 256 + 1 * (y 1).val = (y 1).val; omega

theorem whole6 (c : Dev nD) (t : Fin cfg2.N) : B6 V c t = A6 V c := by
  funext y
  show V c (Pipeline.arrRef spec2 6) (((cfg2.win 6).blk t).view.emb y) = V c (Pipeline.arrRef spec2 6) y
  refine congrArg _ (funext fun a => Fin.ext ?_)
  obtain ⟨_, _, _, _, _, _, _, _, e0, e1, _, _, _, _, _, _⟩ := idx_still t
  match a with
  | ⟨0, _⟩ => show win2_6.index t (0 : Fin 2) * 256 + 1 * (y 0).val = (y 0).val; omega
  | ⟨1, _⟩ => show win2_6.index t (1 : Fin 2) * 256 + 1 * (y 1).val = (y 1).val; omega

theorem whole7 (c : Dev nD) (t : Fin cfg2.N) : B7 V c t = A7 V c := by
  funext y
  show V c (Pipeline.arrRef spec2 7) (((cfg2.win 7).blk t).view.emb y) = V c (Pipeline.arrRef spec2 7) y
  refine congrArg _ (funext fun a => Fin.ext ?_)
  obtain ⟨_, _, _, _, _, _, _, _, _, _, e0, e1, _, _, _, _⟩ := idx_still t
  match a with
  | ⟨0, _⟩ => show win2_7.index t (0 : Fin 2) * 1 + 1 * (y 0).val = (y 0).val; omega
  | ⟨1, _⟩ => show win2_7.index t (1 : Fin 2) * 256 + 1 * (y 1).val = (y 1).val; omega

theorem whole8 (c : Dev nD) (t : Fin cfg2.N) : B8 V c t = A8 V c := by
  funext y
  show V c (Pipeline.arrRef spec2 8) (((cfg2.win 8).blk t).view.emb y) = V c (Pipeline.arrRef spec2 8) y
  refine congrArg _ (funext fun a => Fin.ext ?_)
  obtain ⟨_, _, _, _, _, _, _, _, _, _, _, _, e0, e1, _, _⟩ := idx_still t
  match a with
  | ⟨0, _⟩ => show win2_8.index t (0 : Fin 2) * 256 + 1 * (y 0).val = (y 0).val; omega
  | ⟨1, _⟩ => show win2_8.index t (1 : Fin 2) * 128 + 1 * (y 1).val = (y 1).val; omega

theorem whole9 (c : Dev nD) (t : Fin cfg2.N) : B9 V c t = A9 V c := by
  funext y
  show V c (Pipeline.arrRef spec2 9) (((cfg2.win 9).blk t).view.emb y) = V c (Pipeline.arrRef spec2 9) y
  refine congrArg _ (funext fun a => Fin.ext ?_)
  obtain ⟨_, _, _, _, _, _, _, _, _, _, _, _, _, _, e0, e1⟩ := idx_still t
  match a with
  | ⟨0, _⟩ => show win2_9.index t (0 : Fin 2) * 1 + 1 * (y 0).val = (y 0).val; omega
  | ⟨1, _⟩ => show win2_9.index t (1 : Fin 2) * 128 + 1 * (y 1).val = (y 1).val; omega

/-- The rows of the two row-block windows. -/
theorem rd_blk0 (c : Dev nD) (t : Fin cfg2.N) (p : Fin 2048) :
    rd (B0 V c t) p = rd (A0 V c) ⟨2048 * t.val + p.val, row_lt t p⟩ := funext fun q => blk0 V c t p q

theorem rd_blk1 (c : Dev nD) (t : Fin cfg2.N) (p : Fin 2048) :
    rd (B1 V c t) p = rd (A1 V c) ⟨2048 * t.val + p.val, row_lt t p⟩ := funext fun q => blk1 V c t p q

/-! ## The arrays after the pass -/

/-- H deflated against X, over all 65536 rows. -/
abbrev Hp (c : Dev nD) : Mat 65536 256 := deflateWith (rd (A1 V c)) (rd (A0 V c)) (A2 V c) (A3 V c)
/-- The new hidden state, over all rows. -/
abbrev Hn (c : Dev nD) : Mat 65536 256 := stageT (rd (A1 V c)) (Hp V c) (A4 V c) (A5 V c) (A6 V c) (A7 V c)
/-- The last layer, over all rows. -/
abbrev Bn (c : Dev nD) : Mat 65536 128 := actT (Hn V c) (A8 V c) (A9 V c)

/-- Point t's block of the new hidden state is rows 2048 t … 2048 t + 2047 of it. -/
theorem hnext_blk (c : Dev nD) (t : Fin cfg2.N) (p : Fin 2048) (q : Fin 256) :
    k2_pay1 (k2_pay3 (B7 V c t)) (k2_pay6 (B1 V c t) (B4 V c t) (B5 V c t)) (k2_pay7 (B0 V c t) (B1 V c t) (B2 V c t) (B3 V c t) (B6 V c t)) (ix2 p q)
      = Hn V c ⟨2048 * t.val + p.val, row_lt t p⟩ q := by
  refine (hnext_apply (B0 V c t) (B1 V c t) (B2 V c t) (B3 V c t) (B4 V c t) (B5 V c t) (B6 V c t) (B7 V c t) p q).trans ?_
  rw [whole2, whole3, whole4, whole5, whole6, whole7]
  refine congrFun (stageT_row _ _ _ _ _ _ _ _ p ⟨2048 * t.val + p.val, row_lt t p⟩ (rd_blk1 V c t p) ?_) q
  exact deflateWith_row _ _ _ _ _ _ p ⟨2048 * t.val + p.val, row_lt t p⟩ (rd_blk1 V c t p) (rd_blk0 V c t p)

/-- The same for the last layer. -/
theorem last_blk (c : Dev nD) (t : Fin cfg2.N) (p : Fin 2048) (j : Fin 128) :
    k2_pay2 (k2_pay3 (B7 V c t)) (k2_pay4 (B8 V c t)) (k2_pay5 (B9 V c t)) (k2_pay6 (B1 V c t) (B4 V c t) (B5 V c t)) (k2_pay7 (B0 V c t) (B1 V c t) (B2 V c t) (B3 V c t) (B6 V c t)) (ix2 p j)
      = Bn V c ⟨2048 * t.val + p.val, row_lt t p⟩ j := by
  refine (last_apply (B0 V c t) (B1 V c t) (B2 V c t) (B3 V c t) (B4 V c t) (B5 V c t) (B6 V c t) (B7 V c t) (B8 V c t) (B9 V c t) p j).trans ?_
  rw [whole2, whole3, whole4, whole5, whole6, whole7, whole8, whole9]
  refine congrFun (actT_row _ _ _ _ p ⟨2048 * t.val + p.val, row_lt t p⟩ ?_) j
  refine stageT_row _ _ _ _ _ _ _ _ p ⟨2048 * t.val + p.val, row_lt t p⟩ (rd_blk1 V c t p) ?_
  exact deflateWith_row _ _ _ _ _ _ p ⟨2048 * t.val + p.val, row_lt t p⟩ (rd_blk1 V c t p) (rd_blk0 V c t p)

/-- What point t writes back to the hidden-state array is block t of the new hidden state. -/
theorem flushed10_eq (c : Dev nD) (t : Fin cfg2.N) :
    (dat2 (F := Ideal) V c).flushed 10 t = ((cfg2.win 10).blk t).view.read (Elt Ideal) (arr (Hn V c)) := by
  show (cfg2.win 10).cut (grid2.coords t) ((dat2 V c).after 10 t) = _
  rw [after2_10, out10_eq]
  funext j
  obtain ⟨p, q, rfl⟩ : ∃ (p : Fin 2048) (q : Fin 256), j = ix2 p q := ⟨j 0, j 1, eq_ix2 (n0 := 2048) (n1 := 256) j⟩
  refine (hnext_blk V c t p q).trans ?_
  obtain ⟨_, _, _, _, e0, e1, -⟩ := idx_facts t
  show _ = Hn V c ((((cfg2.win 10).blk t).view.emb (ix2 p q)) 0) ((((cfg2.win 10).blk t).view.emb (ix2 p q)) 1)
  refine congrArg₂ (Hn V c) (Fin.ext ?_) (Fin.ext ?_)
  · show 2048 * t.val + p.val = win2_10.index t (0 : Fin 2) * 2048 + 1 * p.val; omega
  · show q.val = win2_10.index t (1 : Fin 2) * 256 + 1 * q.val; omega

/-- And to the last layer's array, block t of the last layer. -/
theorem flushed11_eq (c : Dev nD) (t : Fin cfg2.N) :
    (dat2 (F := Ideal) V c).flushed 11 t = ((cfg2.win 11).blk t).view.read (Elt Ideal) (arr (Bn V c)) := by
  show (cfg2.win 11).cut (grid2.coords t) ((dat2 V c).after 11 t) = _
  rw [after2_11, out11_eq]
  funext j
  obtain ⟨p, q, rfl⟩ : ∃ (p : Fin 2048) (q : Fin 128), j = ix2 p q := ⟨j 0, j 1, eq_ix2 (n0 := 2048) (n1 := 128) j⟩
  refine (last_blk V c t p q).trans ?_
  obtain ⟨_, _, _, _, _, _, e0, e1⟩ := idx_facts t
  show _ = Bn V c ((((cfg2.win 11).blk t).view.emb (ix2 p q)) 0) ((((cfg2.win 11).blk t).view.emb (ix2 p q)) 1)
  refine congrArg₂ (Bn V c) (Fin.ext ?_) (Fin.ext ?_)
  · show 2048 * t.val + p.val = win2_11.index t (0 : Fin 2) * 2048 + 1 * p.val; omega
  · show q.val = win2_11.index t (1 : Fin 2) * 128 + 1 * q.val; omega

/-- An index of the array is in point t's block iff each coordinate is in the block's range on its axis. -/
theorem mem_blk10 (t : Fin cfg2.N) (i : S65536x256.Idx) :
    i ∈ ((cfg2.win 10).blk t).view.set ↔ ∀ a : Fin 2, win2_10.index t a * S2048x256.size a ≤ (i a).val ∧ (i a).val < win2_10.index t a * S2048x256.size a + S2048x256.size a := by
  show i ∈ ((View.whole main_v12_0).slice (win2_10.rect t)).set ↔ _
  rw [View.set_slice_whole, Rect.mem_set_unit]
  exact Iff.rfl

/-- Row r is in the block of point r / 2048: the 32 blocks of 2048 rows tile the 65536 rows. -/
theorem cover10 (i : S65536x256.Idx) :
    ∃ t : Fin cfg2.N, (cfg2.win 10).flush t = true ∧ i ∈ ((cfg2.win 10).blk t).view.set := by
  have h0 : (i 0).val < 65536 := (i 0).isLt
  have h1 : (i 1).val < 256 := (i 1).isLt
  have hN : cfg2.N = 32 := N_2
  obtain ⟨t, ht⟩ : ∃ t : Fin cfg2.N, t.val = (i 0).val / 2048 := ⟨⟨(i 0).val / 2048, by rw [hN]; omega⟩, rfl⟩
  refine ⟨t, flush2_10 t, ?_⟩
  rw [mem_blk10]
  obtain ⟨_, _, _, _, e0, e1, -⟩ := idx_facts t
  intro a
  match a with
  | ⟨0, _⟩ => show win2_10.index t (0 : Fin 2) * 2048 ≤ (i 0).val ∧ (i 0).val < win2_10.index t (0 : Fin 2) * 2048 + 2048; omega
  | ⟨1, _⟩ => show win2_10.index t (1 : Fin 2) * 256 ≤ (i 1).val ∧ (i 1).val < win2_10.index t (1 : Fin 2) * 256 + 256; omega

/-- An index of the array is in point t's block iff each coordinate is in the block's range on its axis. -/
theorem mem_blk11 (t : Fin cfg2.N) (i : S65536x128.Idx) :
    i ∈ ((cfg2.win 11).blk t).view.set ↔ ∀ a : Fin 2, win2_11.index t a * S2048x128.size a ≤ (i a).val ∧ (i a).val < win2_11.index t a * S2048x128.size a + S2048x128.size a := by
  show i ∈ ((View.whole main_v12_1).slice (win2_11.rect t)).set ↔ _
  rw [View.set_slice_whole, Rect.mem_set_unit]
  exact Iff.rfl

/-- Row r is in the block of point r / 2048: the 32 blocks of 2048 rows tile the 65536 rows. -/
theorem cover11 (i : S65536x128.Idx) :
    ∃ t : Fin cfg2.N, (cfg2.win 11).flush t = true ∧ i ∈ ((cfg2.win 11).blk t).view.set := by
  have h0 : (i 0).val < 65536 := (i 0).isLt
  have h1 : (i 1).val < 128 := (i 1).isLt
  have hN : cfg2.N = 32 := N_2
  obtain ⟨t, ht⟩ : ∃ t : Fin cfg2.N, t.val = (i 0).val / 2048 := ⟨⟨(i 0).val / 2048, by rw [hN]; omega⟩, rfl⟩
  refine ⟨t, flush2_11 t, ?_⟩
  rw [mem_blk11]
  obtain ⟨_, _, _, _, _, _, e0, e1⟩ := idx_facts t
  intro a
  match a with
  | ⟨0, _⟩ => show win2_11.index t (0 : Fin 2) * 2048 ≤ (i 0).val ∧ (i 0).val < win2_11.index t (0 : Fin 2) * 2048 + 2048; omega
  | ⟨1, _⟩ => show win2_11.index t (1 : Fin 2) * 128 ≤ (i 1).val ∧ (i 1).val < win2_11.index t (1 : Fin 2) * 128 + 128; omega

/-- THE HIDDEN-STATE ARRAY after the pass: the stage of X and the deflated H, every row. -/
theorem final10 (c : Dev nD) : (dat2 (F := Ideal) V c).arrAt 10 cfg2.N = arr (Hn V c) :=
  (dat2 (F := Ideal) V c).arrAt_eq_of_cover 10 (arr (Hn V c)) (fun t _ => flushed10_eq V c t) cover10

/-- THE LAST LAYER'S ARRAY after the pass. -/
theorem final11 (c : Dev nD) : (dat2 (F := Ideal) V c).arrAt 11 cfg2.N = arr (Bn V c) :=
  (dat2 (F := Ideal) V c).arrAt_eq_of_cover 11 (arr (Bn V c)) (fun t _ => flushed11_eq V c t) cover11

end Arrays

end Cert.KernelIdeal.K2

end
-- ==== Proof.KFold.lean ====
/-
  The contents of the TensorCore's buffers at the boundaries of the kernel program's @main.

  @main is ten host operations (five transposes of the weights, five reshapes of the biases to 1 × e rows) and then
  three regions.  After the host operations each transposed weight and each reshaped bias holds that function of
  its argument, and no argument is written.  After a region, an input window's array is as it was entered and a
  buffer that is no array of the region is not touched; so the weights, the biases and the data matrices reach
  every later region as they were after the host operations.
-/
import proofs.«151021_j35390530519886_1_alg».proof.Proof.Gen.KernelIdeal.Frame
import proofs.«151021_j35390530519886_1_alg».proof.Proof.Cell
import Idealize.ShloMosaic.Lib.StableHlo.Run
import Idealize.ShloMosaic.Lib.Pipeline.Value

noncomputable section

namespace Cert.KernelIdeal.KFold

open Idealize.ShloMosaic Idealize.ShloMosaic.TcCoe Idealize.SL.Sem Cert.KernelIdeal Cert.KernelIdeal.Gen Cell
open Idealize.ShloMosaic.Pipeline (Dat)

variable (m : (ℓ : Loc nD τ sig) → Buf (Elt Ideal) ℓ) (ρ : Dev nD → PrngReg)

/-! ## After the host operations -/

theorem W1_v0 (c : Dev nD) : W1 m ρ c (Proc.devRef .tc main_v0)
    = transpose S256x256 [1, 0] (m ((c : Thread nD τ).loc main_arg4)) transposes_S256x256_S256x256_1_0 := by
  show StableHlo.after hostOps0 (W0 m ρ c) (Proc.devRef .tc main_v0) = _
  after_results
theorem W1_v1 (c : Dev nD) : W1 m ρ c (Proc.devRef .tc main_v1)
    = transpose S256x256 [1, 0] (m ((c : Thread nD τ).loc main_arg6)) transposes_S256x256_S256x256_1_0 := by
  show StableHlo.after hostOps0 (W0 m ρ c) (Proc.devRef .tc main_v1) = _
  after_results
theorem W1_v2 (c : Dev nD) : W1 m ρ c (Proc.devRef .tc main_v2)
    = transpose S256x256 [1, 0] (m ((c : Thread nD τ).loc main_arg8)) transposes_S256x256_S256x256_1_0 := by
  show StableHlo.after hostOps0 (W0 m ρ c) (Proc.devRef .tc main_v2) = _
  after_results
theorem W1_v3 (c : Dev nD) : W1 m ρ c (Proc.devRef .tc main_v3)
    = transpose S256x256 [1, 0] (m ((c : Thread nD τ).loc main_arg12)) transposes_S256x256_S256x256_1_0 := by
  show StableHlo.after hostOps0 (W0 m ρ c) (Proc.devRef .tc main_v3) = _
  after_results
theorem W1_v4 (c : Dev nD) : W1 m ρ c (Proc.devRef .tc main_v4)
    = transpose S256x128 [1, 0] (m ((c : Thread nD τ).loc main_arg10)) transposes_S128x256_S256x128_1_0 := by
  show StableHlo.after hostOps0 (W0 m ρ c) (Proc.devRef .tc main_v4) = _
  after_results
theorem W1_v5 (c : Dev nD) : W1 m ρ c (Proc.devRef .tc main_v5)
    = shapeCast S1x256 (m ((c : Thread nD τ).loc main_arg5)) shapeCasts_S256_S1x256 := by
  show StableHlo.after hostOps0 (W0 m ρ c) (Proc.devRef .tc main_v5) = _
  after_results; rfl
theorem W1_v6 (c : Dev nD) : W1 m ρ c (Proc.devRef .tc main_v6)
    = shapeCast S1x256 (m ((c : Thread nD τ).loc main_arg7)) shapeCasts_S256_S1x256 := by
  show StableHlo.after hostOps0 (W0 m ρ c) (Proc.devRef .tc main_v6) = _
  after_results; rfl
theorem W1_v7 (c : Dev nD) : W1 m ρ c (Proc.devRef .tc main_v7)
    = shapeCast S1x256 (m ((c : Thread nD τ).loc main_arg9)) shapeCasts_S256_S1x256 := by
  show StableHlo.after hostOps0 (W0 m ρ c) (Proc.devRef .tc main_v7) = _
  after_results; rfl
theorem W1_v8 (c : Dev nD) : W1 m ρ c (Proc.devRef .tc main_v8)
    = shapeCast S1x256 (m ((c : Thread nD τ).loc main_arg13)) shapeCasts_S256_S1x256 := by
  show StableHlo.after hostOps0 (W0 m ρ c) (Proc.devRef .tc main_v8) = _
  after_results; rfl
theorem W1_v9 (c : Dev nD) : W1 m ρ c (Proc.devRef .tc main_v9)
    = shapeCast S1x128 (m ((c : Thread nD τ).loc main_arg11)) shapeCasts_S128_S1x128 := by
  show StableHlo.after hostOps0 (W0 m ρ c) (Proc.devRef .tc main_v9) = _
  after_results; rfl

/-- No host operation writes an argument. -/
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results

/-! ## After region 0

Region 0 reads n_h, h_prev, n_r, the transposed W_nh and W_h and the rows b_nh, b_h (windows 0 … 6) and writes
h_i, the Gram matrix and the sum of squares (windows 7, 8, 9).  An input window's array ends as it was entered;
a buffer that is no array of the region is not touched. -/

theorem W2_arg2 (c : Dev nD) : W2 m ρ c (Proc.devRef .tc main_arg2) = m ((c : Thread nD τ).loc main_arg2) :=
  ((W2_arr m ρ c 2).trans (((dat0 (V1 m ρ) c).arrAt_in 2 rfl _).trans (A_eq0 (V1 m ρ) c 2))).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_v1 (c : Dev nD) : W2 m ρ c (Proc.devRef .tc main_v1)
    = transpose S256x256 [1, 0] (m ((c : Thread nD τ).loc main_arg6)) transposes_S256x256_S256x256_1_0 :=
  (W2_of_ne m ρ c main_v1 (by decide)).trans (W1_v1 m ρ c)
theorem W2_v2 (c : Dev nD) : W2 m ρ c (Proc.devRef .tc main_v2)
    = transpose S256x256 [1, 0] (m ((c : Thread nD τ).loc main_arg8)) transposes_S256x256_S256x256_1_0 :=
  (W2_of_ne m ρ c main_v2 (by decide)).trans (W1_v2 m ρ c)
theorem W2_v3 (c : Dev nD) : W2 m ρ c (Proc.devRef .tc main_v3)
    = transpose S256x256 [1, 0] (m ((c : Thread nD τ).loc main_arg12)) transposes_S256x256_S256x256_1_0 :=
  ((W2_arr m ρ c 5).trans (((dat0 (V1 m ρ) c).arrAt_in 5 rfl _).trans (A_eq0 (V1 m ρ) c 5))).trans (W1_v3 m ρ c)
theorem W2_v4 (c : Dev nD) : W2 m ρ c (Proc.devRef .tc main_v4)
    = transpose S256x128 [1, 0] (m ((c : Thread nD τ).loc main_arg10)) transposes_S128x256_S256x128_1_0 :=
  (W2_of_ne m ρ c main_v4 (by decide)).trans (W1_v4 m ρ c)
theorem W2_v6 (c : Dev nD) : W2 m ρ c (Proc.devRef .tc main_v6)
    = shapeCast S1x256 (m ((c : Thread nD τ).loc main_arg7)) shapeCasts_S256_S1x256 :=
  (W2_of_ne m ρ c main_v6 (by decide)).trans (W1_v6 m ρ c)
theorem W2_v7 (c : Dev nD) : W2 m ρ c (Proc.devRef .tc main_v7)
    = shapeCast S1x256 (m ((c : Thread nD τ).loc main_arg9)) shapeCasts_S256_S1x256 :=
  (W2_of_ne m ρ c main_v7 (by decide)).trans (W1_v7 m ρ c)
theorem W2_v8 (c : Dev nD) : W2 m ρ c (Proc.devRef .tc main_v8)
    = shapeCast S1x256 (m ((c : Thread nD τ).loc main_arg13)) shapeCasts_S256_S1x256 :=
  ((W2_arr m ρ c 6).trans (((dat0 (V1 m ρ) c).arrAt_in 6 rfl _).trans (A_eq0 (V1 m ρ) c 6))).trans (W1_v8 m ρ c)
theorem W2_v9 (c : Dev nD) : W2 m ρ c (Proc.devRef .tc main_v9)
    = shapeCast S1x128 (m ((c : Thread nD τ).loc main_arg11)) shapeCasts_S128_S1x128 :=
  (W2_of_ne m ρ c main_v9 (by decide)).trans (W1_v9 m ρ c)

/-! ## After region 1

Region 1 reads h_i, n_r, n_t, the Gram matrix and sum of squares of region 0, the transposed W_nr and W_h and
the rows b_nr, b_h (windows 0 … 8) and writes h_i_1 and its own Gram matrix and sum of squares (windows 9, 10, 11). -/

theorem W3_arg3 (c : Dev nD) : W3 m ρ c (Proc.devRef .tc main_arg3) = m ((c : Thread nD τ).loc main_arg3) :=
  ((W3_arr m ρ c 2).trans (((dat1 (V2 m ρ) c).arrAt_in 2 rfl _).trans (A_eq1 (V2 m ρ) c 2))).trans (W2_arg3 m ρ c)
theorem W3_v2 (c : Dev nD) : W3 m ρ c (Proc.devRef .tc main_v2)
    = transpose S256x256 [1, 0] (m ((c : Thread nD τ).loc main_arg8)) transposes_S256x256_S256x256_1_0 :=
  (W3_of_ne m ρ c main_v2 (by decide)).trans (W2_v2 m ρ c)
theorem W3_v3 (c : Dev nD) : W3 m ρ c (Proc.devRef .tc main_v3)
    = transpose S256x256 [1, 0] (m ((c : Thread nD τ).loc main_arg12)) transposes_S256x256_S256x256_1_0 :=
  ((W3_arr m ρ c 7).trans (((dat1 (V2 m ρ) c).arrAt_in 7 rfl _).trans (A_eq1 (V2 m ρ) c 7))).trans (W2_v3 m ρ c)
theorem W3_v4 (c : Dev nD) : W3 m ρ c (Proc.devRef .tc main_v4)
    = transpose S256x128 [1, 0] (m ((c : Thread nD τ).loc main_arg10)) transposes_S128x256_S256x128_1_0 :=
  (W3_of_ne m ρ c main_v4 (by decide)).trans (W2_v4 m ρ c)
theorem W3_v7 (c : Dev nD) : W3 m ρ c (Proc.devRef .tc main_v7)
    = shapeCast S1x256 (m ((c : Thread nD τ).loc main_arg9)) shapeCasts_S256_S1x256 :=
  (W3_of_ne m ρ c main_v7 (by decide)).trans (W2_v7 m ρ c)
theorem W3_v8 (c : Dev nD) : W3 m ρ c (Proc.devRef .tc main_v8)
    = shapeCast S1x256 (m ((c : Thread nD τ).loc main_arg13)) shapeCasts_S256_S1x256 :=
  ((W3_arr m ρ c 8).trans (((dat1 (V2 m ρ) c).arrAt_in 8 rfl _).trans (A_eq1 (V2 m ρ) c 8))).trans (W2_v8 m ρ c)
theorem W3_v9 (c : Dev nD) : W3 m ρ c (Proc.devRef .tc main_v9)
    = shapeCast S1x128 (m ((c : Thread nD τ).loc main_arg11)) shapeCasts_S128_S1x128 :=
  (W3_of_ne m ρ c main_v9 (by decide)).trans (W2_v9 m ρ c)

end Cert.KernelIdeal.KFold

end
-- ==== Proof.CellLayout.lean ====
/-
  The two layouts of a layer hold the same numbers.

  A weight given as out × in and then transposed reads, at (k, j), the given weight at (j, k); a bias vector of
  length e recast as a 1 × e row reads, at (0, j), the vector at j.  So a layer computed in the transposed layout
  over the transposed weight and the recast bias is, entry by entry, the layer in the given layout; and likewise
  a stage, which is the sum of two layers.
-/
import proofs.«151021_j35390530519886_1_alg».proof.Proof.Cell
import Idealize.ShloMosaic.Lib.ValueIdx
import Idealize.ShloMosaic.Lib.ValueLayout
import Idealize.ShloMosaic.Lib.Pipeline.Value

noncomputable section

open Idealize.ShloMosaic Idealize.ShloMosaic.ValueIdx

namespace Cell

/-- A layer in the transposed layout, over the transposed weight and the bias recast as a row, is the layer in the
    given layout. -/
theorem actT_transpose {n d e : Nat} (X : Mat n d) (W : (⟨2, ![e, d]⟩ : Shape).Idx → EReal)
    (b : (⟨1, ![e]⟩ : Shape).Idx → EReal)
    (hT : (⟨2, ![e, d]⟩ : Shape).Transposes [1, 0] ⟨2, ![d, e]⟩)
    (hS : (⟨1, ![e]⟩ : Shape).ShapeCasts ⟨2, ![1, e]⟩) :
    actT X (transpose ⟨2, ![d, e]⟩ [1, 0] W hT) (shapeCast ⟨2, ![1, e]⟩ b hS) = act X W b := by
  funext r j
  unfold actT act
  rw [shapeCast_a_1a_apply b hS 0 j]
  congr 2
  exact Finset.sum_congr rfl fun k _ => by rw [transpose_ix2_apply W hT k j]

/-- So a stage in the transposed layout, over transposed weights and recast biases, is the stage in the given layout. -/
theorem stageT_transpose {n d d' e : Nat} (X : Mat n d) (Y : Mat n d')
    (W : (⟨2, ![e, d]⟩ : Shape).Idx → EReal) (b : (⟨1, ![e]⟩ : Shape).Idx → EReal)
    (U : (⟨2, ![e, d']⟩ : Shape).Idx → EReal) (c : (⟨1, ![e]⟩ : Shape).Idx → EReal)
    (hT : (⟨2, ![e, d]⟩ : Shape).Transposes [1, 0] ⟨2, ![d, e]⟩)
    (hS : (⟨1, ![e]⟩ : Shape).ShapeCasts ⟨2, ![1, e]⟩)
    (hT' : (⟨2, ![e, d']⟩ : Shape).Transposes [1, 0] ⟨2, ![d', e]⟩)
    (hS' : (⟨1, ![e]⟩ : Shape).ShapeCasts ⟨2, ![1, e]⟩) :
    stageT X Y (transpose ⟨2, ![d, e]⟩ [1, 0] W hT) (shapeCast ⟨2, ![1, e]⟩ b hS)
      (transpose ⟨2, ![d', e]⟩ [1, 0] U hT') (shapeCast ⟨2, ![1, e]⟩ c hS') = stage X Y W b U c := by
  funext r j
  unfold stageT stage
  rw [actT_transpose X W b hT hS, actT_transpose Y U c hT' hS']

end Cell

end
-- ==== Proof.KValue.lean ====
/-
  The kernel program's two results as functions of its arguments.

  Each region's outputs are what its write-backs leave, which the region's value lemmas give as a function of the
  region's own inputs; each input is an earlier region's output or a buffer the boundary lemmas read back to the
  arguments.  Substituting boundary by boundary, the last hidden state and the output layer come out as the cell of
  Cell.lean, first spelling of the deflation, of the fourteen arguments.
-/
import proofs.«151021_j35390530519886_1_alg».proof.Proof.KFold
import proofs.«151021_j35390530519886_1_alg».proof.Proof.CellLayout

noncomputable section

namespace Cert.KernelIdeal.KValue

open Idealize.ShloMosaic Idealize.ShloMosaic.TcCoe Idealize.SL.Sem Cert.KernelIdeal Cert.KernelIdeal.Gen Cert.KernelIdeal.KFold Cell
open Idealize.ShloMosaic.Pipeline (Dat)

variable (m : (ℓ : Loc nD τ sig) → Buf (Elt Ideal) ℓ) (ρ : Dev nD → PrngReg)

/-! ## Congruences of the cell's pieces (plain substitutions) -/

theorem stageT_congr {n d d' e : Nat} {X X' : Mat n d} {Y Y' : Mat n d'} {Wt Wt' : (⟨2, ![d, e]⟩ : Shape).Idx → EReal}
    {b b' : (⟨2, ![1, e]⟩ : Shape).Idx → EReal} {Ut Ut' : (⟨2, ![d', e]⟩ : Shape).Idx → EReal} {c c' : (⟨2, ![1, e]⟩ : Shape).Idx → EReal}
    (hX : X = X') (hY : Y = Y') (hW : Wt = Wt') (hb : b = b') (hU : Ut = Ut') (hc : c = c') :
    stageT X Y Wt b Ut c = stageT X' Y' Wt' b' Ut' c' := by subst hX hY hW hb hU hc; rfl
theorem actT_congr {n d e : Nat} {X X' : Mat n d} {Wt Wt' : (⟨2, ![d, e]⟩ : Shape).Idx → EReal}
    {b b' : (⟨2, ![1, e]⟩ : Shape).Idx → EReal} (hX : X = X') (hW : Wt = Wt') (hb : b = b') :
    actT X Wt b = actT X' Wt' b' := by subst hX hW hb; rfl
theorem deflateWith_congr {n d e : Nat} {X X' : Mat n d} {H H' : Mat n e} {M M' : (⟨2, ![d, e]⟩ : Shape).Idx → EReal}
    {s s' : (⟨2, ![1, 1]⟩ : Shape).Idx → EReal} (hX : X = X') (hH : H = H') (hM : M = M') (hs : s = s') :
    deflateWith X H M s = deflateWith X' H' M' s' := by subst hX hH hM hs; rfl
theorem gram_congr {n d e : Nat} {X X' : Mat n d} {H H' : Mat n e} (hX : X = X') (hH : H = H') :
    gram X H = gram X' H' := by subst hX hH; rfl

/-! ## The regions' outputs

Each region's value lemmas are taken here as hypotheses, at any entry contents V: the assembly supplies them. -/

section Outputs

/-- The entry contents a region's value lemmas are stated at. -/
abbrev Entry := (c : Dev nD) → (b : Ref sig .tc) → Buf (Elt Ideal) ((c : Thread nD τ).loc b)

variable
  (r0h : ∀ (V : Entry) (c : Dev nD), (dat0 (F := Ideal) V c).arrAt 7 cfg0.N
    = arr (stageT (rd (V c (Pipeline.arrRef spec0 0))) (rd (V c (Pipeline.arrRef spec0 1))) (V c (Pipeline.arrRef spec0 3))
        (V c (Pipeline.arrRef spec0 4)) (V c (Pipeline.arrRef spec0 5)) (V c (Pipeline.arrRef spec0 6))))
  (r0g : ∀ (V : Entry) (c : Dev nD), (dat0 (F := Ideal) V c).arrAt 8 cfg0.N
    = arr (gram (rd (V c (Pipeline.arrRef spec0 2))) (stageT (rd (V c (Pipeline.arrRef spec0 0))) (rd (V c (Pipeline.arrRef spec0 1)))
        (V c (Pipeline.arrRef spec0 3)) (V c (Pipeline.arrRef spec0 4)) (V c (Pipeline.arrRef spec0 5)) (V c (Pipeline.arrRef spec0 6)))))
  (r0s : ∀ (V : Entry) (c : Dev nD), (dat0 (F := Ideal) V c).arrAt 9 cfg0.N = fun _ => sumsq (rd (V c (Pipeline.arrRef spec0 2))))

include r0h in
/-- h_i after region 0: the first stage of the cell. -/
theorem W2_h (c : Dev nD) : W2 m ρ c (Proc.devRef .tc main_v10_0)
    = arr (stage (rd (m ((c : Thread nD τ).loc main_arg1))) (rd (m ((c : Thread nD τ).loc main_arg0)))
        (m ((c : Thread nD τ).loc main_arg4)) (m ((c : Thread nD τ).loc main_arg5))
        (m ((c : Thread nD τ).loc main_arg12)) (m ((c : Thread nD τ).loc main_arg13))) := by
  refine (W2_arr m ρ c 7).trans ((r0h (V1 m ρ) c).trans ?_)
  show arr (stageT (rd (W1 m ρ c (Proc.devRef .tc main_arg1))) (rd (W1 m ρ c (Proc.devRef .tc main_arg0)))
    (W1 m ρ c (Proc.devRef .tc main_v0)) (W1 m ρ c (Proc.devRef .tc main_v5))
    (W1 m ρ c (Proc.devRef .tc main_v3)) (W1 m ρ c (Proc.devRef .tc main_v8))) = _
  rw [W1_arg1, W1_arg0, W1_v0, W1_v5, W1_v3, W1_v8]
  exact congrArg arr (stageT_transpose _ _ _ _ _ _ _ _ _ _)

include r0g in
/-- The Gram matrix n_rᵀ h_i after region 0. -/
theorem W2_g (c : Dev nD) : W2 m ρ c (Proc.devRef .tc main_v10_1)
    = arr (gram (rd (m ((c : Thread nD τ).loc main_arg2))) (stage (rd (m ((c : Thread nD τ).loc main_arg1))) (rd (m ((c : Thread nD τ).loc main_arg0)))
        (m ((c : Thread nD τ).loc main_arg4)) (m ((c : Thread nD τ).loc main_arg5))
        (m ((c : Thread nD τ).loc main_arg12)) (m ((c : Thread nD τ).loc main_arg13)))) := by
  refine (W2_arr m ρ c 8).trans ((r0g (V1 m ρ) c).trans ?_)
  show arr (gram (rd (W1 m ρ c (Proc.devRef .tc main_arg2))) (stageT (rd (W1 m ρ c (Proc.devRef .tc main_arg1))) (rd (W1 m ρ c (Proc.devRef .tc main_arg0)))
    (W1 m ρ c (Proc.devRef .tc main_v0)) (W1 m ρ c (Proc.devRef .tc main_v5))
    (W1 m ρ c (Proc.devRef .tc main_v3)) (W1 m ρ c (Proc.devRef .tc main_v8)))) = _
  rw [W1_arg2, W1_arg1, W1_arg0, W1_v0, W1_v5, W1_v3, W1_v8]
  exact congrArg (fun H => arr (gram _ H)) (stageT_transpose _ _ _ _ _ _ _ _ _ _)

include r0s in
/-- ‖n_r‖² after region 0. -/
theorem W2_s (c : Dev nD) : W2 m ρ c (Proc.devRef .tc main_v10_2)
    = fun (_ : (⟨2, ![1, 1]⟩ : Shape).Idx) => sumsq (rd (m ((c : Thread nD τ).loc main_arg2))) := by
  refine (W2_arr m ρ c 9).trans ((r0s (V1 m ρ) c).trans ?_)
  show (fun _ => sumsq (rd (W1 m ρ c (Proc.devRef .tc main_arg2)))) = _
  rw [W1_arg2]
  rfl

variable
  (r1h : ∀ (V : Entry) (c : Dev nD), (dat1 (F := Ideal) V c).arrAt 9 cfg1.N
    = arr (stageT (rd (V c (Pipeline.arrRef spec1 1)))
        (deflateWith (rd (V c (Pipeline.arrRef spec1 1))) (rd (V c (Pipeline.arrRef spec1 0))) (V c (Pipeline.arrRef spec1 3)) (V c (Pipeline.arrRef spec1 4)))
        (V c (Pipeline.arrRef spec1 5)) (V c (Pipeline.arrRef spec1 6)) (V c (Pipeline.arrRef spec1 7)) (V c (Pipeline.arrRef spec1 8))))
  (r1g : ∀ (V : Entry) (c : Dev nD), (dat1 (F := Ideal) V c).arrAt 10 cfg1.N
    = arr (gram (rd (V c (Pipeline.arrRef spec1 2))) (stageT (rd (V c (Pipeline.arrRef spec1 1)))
        (deflateWith (rd (V c (Pipeline.arrRef spec1 1))) (rd (V c (Pipeline.arrRef spec1 0))) (V c (Pipeline.arrRef spec1 3)) (V c (Pipeline.arrRef spec1 4)))
        (V c (Pipeline.arrRef spec1 5)) (V c (Pipeline.arrRef spec1 6)) (V c (Pipeline.arrRef spec1 7)) (V c (Pipeline.arrRef spec1 8)))))
  (r1s : ∀ (V : Entry) (c : Dev nD), (dat1 (F := Ideal) V c).arrAt 11 cfg1.N = fun _ => sumsq (rd (V c (Pipeline.arrRef spec1 2))))

/-- The cell's first two stages, of the arguments. -/
abbrev H0 (c : Dev nD) : Mat 65536 256 :=
  stage (rd (m ((c : Thread nD τ).loc main_arg1))) (rd (m ((c : Thread nD τ).loc main_arg0)))
    (m ((c : Thread nD τ).loc main_arg4)) (m ((c : Thread nD τ).loc main_arg5))
    (m ((c : Thread nD τ).loc main_arg12)) (m ((c : Thread nD τ).loc main_arg13))
abbrev H1 (c : Dev nD) : Mat 65536 256 :=
  stage (rd (m ((c : Thread nD τ).loc main_arg2))) (deflateK (rd (m ((c : Thread nD τ).loc main_arg2))) (H0 m c))
    (m ((c : Thread nD τ).loc main_arg6)) (m ((c : Thread nD τ).loc main_arg7))
    (m ((c : Thread nD τ).loc main_arg12)) (m ((c : Thread nD τ).loc main_arg13))
abbrev H2 (c : Dev nD) : Mat 65536 256 :=
  stage (rd (m ((c : Thread nD τ).loc main_arg3))) (deflateK (rd (m ((c : Thread nD τ).loc main_arg3))) (H1 m c))
    (m ((c : Thread nD τ).loc main_arg8)) (m ((c : Thread nD τ).loc main_arg9))
    (m ((c : Thread nD τ).loc main_arg12)) (m ((c : Thread nD τ).loc main_arg13))

include r0h r0g r0s r1h in
/-- h_i_1 after region 1: the second stage, over h_i deflated by n_r. -/
theorem W3_h (c : Dev nD) : W3 m ρ c (Proc.devRef .tc main_v11_0) = arr (H1 m c) := by
  refine (W3_arr m ρ c 9).trans ((r1h (V2 m ρ) c).trans ?_)
  refine (congrArg arr (stageT_congr (congrArg rd (W2_arg2 m ρ c))
    (deflateWith_congr (congrArg rd (W2_arg2 m ρ c)) (congrArg rd (W2_h m ρ r0h c)) (W2_g m ρ r0g c) (W2_s m ρ r0s c))
    (W2_v1 m ρ c) (W2_v6 m ρ c) (W2_v3 m ρ c) (W2_v8 m ρ c))).trans ?_
  first
    | rw [rd_arr, deflateWith_gram, stageT_transpose]
    | exact congrArg arr (stageT_transpose _ _ _ _ _ _ _ _ _ _)
    | exact congrArg (fun H => arr (gram _ H)) (stageT_transpose _ _ _ _ _ _ _ _ _ _)

include r0h r0g r0s r1g in
/-- The Gram matrix n_tᵀ h_i_1 after region 1. -/
theorem W3_g (c : Dev nD) : W3 m ρ c (Proc.devRef .tc main_v11_1)
    = arr (gram (rd (m ((c : Thread nD τ).loc main_arg3))) (H1 m c)) := by
  refine (W3_arr m ρ c 10).trans ((r1g (V2 m ρ) c).trans ?_)
  refine (congrArg arr (gram_congr (congrArg rd (W2_arg3 m ρ c)) (stageT_congr (congrArg rd (W2_arg2 m ρ c))
    (deflateWith_congr (congrArg rd (W2_arg2 m ρ c)) (congrArg rd (W2_h m ρ r0h c)) (W2_g m ρ r0g c) (W2_s m ρ r0s c))
    (W2_v1 m ρ c) (W2_v6 m ρ c) (W2_v3 m ρ c) (W2_v8 m ρ c)))).trans ?_
  first
    | rw [rd_arr, deflateWith_gram, stageT_transpose]
    | exact congrArg arr (stageT_transpose _ _ _ _ _ _ _ _ _ _)
    | exact congrArg (fun H => arr (gram _ H)) (stageT_transpose _ _ _ _ _ _ _ _ _ _)

include r1s in
/-- ‖n_t‖² after region 1. -/
theorem W3_s (c : Dev nD) : W3 m ρ c (Proc.devRef .tc main_v11_2)
    = fun (_ : (⟨2, ![1, 1]⟩ : Shape).Idx) => sumsq (rd (m ((c : Thread nD τ).loc main_arg3))) := by
  refine (W3_arr m ρ c 11).trans ((r1s (V2 m ρ) c).trans ?_)
  exact congrArg (fun X => fun _ => sumsq (rd X)) (W2_arg3 m ρ c)

variable
  (r2h : ∀ (V : Entry) (c : Dev nD), (dat2 (F := Ideal) V c).arrAt 10 cfg2.N
    = arr (stageT (rd (V c (Pipeline.arrRef spec2 1)))
        (deflateWith (rd (V c (Pipeline.arrRef spec2 1))) (rd (V c (Pipeline.arrRef spec2 0))) (V c (Pipeline.arrRef spec2 2)) (V c (Pipeline.arrRef spec2 3)))
        (V c (Pipeline.arrRef spec2 4)) (V c (Pipeline.arrRef spec2 5)) (V c (Pipeline.arrRef spec2 6)) (V c (Pipeline.arrRef spec2 7))))
  (r2o : ∀ (V : Entry) (c : Dev nD), (dat2 (F := Ideal) V c).arrAt 11 cfg2.N
    = arr (actT (stageT (rd (V c (Pipeline.arrRef spec2 1)))
        (deflateWith (rd (V c (Pipeline.arrRef spec2 1))) (rd (V c (Pipeline.arrRef spec2 0))) (V c (Pipeline.arrRef spec2 2)) (V c (Pipeline.arrRef spec2 3)))
        (V c (Pipeline.arrRef spec2 4)) (V c (Pipeline.arrRef spec2 5)) (V c (Pipeline.arrRef spec2 6)) (V c (Pipeline.arrRef spec2 7)))
        (V c (Pipeline.arrRef spec2 8)) (V c (Pipeline.arrRef spec2 9))))

include r0h r0g r0s r1h r1g r1s r2h in
/-- The first result, h_next: the cell's last hidden state of the arguments. -/
theorem out0 (c : Dev nD) : W4 m ρ c (Proc.devRef .tc main_v12_0) = arr (H2 m c) := by
  refine (W4_arr m ρ c 10).trans ((r2h (V3 m ρ) c).trans ?_)
  refine (congrArg arr (stageT_congr (congrArg rd (W3_arg3 m ρ c))
    (deflateWith_congr (congrArg rd (W3_arg3 m ρ c)) (congrArg rd (W3_h m ρ r0h r0g r0s r1h c)) (W3_g m ρ r0h r0g r0s r1g c) (W3_s m ρ r1s c))
    (W3_v2 m ρ c) (W3_v7 m ρ c) (W3_v3 m ρ c) (W3_v8 m ρ c))).trans ?_
  first
    | rw [rd_arr, deflateWith_gram, stageT_transpose]
    | exact congrArg arr (stageT_transpose _ _ _ _ _ _ _ _ _ _)
    | exact congrArg (fun H => arr (gram _ H)) (stageT_transpose _ _ _ _ _ _ _ _ _ _)

include r0h r0g r0s r1h r1g r1s r2o in
/-- The second result, b: the output layer over h_next. -/
theorem out1 (c : Dev nD) : W4 m ρ c (Proc.devRef .tc main_v12_1)
    = arr (act (H2 m c) (m ((c : Thread nD τ).loc main_arg10)) (m ((c : Thread nD τ).loc main_arg11))) := by
  refine (W4_arr m ρ c 11).trans ((r2o (V3 m ρ) c).trans ?_)
  refine (congrArg arr (actT_congr (stageT_congr (congrArg rd (W3_arg3 m ρ c))
    (deflateWith_congr (congrArg rd (W3_arg3 m ρ c)) (congrArg rd (W3_h m ρ r0h r0g r0s r1h c)) (W3_g m ρ r0h r0g r0s r1g c) (W3_s m ρ r1s c))
    (W3_v2 m ρ c) (W3_v7 m ρ c) (W3_v3 m ρ c) (W3_v8 m ρ c)) (W3_v4 m ρ c) (W3_v9 m ρ c))).trans ?_
  first
    | rw [rd_arr, deflateWith_gram, stageT_transpose, actT_transpose]
    | exact congrArg arr ((actT_congr (stageT_transpose _ _ _ _ _ _ _ _ _ _) rfl rfl).trans (actT_transpose _ _ _ _ _))

/-- The cell's last hidden state is Cell.lean's, first spelling of the deflation. -/
theorem H2_eq (c : Dev nD) : H2 m c = hiddenK (rd (m ((c : Thread nD τ).loc main_arg1))) (rd (m ((c : Thread nD τ).loc main_arg0)))
    (rd (m ((c : Thread nD τ).loc main_arg2))) (rd (m ((c : Thread nD τ).loc main_arg3)))
    (m ((c : Thread nD τ).loc main_arg4)) (m ((c : Thread nD τ).loc main_arg6)) (m ((c : Thread nD τ).loc main_arg8)) (m ((c : Thread nD τ).loc main_arg12))
    (m ((c : Thread nD τ).loc main_arg5)) (m ((c : Thread nD τ).loc main_arg7)) (m ((c : Thread nD τ).loc main_arg9)) (m ((c : Thread nD τ).loc main_arg13)) := rfl

end Outputs

end Cert.KernelIdeal.KValue

end
-- ==== Proof.RefValue.lean ====
import proofs.«151021_j35390530519886_1_alg».proof.Proof.Gen.ReferenceIdeal.Read
import proofs.«151021_j35390530519886_1_alg».proof.Proof.Cell
import Idealize.ShloMosaic.Lib.ValueIdx
import Idealize.ShloMosaic.PureOps.Ideal.Laws

/-
  The reference program read as the cell of `Cell`: its two results are the last hidden state, in the spelling of the
  deflation that divides the data matrix by its norm first, and one more layer on top of it.
-/

noncomputable section

namespace Cert.ReferenceIdeal.RefValue

open Cell Cert.ReferenceIdeal Cert.ReferenceIdeal.Gen Cert.ReferenceIdeal.Read
open Idealize.ShloMosaic Idealize.ShloMosaic.ValueIdx

/-- Two index functions that agree coordinate by coordinate. -/
macro "idx_eq" : tactic =>
  `(tactic| exact funext fun a => Fin.ext (by first
      | (match a with | ⟨0, _⟩ => rfl | ⟨1, _⟩ => rfl)
      | (match a with | ⟨0, _⟩ => rfl)))

/-- A stage of the reference: tanh (n Wᵀ + b) + tanh (h Uᵀ + c), the weights as given (out × in). -/
theorem ref_stage (x0 x1 : (⟨S65536x256, .f32⟩ : BufTy).Contents (Elt Ideal)) (x4 : (⟨S256x256, .f32⟩ : BufTy).Contents (Elt Ideal))
    (x5 : (⟨S256, .f32⟩ : BufTy).Contents (Elt Ideal)) (x12 : (⟨S256x256, .f32⟩ : BufTy).Contents (Elt Ideal))
    (x13 : (⟨S256, .f32⟩ : BufTy).Contents (Elt Ideal)) :
    val_main_v12 (F := Ideal) x0 x1 x4 x5 x12 x13 = arr (stage (rd x1) (rd x0) x4 x5 x12 x13) := by
  funext i
  obtain ⟨r, j, rfl⟩ : ∃ (r : Fin 65536) (j : Fin 256), i = ix2 r j := ⟨i 0, i 1, eq_ix2 i⟩
  rw [val_main_v12_apply, val_main_v5_apply, val_main_v4_apply, val_main_v1_apply, val_main_v3_apply, val_main_v2_apply,
    val_main_v11_apply, val_main_v10_apply, val_main_v7_apply, val_main_v9_apply, val_main_v8_apply]
  have e1 : ∀ k : Fin 256, lidx_main_v1 (ix2 r j) k = ix2 r k := fun k => by idx_eq
  have e2 : ∀ k : Fin 256, idx_main_v0 (ridx_main_v1 (ix2 r j) k) = ix2 j k := fun k => by idx_eq
  have e3 : idx_main_v2 (idx_main_v3 (ix2 r j)) = ix1 j := by idx_eq
  have e4 : ∀ k : Fin 256, lidx_main_v7 (ix2 r j) k = ix2 r k := fun k => by idx_eq
  have e5 : ∀ k : Fin 256, idx_main_v6 (ridx_main_v7 (ix2 r j) k) = ix2 j k := fun k => by idx_eq
  have e6 : idx_main_v8 (idx_main_v9 (ix2 r j)) = ix1 j := by idx_eq
  simp only [val_main_v0_apply, val_main_v6_apply, e1, e2, e3, e4, e5, e6, Ideal.addf_def, Ideal.hostUnary_tanh_def]
  rfl

/-- The Frobenius norm of the reference: the square root of the sum of all squares. -/
theorem ref_norm (x2 : (⟨S65536x256, .f32⟩ : BufTy).Contents (Elt Ideal)) (q : S_.Idx) :
    val_main_v13 (F := Ideal) x2 q = Ideal.sqrt (sumsq (rd x2)) := by
  rw [val_main_v13_apply, val_main_call0_v1_apply, val_main_call0_cst_apply]
  simp only [val_main_call0_v0_apply, Ideal.hostUnary_sqrt_def, Ideal.ofBits_def, Ideal.ofBits_zero_f32, zero_add,
    Ideal.mulf_def]
  rw [sum_idx2]
  rfl

/-- The deflation of the reference, applied to a stage: H − X̂ (X̂ᵀ H) with X̂ = X / ‖X‖. -/
theorem ref_deflate (x0 x1 x2 : (⟨S65536x256, .f32⟩ : BufTy).Contents (Elt Ideal)) (x4 : (⟨S256x256, .f32⟩ : BufTy).Contents (Elt Ideal))
    (x5 : (⟨S256, .f32⟩ : BufTy).Contents (Elt Ideal)) (x12 : (⟨S256x256, .f32⟩ : BufTy).Contents (Elt Ideal))
    (x13 : (⟨S256, .f32⟩ : BufTy).Contents (Elt Ideal)) :
    val_main_v19 (F := Ideal) x0 x1 x2 x4 x5 x12 x13
      = arr (deflateR (rd x2) (stage (rd x1) (rd x0) x4 x5 x12 x13)) := by
  funext i
  obtain ⟨r, j, rfl⟩ : ∃ (r : Fin 65536) (j : Fin 256), i = ix2 r j := ⟨i 0, i 1, eq_ix2 i⟩
  rw [val_main_v19_apply, val_main_v18_apply]
  have e1 : ∀ k : Fin 256, lidx_main_v18 (ix2 r j) k = ix2 r k := fun k => by idx_eq
  have e2 : ∀ (k : Fin 256) (r' : Fin 65536), idx_main_v16 (lidx_main_v17 (ridx_main_v18 (ix2 r j) k) r') = ix2 r' k :=
    fun k r' => by idx_eq
  have e3 : ∀ (k : Fin 256) (r' : Fin 65536), ridx_main_v17 (ridx_main_v18 (ix2 r j) k) r' = ix2 r' j :=
    fun k r' => by idx_eq
  simp only [val_main_v17_apply, val_main_v16_apply, val_main_v15_apply, val_main_v14_apply, ref_stage, ref_norm,
    e1, e2, e3, Ideal.subf_def, Ideal.hostDivf_def]
  rfl

/-- The second stage is the first stage at other arguments: the deflated first stage in place of the previous hidden state. -/
theorem v32_eq (x0 x1 x2 : (⟨S65536x256, .f32⟩ : BufTy).Contents (Elt Ideal)) (x4 : (⟨S256x256, .f32⟩ : BufTy).Contents (Elt Ideal))
    (x5 : (⟨S256, .f32⟩ : BufTy).Contents (Elt Ideal)) (x6 : (⟨S256x256, .f32⟩ : BufTy).Contents (Elt Ideal))
    (x7 : (⟨S256, .f32⟩ : BufTy).Contents (Elt Ideal)) (x12 : (⟨S256x256, .f32⟩ : BufTy).Contents (Elt Ideal))
    (x13 : (⟨S256, .f32⟩ : BufTy).Contents (Elt Ideal)) :
    val_main_v32 (F := Ideal) x0 x1 x2 x4 x5 x6 x7 x12 x13
      = val_main_v12 (F := Ideal) (val_main_v19 (F := Ideal) x0 x1 x2 x4 x5 x12 x13) x2 x6 x7 x12 x13 := rfl

/-- The second deflation is the first at other arguments: it deflates the second stage against the next data matrix. -/
theorem v39_eq (x0 x1 x2 x3 : (⟨S65536x256, .f32⟩ : BufTy).Contents (Elt Ideal)) (x4 : (⟨S256x256, .f32⟩ : BufTy).Contents (Elt Ideal))
    (x5 : (⟨S256, .f32⟩ : BufTy).Contents (Elt Ideal)) (x6 : (⟨S256x256, .f32⟩ : BufTy).Contents (Elt Ideal))
    (x7 : (⟨S256, .f32⟩ : BufTy).Contents (Elt Ideal)) (x12 : (⟨S256x256, .f32⟩ : BufTy).Contents (Elt Ideal))
    (x13 : (⟨S256, .f32⟩ : BufTy).Contents (Elt Ideal)) :
    val_main_v39 (F := Ideal) x0 x1 x2 x3 x4 x5 x6 x7 x12 x13
      = val_main_v19 (F := Ideal) (val_main_v19 (F := Ideal) x0 x1 x2 x4 x5 x12 x13) x2 x3 x6 x7 x12 x13 := rfl

/-- The third stage is the first stage at other arguments: the twice deflated state in place of the previous hidden state. -/
theorem v52_eq (x0 x1 x2 x3 : (⟨S65536x256, .f32⟩ : BufTy).Contents (Elt Ideal)) (x4 : (⟨S256x256, .f32⟩ : BufTy).Contents (Elt Ideal))
    (x5 : (⟨S256, .f32⟩ : BufTy).Contents (Elt Ideal)) (x6 : (⟨S256x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal)) (x12 : (⟨S256x256, .f32⟩ : BufTy).Contents (Elt Ideal))
    (x13 : (⟨S256, .f32⟩ : BufTy).Contents (Elt Ideal)) :
    val_main_v52 (F := Ideal) x0 x1 x2 x3 x4 x5 x6 x7 x8 x9 x12 x13
      = val_main_v12 (F := Ideal) (val_main_v39 (F := Ideal) x0 x1 x2 x3 x4 x5 x6 x7 x12 x13) x3 x8 x9 x12 x13 := rfl

/-- The first result of the reference is the last hidden state of the cell. -/
theorem ref_hidden (x0 x1 x2 x3 : (⟨S65536x256, .f32⟩ : BufTy).Contents (Elt Ideal)) (x4 : (⟨S256x256, .f32⟩ : BufTy).Contents (Elt Ideal))
    (x5 : (⟨S256, .f32⟩ : BufTy).Contents (Elt Ideal)) (x6 : (⟨S256x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal)) (x12 : (⟨S256x256, .f32⟩ : BufTy).Contents (Elt Ideal))
    (x13 : (⟨S256, .f32⟩ : BufTy).Contents (Elt Ideal)) :
    val_main_v52 (F := Ideal) x0 x1 x2 x3 x4 x5 x6 x7 x8 x9 x12 x13
      = arr (hiddenR (rd x1) (rd x0) (rd x2) (rd x3) x4 x6 x8 x12 x5 x7 x9 x13) := by
  rw [v52_eq, ref_stage, v39_eq, ref_deflate, ref_deflate]
  simp only [rd_arr]
  rfl

/-- The second result of the reference is one more layer on the last hidden state. -/
theorem ref_out (x0 x1 x2 x3 : (⟨S65536x256, .f32⟩ : BufTy).Contents (Elt Ideal)) (x4 : (⟨S256x256, .f32⟩ : BufTy).Contents (Elt Ideal))
    (x5 : (⟨S256, .f32⟩ : BufTy).Contents (Elt Ideal)) (x6 : (⟨S256x256, .f32⟩ : BufTy).Contents (Elt Ideal))
    (x7 : (⟨S256, .f32⟩ : BufTy).Contents (Elt Ideal)) (x8 : (⟨S256x256, .f32⟩ : BufTy).Contents (Elt Ideal))
    (x9 : (⟨S256, .f32⟩ : BufTy).Contents (Elt Ideal)) (x10 : (⟨S128x256, .f32⟩ : BufTy).Contents (Elt Ideal))
    (x11 : (⟨S128, .f32⟩ : BufTy).Contents (Elt Ideal)) (x12 : (⟨S256x256, .f32⟩ : BufTy).Contents (Elt Ideal))
    (x13 : (⟨S256, .f32⟩ : BufTy).Contents (Elt Ideal)) :
    val_main_v58 (F := Ideal) x0 x1 x2 x3 x4 x5 x6 x7 x8 x9 x10 x11 x12 x13
      = arr (act (hiddenR (rd x1) (rd x0) (rd x2) (rd x3) x4 x6 x8 x12 x5 x7 x9 x13) x10 x11) := by
  funext i
  obtain ⟨r, j, rfl⟩ : ∃ (r : Fin 65536) (j : Fin 128), i = ix2 r j := ⟨i 0, i 1, eq_ix2 i⟩
  rw [val_main_v58_apply, val_main_v57_apply, val_main_v54_apply, val_main_v56_apply, val_main_v55_apply]
  have e1 : ∀ k : Fin 256, lidx_main_v54 (ix2 r j) k = ix2 r k := fun k => by idx_eq
  have e2 : ∀ k : Fin 256, idx_main_v53 (ridx_main_v54 (ix2 r j) k) = ix2 j k := fun k => by idx_eq
  have e3 : idx_main_v55 (idx_main_v56 (ix2 r j)) = ix1 j := by idx_eq
  simp only [val_main_v53_apply, ref_hidden, e1, e2, e3, Ideal.addf_def, Ideal.hostUnary_tanh_def]
  rfl

end Cert.ReferenceIdeal.RefValue

end
-- ==== Proof.PreFacts.lean ====
/-
  What the precondition says of the two data matrices the deflations divide by.

  The precondition is a conjunction of sixteen one-bit scalars.  Fourteen say "every entry x of this array has
  |x| < +∞"; on the extended reals |x| = max x (−x), and max x (−x) < ⊤ holds exactly when x is a real number.
  The last two say "the sum of the squares of every entry is > 0", for the two data matrices.  A conjunction of
  bits that is 1 has every conjunct 1, so from the whole we read off: both data matrices have real entries, and
  both sums of squares are positive.
-/
import proofs.«151021_j35390530519886_1_alg».proof.Pre_finite_inputs
import proofs.«151021_j35390530519886_1_alg».proof.Proof.Gen.Pre_finite_inputs
import proofs.«151021_j35390530519886_1_alg».proof.Proof.Cell
import Idealize.ShloMosaic.Lib.ReduceAll
import Idealize.ShloMosaic.PureOps.Ideal.Laws
import Idealize.ShloMosaic.Lib.ValueIdx

noncomputable section

namespace Cert.PreFacts

open Idealize.ShloMosaic Idealize.ShloMosaic.ValueIdx

/-- A rank-0 shape has one index. -/
instance : Subsingleton (⟨0, ![]⟩ : Shape).Idx := ⟨fun a b => funext fun d => d.elim0⟩

/-- The word of +∞ reads ⊤. -/
theorem ofBits_inf : Ideal.ofBits .f32 0x7F800000#32 = ⊤ := by simp [Ideal.ofBits, Ideal.ieee]

/-- An extended real whose absolute value max x (−x) is below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A comparison bit "a < b" that is 1 says a < b. -/
theorem cmp_olt_eq_one {a b : EReal} (h : Ideal.cmp .olt a b = 1#1) : a < b := by
  unfold Ideal.cmp at h
  by_contra hn
  simp [hn] at h

/-- A comparison bit "a > b" that is 1 says b < a. -/
theorem cmp_ogt_eq_one {a b : EReal} (h : Ideal.cmp .ogt a b = 1#1) : b < a := by
  unfold Ideal.cmp at h
  by_contra hn
  simp [hn] at h

/-- ONE FINITENESS CONJUNCT: "all |x| < +∞" being 1 says every entry of x is a real number. -/
theorem all_finite {s : Shape} {axes : List (Fin s.rank)} (x : FVec Ideal s .f32)
    (hb : (⟨0, ![]⟩ : Shape).BroadcastsInDim s (![] : Fin 0 → Fin s.rank))
    (init : IVec (⟨0, ![]⟩ : Shape) 1) (hred : s.ReducesTo axes (⟨0, ![]⟩ : Shape)) (hpos : 0 < (⟨0, ![]⟩ : Shape).numel)
    (j : (⟨0, ![]⟩ : Shape).Idx)
    (e : Host.reduce IntOp.andi
      (cmpf .olt (Host.absf x) (broadcastInDim s ![] hb (constant (⟨0, ![]⟩ : Shape) .f32 0x7F800000#32))) init hred hpos j = 1#1)
    (i : s.Idx) : ∃ r : ℝ, x i = (r : EReal) := by
  have h1 := Host.reduce_andi_all _ init hred hpos j e i
  have h2 : Ideal.cmp .olt (max (x i) (-(x i))) (Ideal.ofBits .f32 0x7F800000#32) = 1#1 := h1
  rw [ofBits_inf] at h2
  exact real_of_abs_lt_top _ (cmp_olt_eq_one h2)

/-- ONE POSITIVITY CONJUNCT: "sum (x * x) > 0" being 1 says the sum of the squares of x is positive. -/
theorem sumsq_pos {n d : Nat} (x : FVec Ideal (⟨2, ![n, d]⟩ : Shape) .f32)
    (hred : (⟨2, ![n, d]⟩ : Shape).ReducesTo [0, 1] (⟨0, ![]⟩ : Shape)) (hpos : 0 < (⟨0, ![]⟩ : Shape).numel)
    (j : (⟨0, ![]⟩ : Shape).Idx)
    (e : cmpf .ogt (Host.reduceAdd (mulf x x) (constant (⟨0, ![]⟩ : Shape) .f32 0x00000000#32) hred hpos)
      (constant (⟨0, ![]⟩ : Shape) .f32 0x00000000#32) j = 1#1) :
    (0 : EReal) < Cell.sumsq (Cell.rd x) := by
  have h2 : Ideal.cmp .ogt (Ideal.hostReduceAdd hred (mulf x x) (Ideal.ofBits .f32 0x00000000#32) j)
      (Ideal.ofBits .f32 0x00000000#32) = 1#1 := e
  rw [Ideal.hostReduceAdd_total hred (fun b => b.elim0), Ideal.ofBits_zero_f32, zero_add, sum_idx2] at h2
  exact cmp_ogt_eq_one h2

open Cert.Pre_finite_inputs in
/-- THE PRECONDITION READ BACK: the two data matrices have real entries and positive sums of squares. -/
theorem pre_facts (a0 a1 a2 a3 : FVec Ideal Cert.Pre_finite_inputs.S65536x256 .f32) (a4 : FVec Ideal Cert.Pre_finite_inputs.S256x256 .f32)
    (a5 : FVec Ideal Cert.Pre_finite_inputs.S256 .f32) (a6 : FVec Ideal Cert.Pre_finite_inputs.S256x256 .f32)
    (a7 : FVec Ideal Cert.Pre_finite_inputs.S256 .f32) (a8 : FVec Ideal Cert.Pre_finite_inputs.S256x256 .f32)
    (a9 : FVec Ideal Cert.Pre_finite_inputs.S256 .f32) (a10 : FVec Ideal Cert.Pre_finite_inputs.S128x256 .f32)
    (a11 : FVec Ideal Cert.Pre_finite_inputs.S128 .f32) (a12 : FVec Ideal Cert.Pre_finite_inputs.S256x256 .f32)
    (a13 : FVec Ideal Cert.Pre_finite_inputs.S256 .f32)
    (h : Cert.Pre_finite_inputs.fn (F := Ideal) a0 a1 a2 a3 a4 a5 a6 a7 a8 a9 a10 a11 a12 a13 = fun _ => 1#1) :
    (∀ r k, ∃ x : ℝ, Cell.rd a2 r k = (x : EReal)) ∧ (∀ r k, ∃ x : ℝ, Cell.rd a3 r k = (x : EReal))
      ∧ (0 : EReal) < Cell.sumsq (Cell.rd a2) ∧ (0 : EReal) < Cell.sumsq (Cell.rd a3) := by
  have h0 := congrFun h ix0
  dsimp only [Cert.Pre_finite_inputs.fn, fn_part1, fn_part2, fn_part3, fn_part4] at h0
  simp only [andi, IntOp.andi_eq_one] at h0
  obtain ⟨⟨⟨⟨⟨⟨⟨⟨⟨⟨⟨⟨⟨⟨⟨-, -⟩, h12⟩, h17⟩, -⟩, -⟩, -⟩, -⟩, -⟩, -⟩, -⟩, -⟩, -⟩, -⟩, h71⟩, h75⟩ := h0
  exact ⟨fun r k => all_finite a2 _ _ _ _ _ h12 (ix2 r k), fun r k => all_finite a3 _ _ _ _ _ h17 (ix2 r k),
    sumsq_pos a2 _ _ _ h71, sumsq_pos a3 _ _ _ h75⟩

end Cert.PreFacts

end
-- ==== Proof.Joined.lean ====
/-
  The two idealized programs end with equal results.

  The kernel program's results are the cell of Cell.lean with the deflation spelt H − X (Xᵀ H) · (1/‖X‖²)
  (the boundary-by-boundary reading of its three regions); the reference's are the same cell with the deflation
  spelt H − X̂ (X̂ᵀ H), X̂ = X / ‖X‖ (its sixty-five host operations read one at a time).  The precondition gives
  that n_r and n_t have real entries and that ‖n_r‖² and ‖n_t‖² are positive, and every stage's entries are real
  (a sum of two hyperbolic tangents), so the two spellings agree (Cell.hidden_eq).

  The three regions' value lemmas enter as hypotheses; the certificate's last module supplies them.
-/
import proofs.«151021_j35390530519886_1_alg».proof.Defs
import proofs.«151021_j35390530519886_1_alg».proof.Proof.Gen.ReferenceIdeal.Read
import proofs.«151021_j35390530519886_1_alg».proof.Proof.Gen.Pre_finite_inputs
import proofs.«151021_j35390530519886_1_alg».proof.Proof.KRun
import proofs.«151021_j35390530519886_1_alg».proof.Proof.KValue
import proofs.«151021_j35390530519886_1_alg».proof.Proof.RefValue
import proofs.«151021_j35390530519886_1_alg».proof.Proof.PreFacts
import proofs.«151021_j35390530519886_1_alg».proof.Proof.CellLaw

noncomputable section

namespace Cert.Proof.Joined

open Idealize.ShloMosaic Idealize.ShloMosaic.TcCoe Idealize.SL.Sem Cell
open Cert.KernelIdeal Cert.KernelIdeal.Gen Cert.KernelIdeal.KValue

section

variable
    (r0h : ∀ (V : Entry) (c : Dev nD), (dat0 (F := Ideal) V c).arrAt 7 cfg0.N
      = arr (stageT (rd (V c (Pipeline.arrRef spec0 0))) (rd (V c (Pipeline.arrRef spec0 1))) (V c (Pipeline.arrRef spec0 3))
          (V c (Pipeline.arrRef spec0 4)) (V c (Pipeline.arrRef spec0 5)) (V c (Pipeline.arrRef spec0 6))))
    (r0g : ∀ (V : Entry) (c : Dev nD), (dat0 (F := Ideal) V c).arrAt 8 cfg0.N
      = arr (gram (rd (V c (Pipeline.arrRef spec0 2))) (stageT (rd (V c (Pipeline.arrRef spec0 0))) (rd (V c (Pipeline.arrRef spec0 1)))
          (V c (Pipeline.arrRef spec0 3)) (V c (Pipeline.arrRef spec0 4)) (V c (Pipeline.arrRef spec0 5)) (V c (Pipeline.arrRef spec0 6)))))
    (r0s : ∀ (V : Entry) (c : Dev nD), (dat0 (F := Ideal) V c).arrAt 9 cfg0.N = fun _ => sumsq (rd (V c (Pipeline.arrRef spec0 2))))
    (r1h : ∀ (V : Entry) (c : Dev nD), (dat1 (F := Ideal) V c).arrAt 9 cfg1.N
      = arr (stageT (rd (V c (Pipeline.arrRef spec1 1)))
          (deflateWith (rd (V c (Pipeline.arrRef spec1 1))) (rd (V c (Pipeline.arrRef spec1 0))) (V c (Pipeline.arrRef spec1 3)) (V c (Pipeline.arrRef spec1 4)))
          (V c (Pipeline.arrRef spec1 5)) (V c (Pipeline.arrRef spec1 6)) (V c (Pipeline.arrRef spec1 7)) (V c (Pipeline.arrRef spec1 8))))
    (r1g : ∀ (V : Entry) (c : Dev nD), (dat1 (F := Ideal) V c).arrAt 10 cfg1.N
      = arr (gram (rd (V c (Pipeline.arrRef spec1 2))) (stageT (rd (V c (Pipeline.arrRef spec1 1)))
          (deflateWith (rd (V c (Pipeline.arrRef spec1 1))) (rd (V c (Pipeline.arrRef spec1 0))) (V c (Pipeline.arrRef spec1 3)) (V c (Pipeline.arrRef spec1 4)))
          (V c (Pipeline.arrRef spec1 5)) (V c (Pipeline.arrRef spec1 6)) (V c (Pipeline.arrRef spec1 7)) (V c (Pipeline.arrRef spec1 8)))))
    (r1s : ∀ (V : Entry) (c : Dev nD), (dat1 (F := Ideal) V c).arrAt 11 cfg1.N = fun _ => sumsq (rd (V c (Pipeline.arrRef spec1 2))))
    (r2h : ∀ (V : Entry) (c : Dev nD), (dat2 (F := Ideal) V c).arrAt 10 cfg2.N
      = arr (stageT (rd (V c (Pipeline.arrRef spec2 1)))
          (deflateWith (rd (V c (Pipeline.arrRef spec2 1))) (rd (V c (Pipeline.arrRef spec2 0))) (V c (Pipeline.arrRef spec2 2)) (V c (Pipeline.arrRef spec2 3)))
          (V c (Pipeline.arrRef spec2 4)) (V c (Pipeline.arrRef spec2 5)) (V c (Pipeline.arrRef spec2 6)) (V c (Pipeline.arrRef spec2 7))))
    (r2o : ∀ (V : Entry) (c : Dev nD), (dat2 (F := Ideal) V c).arrAt 11 cfg2.N
      = arr (actT (stageT (rd (V c (Pipeline.arrRef spec2 1)))
          (deflateWith (rd (V c (Pipeline.arrRef spec2 1))) (rd (V c (Pipeline.arrRef spec2 0))) (V c (Pipeline.arrRef spec2 2)) (V c (Pipeline.arrRef spec2 3)))
          (V c (Pipeline.arrRef spec2 4)) (V c (Pipeline.arrRef spec2 5)) (V c (Pipeline.arrRef spec2 6)) (V c (Pipeline.arrRef spec2 7)))
          (V c (Pipeline.arrRef spec2 8)) (V c (Pipeline.arrRef spec2 9))))

set_option maxHeartbeats 1000000 in
include r0h r0g r0s r1h r1g r1s r2h r2o in
/-- The kernel program's run, its two results read as the cell of the arguments (first spelling). -/
theorem kernel_run (m : (ℓ : Loc nD τ sig) → Buf (Elt Ideal) ℓ) (g : Dev nD → PrngReg) :
    θ_run (Cert.KernelIdeal.defs (F := Ideal)) (onTc (τ := τ) (Cert.KernelIdeal.main (F := Ideal))) ⟨m, fun _ => 0, g⟩ (fun r => ∀ c : Dev nD,
      r.2.mem ((c.tc : Thread nD τ).loc main_v12_0) = arr (H2 m c)
      ∧ r.2.mem ((c.tc : Thread nD τ).loc main_v12_1) = arr (act (H2 m c) (m ((c : Thread nD τ).loc main_arg10)) (m ((c : Thread nD τ).loc main_arg11)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run Cert.KernelIdeal.defs _ _).mono
    (fun r h c => ⟨(h c).1.trans (out0 m g r0h r0g r0s r1h r1g r1s r2h c),
      (h c).2.1.trans (out1 m g r0h r0g r0s r1h r1g r1s r2o c), (h c).2.2⟩)
    (Cert.KernelIdeal.Gen.run_values m g)

end

/-- The reference's first result is the cell's last hidden state, second spelling, of its arguments. -/
theorem ref_hidden_at (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v52 m' c = arr (hiddenR
      (rd (m' ((c.tc : Thread Cert.ReferenceIdeal.nD Cert.ReferenceIdeal.τ).loc Cert.ReferenceIdeal.main_arg1)))
      (rd (m' ((c.tc : Thread Cert.ReferenceIdeal.nD Cert.ReferenceIdeal.τ).loc Cert.ReferenceIdeal.main_arg0)))
      (rd (m' ((c.tc : Thread Cert.ReferenceIdeal.nD Cert.ReferenceIdeal.τ).loc Cert.ReferenceIdeal.main_arg2)))
      (rd (m' ((c.tc : Thread Cert.ReferenceIdeal.nD Cert.ReferenceIdeal.τ).loc Cert.ReferenceIdeal.main_arg3)))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg13))) :=
  (Cert.ReferenceIdeal.Read.val_main_v52_eq m' c).trans (Cert.ReferenceIdeal.RefValue.ref_hidden _ _ _ _ _ _ _ _ _ _ _ _)

/-- The reference's second result is the output layer over that hidden state. -/
theorem ref_out_at (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v58 m' c = arr (act (hiddenR
      (rd (m' ((c.tc : Thread Cert.ReferenceIdeal.nD Cert.ReferenceIdeal.τ).loc Cert.ReferenceIdeal.main_arg1)))
      (rd (m' ((c.tc : Thread Cert.ReferenceIdeal.nD Cert.ReferenceIdeal.τ).loc Cert.ReferenceIdeal.main_arg0)))
      (rd (m' ((c.tc : Thread Cert.ReferenceIdeal.nD Cert.ReferenceIdeal.τ).loc Cert.ReferenceIdeal.main_arg2)))
      (rd (m' ((c.tc : Thread Cert.ReferenceIdeal.nD Cert.ReferenceIdeal.τ).loc Cert.ReferenceIdeal.main_arg3)))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg13)))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))) :=
  (Cert.ReferenceIdeal.Read.val_main_v58_eq m' c).trans (Cert.ReferenceIdeal.RefValue.ref_out _ _ _ _ _ _ _ _ _ _ _ _ _ _)

set_option maxHeartbeats 1000000 in
theorem algebraic_of
    (r0h : ∀ (V : Entry) (c : Dev nD), (dat0 (F := Ideal) V c).arrAt 7 cfg0.N
      = arr (stageT (rd (V c (Pipeline.arrRef spec0 0))) (rd (V c (Pipeline.arrRef spec0 1))) (V c (Pipeline.arrRef spec0 3))
          (V c (Pipeline.arrRef spec0 4)) (V c (Pipeline.arrRef spec0 5)) (V c (Pipeline.arrRef spec0 6))))
    (r0g : ∀ (V : Entry) (c : Dev nD), (dat0 (F := Ideal) V c).arrAt 8 cfg0.N
      = arr (gram (rd (V c (Pipeline.arrRef spec0 2))) (stageT (rd (V c (Pipeline.arrRef spec0 0))) (rd (V c (Pipeline.arrRef spec0 1)))
          (V c (Pipeline.arrRef spec0 3)) (V c (Pipeline.arrRef spec0 4)) (V c (Pipeline.arrRef spec0 5)) (V c (Pipeline.arrRef spec0 6)))))
    (r0s : ∀ (V : Entry) (c : Dev nD), (dat0 (F := Ideal) V c).arrAt 9 cfg0.N = fun _ => sumsq (rd (V c (Pipeline.arrRef spec0 2))))
    (r1h : ∀ (V : Entry) (c : Dev nD), (dat1 (F := Ideal) V c).arrAt 9 cfg1.N
      = arr (stageT (rd (V c (Pipeline.arrRef spec1 1)))
          (deflateWith (rd (V c (Pipeline.arrRef spec1 1))) (rd (V c (Pipeline.arrRef spec1 0))) (V c (Pipeline.arrRef spec1 3)) (V c (Pipeline.arrRef spec1 4)))
          (V c (Pipeline.arrRef spec1 5)) (V c (Pipeline.arrRef spec1 6)) (V c (Pipeline.arrRef spec1 7)) (V c (Pipeline.arrRef spec1 8))))
    (r1g : ∀ (V : Entry) (c : Dev nD), (dat1 (F := Ideal) V c).arrAt 10 cfg1.N
      = arr (gram (rd (V c (Pipeline.arrRef spec1 2))) (stageT (rd (V c (Pipeline.arrRef spec1 1)))
          (deflateWith (rd (V c (Pipeline.arrRef spec1 1))) (rd (V c (Pipeline.arrRef spec1 0))) (V c (Pipeline.arrRef spec1 3)) (V c (Pipeline.arrRef spec1 4)))
          (V c (Pipeline.arrRef spec1 5)) (V c (Pipeline.arrRef spec1 6)) (V c (Pipeline.arrRef spec1 7)) (V c (Pipeline.arrRef spec1 8)))))
    (r1s : ∀ (V : Entry) (c : Dev nD), (dat1 (F := Ideal) V c).arrAt 11 cfg1.N = fun _ => sumsq (rd (V c (Pipeline.arrRef spec1 2))))
    (r2h : ∀ (V : Entry) (c : Dev nD), (dat2 (F := Ideal) V c).arrAt 10 cfg2.N
      = arr (stageT (rd (V c (Pipeline.arrRef spec2 1)))
          (deflateWith (rd (V c (Pipeline.arrRef spec2 1))) (rd (V c (Pipeline.arrRef spec2 0))) (V c (Pipeline.arrRef spec2 2)) (V c (Pipeline.arrRef spec2 3)))
          (V c (Pipeline.arrRef spec2 4)) (V c (Pipeline.arrRef spec2 5)) (V c (Pipeline.arrRef spec2 6)) (V c (Pipeline.arrRef spec2 7))))
    (r2o : ∀ (V : Entry) (c : Dev nD), (dat2 (F := Ideal) V c).arrAt 11 cfg2.N
      = arr (actT (stageT (rd (V c (Pipeline.arrRef spec2 1)))
          (deflateWith (rd (V c (Pipeline.arrRef spec2 1))) (rd (V c (Pipeline.arrRef spec2 0))) (V c (Pipeline.arrRef spec2 2)) (V c (Pipeline.arrRef spec2 3)))
          (V c (Pipeline.arrRef spec2 4)) (V c (Pipeline.arrRef spec2 5)) (V c (Pipeline.arrRef spec2 6)) (V c (Pipeline.arrRef spec2 7)))
          (V c (Pipeline.arrRef spec2 8)) (V c (Pipeline.arrRef spec2 9)))) :
    Cert.algebraic_KernelIdeal_ReferenceIdeal := by
  intro m g m' g' hpre hagree
  refine ⟨fun c => arr (H2 m c),
    fun c => arr (act (H2 m c) (m ((c : Thread nD τ).loc main_arg10)) (m ((c : Thread nD τ).loc main_arg11))),
    kernel_run r0h r0g r0s r1h r1g r1s r2h r2o m g, ?_⟩
  refine (θ_run Cert.ReferenceIdeal.defs _ _).mono (fun r h c => ⟨?_, ?_, (h c).2.2⟩)
    (Cert.ReferenceIdeal.Value.run (F := Ideal) m' g')
  · obtain ⟨hr, ht, hSr, hSt⟩ := Cert.PreFacts.pre_facts _ _ _ _ _ _ _ _ _ _ _ _ _ _ (hpre c)
    refine (h c).1.trans ((ref_hidden_at m' c).trans ?_)
    obtain ⟨e0, e1, e2, e3, e4, e5, e6, e7, e8, e9, e10, e11, e12, e13⟩ := hagree c
    rw [e0, e1, e2, e3, e4, e5, e6, e7, e8, e9, e12, e13]
    show _ = arr (H2 m c)
    rw [H2_eq, Cell.hidden_eq _ _ _ _ _ _ _ _ _ _ _ _ hr ht hSr hSt]
  · obtain ⟨hr, ht, hSr, hSt⟩ := Cert.PreFacts.pre_facts _ _ _ _ _ _ _ _ _ _ _ _ _ _ (hpre c)
    refine (h c).2.1.trans ((ref_out_at m' c).trans ?_)
    obtain ⟨e0, e1, e2, e3, e4, e5, e6, e7, e8, e9, e10, e11, e12, e13⟩ := hagree c
    rw [e0, e1, e2, e3, e4, e5, e6, e7, e8, e9, e10, e11, e12, e13]
    show _ = arr (act (H2 m c) _ _)
    rw [H2_eq, Cell.hidden_eq _ _ _ _ _ _ _ _ _ _ _ _ hr ht hSr hSt]

end Cert.Proof.Joined

end
-- ==== Proof.lean ====
/-
  The certificate of the recurrent cell: a Pallas kernel program of three pallas_calls against its jnp reference,
  equal over the extended reals.

  THE CELL.  From a previous hidden state h_prev and three data matrices n_h, n_r, n_t (65536 × 256 each), three
  stages: h_i = tanh (n_h W_nhᵀ + b_nh) + tanh (h_prev W_hᵀ + b_h); h_i deflated against n_r, that is
  h_i − n̂_r (n̂_rᵀ h_i) with n̂_r = n_r / ‖n_r‖ (‖·‖ the Frobenius norm); h_i_1 the same stage over n_r and the
  deflated h_i; deflation against n_t; h_next the same stage over n_t; and b = tanh (h_next W_btᵀ + b_bt).

  THE KERNEL PROGRAM needs the 256 × 256 matrix n_rᵀ h_i and the number ‖n_r‖² of the WHOLE batch before it can
  correct any row, so it makes three passes over the batch in row blocks of 2048: pass 1 computes h_i and
  accumulates n_rᵀ h_i and ‖n_r‖² in output blocks that never move; pass 2 deflates by (n_r M) · (1/‖n_r‖²),
  computes h_i_1 and accumulates for n_t; pass 3 deflates and computes h_next and b.

  WHY THEY AGREE, AND WHERE.  On the extended reals the kernel's (n_r (n_rᵀ h)) · (1/s) and the reference's
  (n_r/√s) ((n_r/√s)ᵀ h), s = ‖n_r‖², are the same number when the entries of n_r and of h are real and s > 0:
  (1/√s)·(1/√s) = 1/s, and a real factor moves across a finite sum.  Every stage's entries are real (a sum of two
  hyperbolic tangents); n_r and n_t are real by the precondition's finiteness, and s > 0 is the precondition's
  other part: at n_r = 0 the reference divides 0 by 0.  The sums over the batch are the same sums: the kernel's
  thirty-two block sums of 2048 rows are re-indexed to one sum over the 65536 rows.

  THE MODULES.  Cell: the cell by coordinates, both spellings.  CellLaw: the two spellings agree; block sums.
  CellLayout: a layer over a transposed weight and a reshaped bias.  PreFacts: what the precondition says of n_r
  and n_t.  RefValue: the reference's operations read one at a time are the cell, second spelling.  KOps, KBlocks,
  K0a, K0, K1a, K1Pay, K1b, K2: each region's body at an index, its blocks, its accumulators over the grid, its
  arrays after the run.  KFold, KValue: the buffers from boundary to boundary of @main; the kernel program's
  results are the cell, first spelling.  KRun: the run of @main with its results read.  Joined: the two runs side
  by side.  The frames are the generated ones; the reference's is its run with the results dropped; the ideal pass
  rewrote nothing.
-/
import proofs.«151021_j35390530519886_1_alg».proof.Defs
import proofs.«151021_j35390530519886_1_alg».proof.Proof.Gen.Kernel
import proofs.«151021_j35390530519886_1_alg».proof.Proof.Gen.Kernel.Skeleton
import proofs.«151021_j35390530519886_1_alg».proof.Proof.Gen.Kernel.Launch
import proofs.«151021_j35390530519886_1_alg».proof.Proof.Gen.Kernel.Points
import proofs.«151021_j35390530519886_1_alg».proof.Proof.Gen.Kernel.Frame
import proofs.«151021_j35390530519886_1_alg».proof.Proof.Gen.KernelIdeal
import proofs.«151021_j35390530519886_1_alg».proof.Proof.Gen.KernelIdeal.Skeleton
import proofs.«151021_j35390530519886_1_alg».proof.Proof.Gen.KernelIdeal.Launch
import proofs.«151021_j35390530519886_1_alg».proof.Proof.Gen.KernelIdeal.Points
import proofs.«151021_j35390530519886_1_alg».proof.Proof.Gen.KernelIdeal.Frame
import proofs.«151021_j35390530519886_1_alg».proof.Proof.Gen.ReferenceIdeal
import proofs.«151021_j35390530519886_1_alg».proof.Proof.Gen.ReferenceIdeal.Run
import proofs.«151021_j35390530519886_1_alg».proof.Proof.Gen.Pre_finite_inputs
import proofs.«151021_j35390530519886_1_alg».proof.Proof.K0
import proofs.«151021_j35390530519886_1_alg».proof.Proof.K1b
import proofs.«151021_j35390530519886_1_alg».proof.Proof.K2
import proofs.«151021_j35390530519886_1_alg».proof.Proof.Joined
import Idealize.ShloMosaic.Adequacy
import Idealize.ShloMosaic.Init

noncomputable section

namespace Cert.Proof

open Idealize.ShloMosaic Idealize.SL.Sem Cert.Kernel

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The two idealized programs end with equal results: the regions' value lemmas handed to the joined runs. -/
theorem algebraic : Cert.algebraic_KernelIdeal_ReferenceIdeal :=
  Cert.Proof.Joined.algebraic_of
    (fun V c => Cert.KernelIdeal.K0.final7 V c) (fun V c => Cert.KernelIdeal.K0.final8 V c) (fun V c => Cert.KernelIdeal.K0.final9 V c)
    (fun V c => Cert.KernelIdeal.K1.final9 V c) (fun V c => Cert.KernelIdeal.K1.final10 V c) (fun V c => Cert.KernelIdeal.K1.final11 V c)
    (fun V c => Cert.KernelIdeal.K2.final10 V c) (fun V c => Cert.KernelIdeal.K2.final11 V c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
